-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S2400000 : Shape := ⟨1, ![2400000]⟩
abbrev S3x64x64 : Shape := ⟨3, ![3, 64, 64]⟩
abbrev S3x64 : Shape := ⟨2, ![3, 64]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S2400000 : S_.BroadcastsInDim S2400000 (![] : Fin 0 → Fin S2400000.rank)
  reducesTo_S2400000_S_d0 : S2400000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_v28 : IVec S_ 1) (main_v33 : IVec S2400000 1) : IVec S_ 1 :=
  let main_c_12 : IVec S_ 1 := constantI S_ 1 1#1
  let main_v34 : IVec S_ 1 := (fun x v => Host.reduce IntOp.andi x v reducesTo_S2400000_S_d0 h_S_) main_v33 main_c_12
  let main_v35 : IVec S_ 1 := andi main_v28 main_v34
  main_v35

def fn_part1 {F : FTy → Type} [FloatOps F] (main_arg2 : IVec S2400000 32) (main_arg6 : FVec F S3x64x64 .f32) (main_arg7 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg6
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_c_10 : IVec S_ 32 := constantI S_ 32 4294817296#32
  let main_v29 : IVec S2400000 32 := broadcastInDim S2400000 ![] bcast_S_S2400000 main_c_10
  let main_v30 : IVec S2400000 1 := cmpi .sge main_arg2 main_v29
  let main_c_11 : IVec S_ 32 := constantI S_ 32 150000#32
  let main_v31 : IVec S2400000 32 := broadcastInDim S2400000 ![] bcast_S_S2400000 main_c_11
  let main_v32 : IVec S2400000 1 := cmpi .slt main_arg2 main_v31
  let main_v33 : IVec S2400000 1 := andi main_v30 main_v32
  fn_part2 (F := F) main_v28 main_v33

def fn {F : FTy → Type} [FloatOps F] (main_arg0 : FVec F S150000x64 .f32) (main_arg1 : IVec S2400000 32) (main_arg2 : IVec S2400000 32) (main_arg3 : FVec F S2400000 .f32) (main_arg4 : FVec F S3x64x64 .f32) (main_arg5 : FVec F S3x64 .f32) (main_arg6 : FVec F S3x64x64 .f32) (main_arg7 : FVec F S3x64 .f32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S2400000 .f32 := Host.absf main_arg3
  let main_cst_0 : FVec F S_ .f32 := constant S_ .f32 0x7F800000#32
  let main_v5 : FVec F S2400000 .f32 := broadcastInDim S2400000 ![] bcast_S_S2400000 main_cst_0
  let main_v6 : IVec S2400000 1 := cmpf .olt main_v4 main_v5
  let main_c_1 : IVec S_ 1 := constantI S_ 1 1#1
  let main_v7 : IVec S_ 1 := (fun x v => Host.reduce IntOp.andi x v reducesTo_S2400000_S_d0 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg2 main_arg6 main_arg7 main_v13 main_v16
-- ==== Kernel.lean ====
abbrev S150000x64 : Shape := ⟨2, ![150000, 64]⟩
abbrev S2400000 : Shape := ⟨1, ![2400000]⟩
abbrev S3x64x64 : Shape := ⟨3, ![3, 64, 64]⟩
abbrev S3x64 : Shape := ⟨2, ![3, 64]⟩
abbrev S_ : Shape := ⟨0, ![]⟩
abbrev S2400000x1 : Shape := ⟨2, ![2400000, 1]⟩
abbrev S1 : Shape := ⟨1, ![1]⟩
abbrev S1x1 : Shape := ⟨2, ![1, 1]⟩
abbrev S2400000x64 : Shape := ⟨2, ![2400000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S3000x64 : Shape := ⟨2, ![3000, 64]⟩
abbrev S3000 : Shape := ⟨1, ![3000]⟩
abbrev S3000x1 : Shape := ⟨2, ![3000, 1]⟩
abbrev S150000x256 : Shape := ⟨2, ![150000, 256]⟩

abbrev nBuf : Space → Nat
  | .hbm => 135
  | .vmem => 36
  | .smem => 0
  | _ => 0

abbrev hbmTy0_0 (i : Nat) : BufTy := match i % 128 with
  | 0 => ⟨S150000x64, .f32⟩
  | 1 => ⟨S2400000, .i32⟩
  | 2 => ⟨S2400000, .i32⟩
  | 3 => ⟨S2400000, .f32⟩
  | 4 => ⟨S3x64x64, .f32⟩
  | 5 => ⟨S3x64, .f32⟩
  | 6 => ⟨S3x64x64, .f32⟩
  | 7 => ⟨S3x64, .f32⟩
  | 8 => ⟨S_, .i32⟩
  | 9 => ⟨S2400000, .i32⟩
  | 10 => ⟨S2400000, .i1⟩
  | 11 => ⟨S_, .i32⟩
  | 12 => ⟨S2400000, .i32⟩
  | 13 => ⟨S2400000, .i32⟩
  | 14 => ⟨S2400000, .i32⟩
  | 15 => ⟨S2400000x1, .i32⟩
  | 16 => ⟨S1, .i32⟩
  | 17 => ⟨S_, .i32⟩
  | 18 => ⟨S2400000x1, .i32⟩
  | 19 => ⟨S2400000x1, .i1⟩
  | 20 => ⟨S1x1, .i32⟩
  | 21 => ⟨S2400000x1, .i32⟩
  | 22 => ⟨S2400000x1, .i1⟩
  | 23 => ⟨S2400000x1, .i1⟩
  | 24 => ⟨S_, .i1⟩
  | 25 => ⟨S2400000, .i1⟩
  | 26 => ⟨S2400000x64, .f32⟩
  | 27 => ⟨S2400000x64, .i1⟩
  | 28 => ⟨S_, .f32⟩
  | 29 => ⟨S2400000x64, .f32⟩
  | 30 => ⟨S2400000x64, .f32⟩
  | 31 => ⟨S2400000x1, .f32⟩
  | 32 => ⟨S2400000x64, .f32⟩
  | 33 => ⟨S2400000x64, .f32⟩
  | 34 => ⟨S_, .f32⟩
  | 35 => ⟨S150000x64, .f32⟩
  | 36 => ⟨S2400000x1, .i32⟩
  | 37 => ⟨S150000x64, .f32⟩
  | 38 => ⟨S1x64x64, .f32⟩
  | 39 => ⟨S64x64, .f32⟩
  | 40 => ⟨S1x64, .f32⟩
  | 41 => ⟨S64, .f32⟩
  | 42 => ⟨S1x64, .f32⟩
  | 43 => ⟨S1x64x64, .f32⟩
  | 44 => ⟨S64x64, .f32⟩
  | 45 => ⟨S1x64, .f32⟩
  | 46 => ⟨S64, .f32⟩
  | 47 => ⟨S1x64, .f32⟩
  | 48 => ⟨S150000x64, .f32⟩
  | 49 => ⟨S150000x64, .f32⟩
  | 50 => ⟨S_, .i32⟩
  | 51 => ⟨S2400000, .i32⟩
  | 52 => ⟨S2400000, .i1⟩
  | 53 => ⟨S_, .i32⟩
  | 54 => ⟨S2400000, .i32⟩
  | 55 => ⟨S2400000, .i32⟩
  | 56 => ⟨S2400000, .i32⟩
  | 57 => ⟨S2400000x1, .i32⟩
  | 58 => ⟨S1, .i32⟩
  | 59 => ⟨S_, .i32⟩
  | 60 => ⟨S2400000x1, .i32⟩
  | 61 => ⟨S2400000x1, .i1⟩
  | 62 => ⟨S1x1, .i32⟩
  | 63 => ⟨S2400000x1, .i32⟩
  | 64 => ⟨S2400000x1, .i1⟩
  | 65 => ⟨S2400000x1, .i1⟩
  | 66 => ⟨S_, .i1⟩
  | 67 => ⟨S2400000, .i1⟩
  | 68 => ⟨S2400000x64, .f32⟩
  | 69 => ⟨S2400000x64, .i1⟩
  | 70 => ⟨S_, .f32⟩
  | 71 => ⟨S2400000x64, .f32⟩
  | 72 => ⟨S2400000x64, .f32⟩
  | 73 => ⟨S2400000x1, .f32⟩
  | 74 => ⟨S2400000x64, .f32⟩
  | 75 => ⟨S2400000x64, .f32⟩
  | 76 => ⟨S_, .f32⟩
  | 77 => ⟨S150000x64, .f32⟩
  | 78 => ⟨S2400000x1, .i32⟩
  | 79 => ⟨S150000x64, .f32⟩
  | 80 => ⟨S1x64x64, .f32⟩
  | 81 => ⟨S64x64, .f32⟩
  | 82 => ⟨S1x64, .f32⟩
  | 83 => ⟨S64, .f32⟩
  | 84 => ⟨S1x64, .f32⟩
  | 85 => ⟨S1x64x64, .f32⟩
  | 86 => ⟨S64x64, .f32⟩
  | 87 => ⟨S1x64, .f32⟩
  | 88 => ⟨S64, .f32⟩
  | 89 => ⟨S1x64, .f32⟩
  | 90 => ⟨S150000x64, .f32⟩
  | 91 => ⟨S150000x64, .f32⟩
  | 92 => ⟨S_, .i32⟩
  | 93 => ⟨S2400000, .i32⟩
  | 94 => ⟨S2400000, .i1⟩
  | 95 => ⟨S_, .i32⟩
  | 96 => ⟨S2400000, .i32⟩
  | 97 => ⟨S2400000, .i32⟩
  | 98 => ⟨S2400000, .i32⟩
  | 99 => ⟨S2400000x1, .i32⟩
  | 100 => ⟨S1, .i32⟩
  | 101 => ⟨S_, .i32⟩
  | 102 => ⟨S2400000x1, .i32⟩
  | 103 => ⟨S2400000x1, .i1⟩
  | 104 => ⟨S1x1, .i32⟩
  | 105 => ⟨S2400000x1, .i32⟩
  | 106 => ⟨S2400000x1, .i1⟩
  | 107 => ⟨S2400000x1, .i1⟩
  | 108 => ⟨S_, .i1⟩
  | 109 => ⟨S2400000, .i1⟩
  | 110 => ⟨S2400000x64, .f32⟩
  | 111 => ⟨S2400000x64, .i1⟩
  | 112 => ⟨S_, .f32⟩
  | 113 => ⟨S2400000x64, .f32⟩
  | 114 => ⟨S2400000x64, .f32⟩
  | 115 => ⟨S2400000x1, .f32⟩
  | 116 => ⟨S2400000x64, .f32⟩
  | 117 => ⟨S2400000x64, .f32⟩
  | 118 => ⟨S_, .f32⟩
  | 119 => ⟨S150000x64, .f32⟩
  | 120 => ⟨S2400000x1, .i32⟩
  | 121 => ⟨S150000x64, .f32⟩
  | 122 => ⟨S1x64x64, .f32⟩
  | 123 => ⟨S64x64, .f32⟩
  | 124 => ⟨S1x64, .f32⟩
  | 125 => ⟨S64, .f32⟩
  | 126 => ⟨S1x64, .f32⟩
  | 127 => ⟨S1x64x64, .f32⟩
  | _ => ⟨S150000x64, .f32⟩

abbrev hbmTy0_1 (i : Nat) : BufTy := match i % 128 with
  | 0 => ⟨S64x64, .f32⟩
  | 1 => ⟨S1x64, .f32⟩
  | 2 => ⟨S64, .f32⟩
  | 3 => ⟨S1x64, .f32⟩
  | 4 => ⟨S150000x64, .f32⟩
  | 5 => ⟨S150000x64, .f32⟩
  | 6 => ⟨S150000x256, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S3000x64, .f32⟩
  | .local _ .vmem, ⟨9, _⟩ => ⟨S3000x64, .f32⟩
  | .local _ .vmem, ⟨10, _⟩ => ⟨S3000x64, .f32⟩
  | .local _ .vmem, ⟨11, _⟩ => ⟨S3000x64, .f32⟩
  | .local _ .vmem, ⟨12, _⟩ => ⟨S3000x64, .f32⟩
  | .local _ .vmem, ⟨13, _⟩ => ⟨S3000x64, .f32⟩
  | .local _ .vmem, ⟨14, _⟩ => ⟨S3000x64, .f32⟩
  | .local _ .vmem, ⟨15, _⟩ => ⟨S3000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S3000x64, .f32⟩
  | .local _ .vmem, ⟨21, _⟩ => ⟨S3000x64, .f32⟩
  | .local _ .vmem, ⟨22, _⟩ => ⟨S3000x64, .f32⟩
  | .local _ .vmem, ⟨23, _⟩ => ⟨S3000x64, .f32⟩
  | .local _ .vmem, ⟨24, _⟩ => ⟨S3000x64, .f32⟩
  | .local _ .vmem, ⟨25, _⟩ => ⟨S3000x64, .f32⟩
  | .local _ .vmem, ⟨26, _⟩ => ⟨S3000x64, .f32⟩
  | .local _ .vmem, ⟨27, _⟩ => ⟨S3000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S3000x64, .f32⟩
  | .local _ .vmem, ⟨33, _⟩ => ⟨S3000x64, .f32⟩
  | .local _ .vmem, ⟨34, _⟩ => ⟨S3000x64, .f32⟩
  | .local _ .vmem, ⟨35, _⟩ => ⟨S3000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17_0 : Ref sig .tc := ⟨.hbm, 48, rfl⟩
abbrev main_v17_1 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_cst_0 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35_0 : Ref sig .tc := ⟨.hbm, 90, rfl⟩
abbrev main_v35_1 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_cst_1 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53_0 : Ref sig .tc := ⟨.hbm, 132, rfl⟩
abbrev main_v53_1 : Ref sig .tc := ⟨.hbm, 133, rfl⟩
abbrev main_v54 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S3000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S3000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S3000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S_S2400000x1 : S_.BroadcastsInDim S2400000x1 (![] : Fin 0 → Fin S2400000x1.rank)
  bcast_S1_S1x1_1 : S1.BroadcastsInDim S1x1 (![1] : Fin 1 → Fin S1x1.rank)
  bcast_S1x1_S2400000x1_0_1 : S1x1.BroadcastsInDim S2400000x1 (![0, 1] : Fin 2 → Fin S2400000x1.rank)
  reducesTo_S2400000x1_S2400000_d1 : S2400000x1.ReducesTo [1] S2400000
  h_S_ : 0 < S_.numel
  bcast_S2400000_S2400000x64_0 : S2400000.BroadcastsInDim S2400000x64 (![0] : Fin 1 → Fin S2400000x64.rank)
  bcast_S_S2400000x64 : S_.BroadcastsInDim S2400000x64 (![] : Fin 0 → Fin S2400000x64.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3000x64 : S1x64.Broadcasts S3000x64
  reduces_S3000x64_S3000 : S3000x64.Reduces [1] S3000
  shapeCasts_S3000_S3000x1 : S3000.ShapeCasts S3000x1
  broadcasts_S3000x1_S3000x64 : S3000x1.Broadcasts S3000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S150000x64_S150000x64_S150000x64_S150000x64_S150000x256_d1 : Shape.Concatenates [S150000x64, S150000x64, S150000x64, S150000x64] S150000x256 1
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S3000x64_S64x64_S3000x64_1_0_0_1_n_n_wf : DotDims.WF S3000x64 S64x64 S3000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S150000x64.size a
  hwx0_1 : ∀ i : grid0.Coords, EltTy.bits .f32 = 32 ∨ (Rect.block (s := S150000x64) S3000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3000x64.size a ≤ S150000x64.size a
  hwx0_6 : ∀ i : grid0.Coords, EltTy.bits .f32 = 32 ∨ (Rect.block (s := S150000x64) S3000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3000x64.size a ≤ S150000x64.size a
  hwx0_7 : ∀ i : grid0.Coords, EltTy.bits .f32 = 32 ∨ (Rect.block (s := S150000x64) S3000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S150000x64.size a
  hwx1_0 : ∀ i : grid1.Coords, EltTy.bits .f32 = 32 ∨ (Rect.block (s := S150000x64) S3000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x64.size a ≤ S150000x64.size a
  hwx1_1 : ∀ i : grid1.Coords, EltTy.bits .f32 = 32 ∨ (Rect.block (s := S150000x64) S3000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3000x64.size a ≤ S150000x64.size a
  hwx1_6 : ∀ i : grid1.Coords, EltTy.bits .f32 = 32 ∨ (Rect.block (s := S150000x64) S3000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3000x64.size a ≤ S150000x64.size a
  hwx1_7 : ∀ i : grid1.Coords, EltTy.bits .f32 = 32 ∨ (Rect.block (s := S150000x64) S3000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S150000x64.size a
  hwx2_0 : ∀ i : grid2.Coords, EltTy.bits .f32 = 32 ∨ (Rect.block (s := S150000x64) S3000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x64.size a ≤ S150000x64.size a
  hwx2_1 : ∀ i : grid2.Coords, EltTy.bits .f32 = 32 ∨ (Rect.block (s := S150000x64) S3000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3000x64.size a ≤ S150000x64.size a
  hwx2_6 : ∀ i : grid2.Coords, EltTy.bits .f32 = 32 ∨ (Rect.block (s := S150000x64) S3000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S3000x64.size a ≤ S150000x64.size a
  hwx2_7 : ∀ i : grid2.Coords, EltTy.bits .f32 = 32 ∨ (Rect.block (s := S150000x64) S3000x64.size (cc2_transform_7 i) (hinb2_7 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf

abbrev win0_0 : Pipeline.Window sig grid0 :=
  Pipeline.Window.ofSpec (Memref.whole main_arg0) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17_0) S3000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v17_1) S3000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17_0) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S3000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35_0) S3000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v35_1) S3000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v35_0) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S3000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53_0) S3000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v53_1) S3000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S150000x64 : Shape := ⟨2, ![150000, 64]⟩
abbrev S2400000 : Shape := ⟨1, ![2400000]⟩
abbrev S3x64x64 : Shape := ⟨3, ![3, 64, 64]⟩
abbrev S3x64 : Shape := ⟨2, ![3, 64]⟩
abbrev S_ : Shape := ⟨0, ![]⟩
abbrev S2400000x1 : Shape := ⟨2, ![2400000, 1]⟩
abbrev S2400000x64 : Shape := ⟨2, ![2400000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S150000 : Shape := ⟨1, ![150000]⟩
abbrev S150000x1 : Shape := ⟨2, ![150000, 1]⟩
abbrev S150000x256 : Shape := ⟨2, ![150000, 256]⟩

abbrev nBuf : Space → Nat
  | .hbm => 189
  | .vmem => 0
  | .smem => 0
  | _ => 0

abbrev hbmTy0_0 (i : Nat) : BufTy := match i % 128 with
  | 0 => ⟨S150000x64, .f32⟩
  | 1 => ⟨S2400000, .i32⟩
  | 2 => ⟨S2400000, .i32⟩
  | 3 => ⟨S2400000, .f32⟩
  | 4 => ⟨S3x64x64, .f32⟩
  | 5 => ⟨S3x64, .f32⟩
  | 6 => ⟨S3x64x64, .f32⟩
  | 7 => ⟨S3x64, .f32⟩
  | 8 => ⟨S_, .i32⟩
  | 9 => ⟨S2400000, .i32⟩
  | 10 => ⟨S2400000, .i1⟩
  | 11 => ⟨S_, .i32⟩
  | 12 => ⟨S2400000, .i32⟩
  | 13 => ⟨S2400000, .i32⟩
  | 14 => ⟨S2400000, .i32⟩
  | 15 => ⟨S2400000x1, .i32⟩
  | 16 => ⟨S2400000x64, .f32⟩
  | 17 => ⟨S2400000x1, .f32⟩
  | 18 => ⟨S2400000x64, .f32⟩
  | 19 => ⟨S2400000x64, .f32⟩
  | 20 => ⟨S_, .f32⟩
  | 21 => ⟨S150000x64, .f32⟩
  | 22 => ⟨S2400000x1, .i32⟩
  | 23 => ⟨S150000x64, .f32⟩
  | 24 => ⟨S1x64x64, .f32⟩
  | 25 => ⟨S64x64, .f32⟩
  | 26 => ⟨S150000x64, .f32⟩
  | 27 => ⟨S1x64, .f32⟩
  | 28 => ⟨S64, .f32⟩
  | 29 => ⟨S1x64, .f32⟩
  | 30 => ⟨S150000x64, .f32⟩
  | 31 => ⟨S150000x64, .f32⟩
  | 32 => ⟨S_, .f32⟩
  | 33 => ⟨S_, .f32⟩
  | 34 => ⟨S150000x64, .f32⟩
  | 35 => ⟨S150000x64, .i1⟩
  | 36 => ⟨S_, .f32⟩
  | 37 => ⟨S150000x64, .f32⟩
  | 38 => ⟨S150000x64, .f32⟩
  | 39 => ⟨S150000x64, .f32⟩
  | 40 => ⟨S150000x64, .f32⟩
  | 41 => ⟨S1x64x64, .f32⟩
  | 42 => ⟨S64x64, .f32⟩
  | 43 => ⟨S150000x64, .f32⟩
  | 44 => ⟨S1x64, .f32⟩
  | 45 => ⟨S64, .f32⟩
  | 46 => ⟨S1x64, .f32⟩
  | 47 => ⟨S150000x64, .f32⟩
  | 48 => ⟨S150000x64, .f32⟩
  | 49 => ⟨S_, .f32⟩
  | 50 => ⟨S_, .f32⟩
  | 51 => ⟨S150000x64, .f32⟩
  | 52 => ⟨S150000x64, .i1⟩
  | 53 => ⟨S_, .f32⟩
  | 54 => ⟨S150000x64, .f32⟩
  | 55 => ⟨S150000x64, .f32⟩
  | 56 => ⟨S150000x64, .f32⟩
  | 57 => ⟨S150000x64, .f32⟩
  | 58 => ⟨S150000x64, .f32⟩
  | 59 => ⟨S_, .f32⟩
  | 60 => ⟨S150000, .f32⟩
  | 61 => ⟨S150000x1, .f32⟩
  | 62 => ⟨S150000x1, .f32⟩
  | 63 => ⟨S_, .f32⟩
  | 64 => ⟨S150000x1, .f32⟩
  | 65 => ⟨S150000x1, .f32⟩
  | 66 => ⟨S150000x64, .f32⟩
  | 67 => ⟨S150000x64, .f32⟩
  | 68 => ⟨S_, .i32⟩
  | 69 => ⟨S2400000, .i32⟩
  | 70 => ⟨S2400000, .i1⟩
  | 71 => ⟨S_, .i32⟩
  | 72 => ⟨S2400000, .i32⟩
  | 73 => ⟨S2400000, .i32⟩
  | 74 => ⟨S2400000, .i32⟩
  | 75 => ⟨S2400000x1, .i32⟩
  | 76 => ⟨S2400000x64, .f32⟩
  | 77 => ⟨S2400000x1, .f32⟩
  | 78 => ⟨S2400000x64, .f32⟩
  | 79 => ⟨S2400000x64, .f32⟩
  | 80 => ⟨S_, .f32⟩
  | 81 => ⟨S150000x64, .f32⟩
  | 82 => ⟨S2400000x1, .i32⟩
  | 83 => ⟨S150000x64, .f32⟩
  | 84 => ⟨S1x64x64, .f32⟩
  | 85 => ⟨S64x64, .f32⟩
  | 86 => ⟨S150000x64, .f32⟩
  | 87 => ⟨S1x64, .f32⟩
  | 88 => ⟨S64, .f32⟩
  | 89 => ⟨S1x64, .f32⟩
  | 90 => ⟨S150000x64, .f32⟩
  | 91 => ⟨S150000x64, .f32⟩
  | 92 => ⟨S_, .f32⟩
  | 93 => ⟨S_, .f32⟩
  | 94 => ⟨S150000x64, .f32⟩
  | 95 => ⟨S150000x64, .i1⟩
  | 96 => ⟨S_, .f32⟩
  | 97 => ⟨S150000x64, .f32⟩
  | 98 => ⟨S150000x64, .f32⟩
  | 99 => ⟨S150000x64, .f32⟩
  | 100 => ⟨S150000x64, .f32⟩
  | 101 => ⟨S1x64x64, .f32⟩
  | 102 => ⟨S64x64, .f32⟩
  | 103 => ⟨S150000x64, .f32⟩
  | 104 => ⟨S1x64, .f32⟩
  | 105 => ⟨S64, .f32⟩
  | 106 => ⟨S1x64, .f32⟩
  | 107 => ⟨S150000x64, .f32⟩
  | 108 => ⟨S150000x64, .f32⟩
  | 109 => ⟨S_, .f32⟩
  | 110 => ⟨S_, .f32⟩
  | 111 => ⟨S150000x64, .f32⟩
  | 112 => ⟨S150000x64, .i1⟩
  | 113 => ⟨S_, .f32⟩
  | 114 => ⟨S150000x64, .f32⟩
  | 115 => ⟨S150000x64, .f32⟩
  | 116 => ⟨S150000x64, .f32⟩
  | 117 => ⟨S150000x64, .f32⟩
  | 118 => ⟨S150000x64, .f32⟩
  | 119 => ⟨S_, .f32⟩
  | 120 => ⟨S150000, .f32⟩
  | 121 => ⟨S150000x1, .f32⟩
  | 122 => ⟨S150000x1, .f32⟩
  | 123 => ⟨S_, .f32⟩
  | 124 => ⟨S150000x1, .f32⟩
  | 125 => ⟨S150000x1, .f32⟩
  | 126 => ⟨S150000x64, .f32⟩
  | 127 => ⟨S150000x64, .f32⟩
  | _ => ⟨S150000x64, .f32⟩

abbrev hbmTy0_1 (i : Nat) : BufTy := match i % 128 with
  | 0 => ⟨S_, .i32⟩
  | 1 => ⟨S2400000, .i32⟩
  | 2 => ⟨S2400000, .i1⟩
  | 3 => ⟨S_, .i32⟩
  | 4 => ⟨S2400000, .i32⟩
  | 5 => ⟨S2400000, .i32⟩
  | 6 => ⟨S2400000, .i32⟩
  | 7 => ⟨S2400000x1, .i32⟩
  | 8 => ⟨S2400000x64, .f32⟩
  | 9 => ⟨S2400000x1, .f32⟩
  | 10 => ⟨S2400000x64, .f32⟩
  | 11 => ⟨S2400000x64, .f32⟩
  | 12 => ⟨S_, .f32⟩
  | 13 => ⟨S150000x64, .f32⟩
  | 14 => ⟨S2400000x1, .i32⟩
  | 15 => ⟨S150000x64, .f32⟩
  | 16 => ⟨S1x64x64, .f32⟩
  | 17 => ⟨S64x64, .f32⟩
  | 18 => ⟨S150000x64, .f32⟩
  | 19 => ⟨S1x64, .f32⟩
  | 20 => ⟨S64, .f32⟩
  | 21 => ⟨S1x64, .f32⟩
  | 22 => ⟨S150000x64, .f32⟩
  | 23 => ⟨S150000x64, .f32⟩
  | 24 => ⟨S_, .f32⟩
  | 25 => ⟨S_, .f32⟩
  | 26 => ⟨S150000x64, .f32⟩
  | 27 => ⟨S150000x64, .i1⟩
  | 28 => ⟨S_, .f32⟩
  | 29 => ⟨S150000x64, .f32⟩
  | 30 => ⟨S150000x64, .f32⟩
  | 31 => ⟨S150000x64, .f32⟩
  | 32 => ⟨S150000x64, .f32⟩
  | 33 => ⟨S1x64x64, .f32⟩
  | 34 => ⟨S64x64, .f32⟩
  | 35 => ⟨S150000x64, .f32⟩
  | 36 => ⟨S1x64, .f32⟩
  | 37 => ⟨S64, .f32⟩
  | 38 => ⟨S1x64, .f32⟩
  | 39 => ⟨S150000x64, .f32⟩
  | 40 => ⟨S150000x64, .f32⟩
  | 41 => ⟨S_, .f32⟩
  | 42 => ⟨S_, .f32⟩
  | 43 => ⟨S150000x64, .f32⟩
  | 44 => ⟨S150000x64, .i1⟩
  | 45 => ⟨S_, .f32⟩
  | 46 => ⟨S150000x64, .f32⟩
  | 47 => ⟨S150000x64, .f32⟩
  | 48 => ⟨S150000x64, .f32⟩
  | 49 => ⟨S150000x64, .f32⟩
  | 50 => ⟨S150000x64, .f32⟩
  | 51 => ⟨S_, .f32⟩
  | 52 => ⟨S150000, .f32⟩
  | 53 => ⟨S150000x1, .f32⟩
  | 54 => ⟨S150000x1, .f32⟩
  | 55 => ⟨S_, .f32⟩
  | 56 => ⟨S150000x1, .f32⟩
  | 57 => ⟨S150000x1, .f32⟩
  | 58 => ⟨S150000x64, .f32⟩
  | 59 => ⟨S150000x64, .f32⟩
  | 60 => ⟨S150000x256, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_call1_cst : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v31 : Ref sig .tc := ⟨.hbm, 56, rfl⟩
abbrev main_v32 : Ref sig .tc := ⟨.hbm, 57, rfl⟩
abbrev main_call2_v0 : Ref sig .tc := ⟨.hbm, 58, rfl⟩
abbrev main_call2_cst : Ref sig .tc := ⟨.hbm, 59, rfl⟩
abbrev main_call2_v1 : Ref sig .tc := ⟨.hbm, 60, rfl⟩
abbrev main_call2_v2 : Ref sig .tc := ⟨.hbm, 61, rfl⟩
abbrev main_v33 : Ref sig .tc := ⟨.hbm, 62, rfl⟩
abbrev main_cst_3 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_4 : Ref sig .tc := ⟨.hbm, 68, rfl⟩
abbrev main_v38 : Ref sig .tc := ⟨.hbm, 69, rfl⟩
abbrev main_v39 : Ref sig .tc := ⟨.hbm, 70, rfl⟩
abbrev main_c_5 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_6 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_7 : Ref sig .tc := ⟨.hbm, 92, rfl⟩
abbrev main_call3_cst : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_8 : Ref sig .tc := ⟨.hbm, 109, rfl⟩
abbrev main_call4_cst : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_v69 : Ref sig .tc := ⟨.hbm, 116, rfl⟩
abbrev main_v70 : Ref sig .tc := ⟨.hbm, 117, rfl⟩
abbrev main_call5_v0 : Ref sig .tc := ⟨.hbm, 118, rfl⟩
abbrev main_call5_cst : Ref sig .tc := ⟨.hbm, 119, rfl⟩
abbrev main_call5_v1 : Ref sig .tc := ⟨.hbm, 120, rfl⟩
abbrev main_call5_v2 : Ref sig .tc := ⟨.hbm, 121, rfl⟩
abbrev main_v71 : Ref sig .tc := ⟨.hbm, 122, rfl⟩
abbrev main_cst_9 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_c_10 : Ref sig .tc := ⟨.hbm, 128, rfl⟩
abbrev main_v76 : Ref sig .tc := ⟨.hbm, 129, rfl⟩
abbrev main_v77 : Ref sig .tc := ⟨.hbm, 130, rfl⟩
abbrev main_c_11 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_cst_12 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_13 : Ref sig .tc := ⟨.hbm, 152, rfl⟩
abbrev main_call6_cst : Ref sig .tc := ⟨.hbm, 153, rfl⟩
abbrev main_call6_v0 : Ref sig .tc := ⟨.hbm, 154, rfl⟩
abbrev main_call6_v1 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_cst_14 : Ref sig .tc := ⟨.hbm, 169, rfl⟩
abbrev main_call7_cst : Ref sig .tc := ⟨.hbm, 170, rfl⟩
abbrev main_call7_v0 : Ref sig .tc := ⟨.hbm, 171, rfl⟩
abbrev main_call7_v1 : Ref sig .tc := ⟨.hbm, 172, rfl⟩
abbrev main_call7_v2 : Ref sig .tc := ⟨.hbm, 173, rfl⟩
abbrev main_call7_v3 : Ref sig .tc := ⟨.hbm, 174, rfl⟩
abbrev main_call7_v4 : Ref sig .tc := ⟨.hbm, 175, rfl⟩
abbrev main_v107 : Ref sig .tc := ⟨.hbm, 176, rfl⟩
abbrev main_v108 : Ref sig .tc := ⟨.hbm, 177, rfl⟩
abbrev main_call8_v0 : Ref sig .tc := ⟨.hbm, 178, rfl⟩
abbrev main_call8_cst : Ref sig .tc := ⟨.hbm, 179, rfl⟩
abbrev main_call8_v1 : Ref sig .tc := ⟨.hbm, 180, rfl⟩
abbrev main_call8_v2 : Ref sig .tc := ⟨.hbm, 181, rfl⟩
abbrev main_v109 : Ref sig .tc := ⟨.hbm, 182, rfl⟩
abbrev main_cst_15 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩

abbrev nD : Nat := 1
abbrev τ : Topo := Topo.v7x

variable {F : FTy → Type} [FloatOps F]

class Facts₀ : Prop where
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S150000x64_S150000x64_S150000x64_S150000x64_S150000x256_d1 : Shape.Concatenates [S150000x64, S150000x64, S150000x64, S150000x64] S150000x256 1
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S150000x64_S64x64_S150000x64_1_0_0_1_n_n_wf : DotDims.WF S150000x64 S64x64 S150000x64 [1] [0] [0] [1] [] []

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf

class Facts : Prop extends Facts₀ where

variable [Facts]
-- ==== Proof.K.Body0.lean ====
/-
  Pallas call 0 of the program: the dense layer step on one block of 3000 rows.
  From the six input blocks (the embedding rows, the propagated rows, the two weight matrices and
  the two bias rows) the body leaves the new embedding block in the first output buffer and its
  row-normalised copy in the second; both are stored whole, so each output buffer after the body
  is one function of the input blocks. The proof data of the pipeline records exactly that, at an
  arbitrary content `V` of the arrays on entry.
-/
import proofs.«416135_j28965259444540_1_alg».proof.Proof.Gen.Kernel.Launch
import proofs.«416135_j28965259444540_1_alg».proof.Proof.Gen.Kernel.Skeleton
import proofs.«416135_j28965259444540_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether it was fetched there or the block index stood still. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether it was fetched there or the block index stood still. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether it was fetched there or the block index stood still. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, whether it was fetched there or the block index stood still. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, whether it was fetched there or the block index stood still. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, whether it was fetched there or the block index stood still. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body reads and writes: a [3000, 64] block, a [64, 64] matrix, a [1, 64] row. -/
abbrev rect0_A : Rect S3000x64 := Rect.unit (s := S3000x64) ![0, 0] S3000x64.size inb_S3000x64_S3000x64_0_0
abbrev rect0_W : Rect S64x64 := Rect.unit (s := S64x64) ![0, 0] S64x64.size inb_S64x64_S64x64_0_0
abbrev rect0_B : Rect S1x64 := Rect.unit (s := S1x64) ![0, 0] S1x64.size inb_S1x64_S1x64_0_0

/-- The first output buffer after the body: the new embedding block, one whole store. -/
def out0_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rect0_A, k0_pay2 (View.ld x0 rect0_A) (View.ld x1 rect0_A) (View.ld x2 rect0_W) (View.ld x4 rect0_W) (View.ld x3 rect0_B) (View.ld x5 rect0_B)⟩]
/-- The second output buffer after the body: the row-normalised block, one whole store. -/
def out0_7 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rect0_A, k0_pay1 (k0_pay2 (View.ld x0 rect0_A) (View.ld x1 rect0_A) (View.ld x2 rect0_W) (View.ld x4 rect0_W) (View.ld x3 rect0_B) (View.ld x5 rect0_B)) (k0_pay3 (View.ld x0 rect0_A) (View.ld x1 rect0_A) (View.ld x2 rect0_W) (View.ld x4 rect0_W) (View.ld x3 rect0_B) (View.ld x5 rect0_B))⟩]

/-- One whole store covers the buffer. -/
theorem cover0 (p0 : Vec F S3000x64 .f32) (y : S3000x64.Idx) :
    ∃ pc ∈ ([⟨rect0_A, p0⟩] : List (View.Piece (Elt F) S3000x64 .f32)), y ∈ pc.1.set :=
  View.cover_of_tiled [⟨rect0_A, p0⟩] S3000x64.size (by rfl) y

set_option maxHeartbeats 1000000 in
/-- The body on whole staging buffers, the inputs' holding `x0 … x5` and the outputs' anything, runs to its end
    leaving the inputs as they were and the two outputs at `out0_6` and `out0_7` of the inputs. -/
theorem sound_kernel0 (c : Dev nD) (E : Set ℕ) (i : grid0.Coords) (arg0 : Memref sig .tc .vmem S3000x64 .f32) (harg0 : arg0.IsWhole) (arg1 : Memref sig .tc .vmem S3000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S3000x64 .f32) (harg6 : arg6.IsWhole) (arg7 : Memref sig .tc .vmem S3000x64 .f32) (harg7 : arg7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5) ∗ owns (c : Thread nD τ) arg7 fullShare (out0_7 x0 x1 x2 x3 x4 x5)) -∗ K ⟨⟩))
      ⊢ wp frame (wpE (defs₀ (F := F)) Variants.none c none) E (cc0__layer_kernel i arg0 harg0 arg1 harg1 arg2 harg2 arg3 harg3 arg4 harg4 arg5 harg5 arg6 harg6 arg7 harg7) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0 _)
  iexists _; isplitr
  swap; · iexact H7
  ipureintro
  try dsimp only
  exact View.read_writes_eq_canon _ _ _ (cover0 _)

/-- The proof data of pipeline 0 on core `c`: the arrays as found; after the body at point `t` each input buffer at its
    block and the two output buffers at `out0_6`, `out0_7` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Pallas call 1 of the program: the dense layer step on one block of 3000 rows.
  From the six input blocks (the embedding rows, the propagated rows, the two weight matrices and
  the two bias rows) the body leaves the new embedding block in the first output buffer and its
  row-normalised copy in the second; both are stored whole, so each output buffer after the body
  is one function of the input blocks. The proof data of the pipeline records exactly that, at an
  arbitrary content `V` of the arrays on entry.
-/
import proofs.«416135_j28965259444540_1_alg».proof.Proof.Gen.Kernel.Launch
import proofs.«416135_j28965259444540_1_alg».proof.Proof.Gen.Kernel.Skeleton
import proofs.«416135_j28965259444540_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether it was fetched there or the block index stood still. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether it was fetched there or the block index stood still. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether it was fetched there or the block index stood still. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, whether it was fetched there or the block index stood still. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, whether it was fetched there or the block index stood still. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, whether it was fetched there or the block index stood still. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body reads and writes: a [3000, 64] block, a [64, 64] matrix, a [1, 64] row. -/
abbrev rect1_A : Rect S3000x64 := Rect.unit (s := S3000x64) ![0, 0] S3000x64.size inb_S3000x64_S3000x64_0_0
abbrev rect1_W : Rect S64x64 := Rect.unit (s := S64x64) ![0, 0] S64x64.size inb_S64x64_S64x64_0_0
abbrev rect1_B : Rect S1x64 := Rect.unit (s := S1x64) ![0, 0] S1x64.size inb_S1x64_S1x64_0_0

/-- The first output buffer after the body: the new embedding block, one whole store. -/
def out1_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rect1_A, k1_pay2 (View.ld x0 rect1_A) (View.ld x1 rect1_A) (View.ld x2 rect1_W) (View.ld x4 rect1_W) (View.ld x3 rect1_B) (View.ld x5 rect1_B)⟩]
/-- The second output buffer after the body: the row-normalised block, one whole store. -/
def out1_7 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rect1_A, k1_pay1 (k1_pay2 (View.ld x0 rect1_A) (View.ld x1 rect1_A) (View.ld x2 rect1_W) (View.ld x4 rect1_W) (View.ld x3 rect1_B) (View.ld x5 rect1_B)) (k1_pay3 (View.ld x0 rect1_A) (View.ld x1 rect1_A) (View.ld x2 rect1_W) (View.ld x4 rect1_W) (View.ld x3 rect1_B) (View.ld x5 rect1_B)) (k1_pay4 (F := F))⟩]

/-- One whole store covers the buffer. -/
theorem cover1 (p0 : Vec F S3000x64 .f32) (y : S3000x64.Idx) :
    ∃ pc ∈ ([⟨rect1_A, p0⟩] : List (View.Piece (Elt F) S3000x64 .f32)), y ∈ pc.1.set :=
  View.cover_of_tiled [⟨rect1_A, p0⟩] S3000x64.size (by rfl) y

set_option maxHeartbeats 1000000 in
/-- The body on whole staging buffers, the inputs' holding `x0 … x5` and the outputs' anything, runs to its end
    leaving the inputs as they were and the two outputs at `out1_6` and `out1_7` of the inputs. -/
theorem sound_kernel1 (c : Dev nD) (E : Set ℕ) (i : grid1.Coords) (arg0 : Memref sig .tc .vmem S3000x64 .f32) (harg0 : arg0.IsWhole) (arg1 : Memref sig .tc .vmem S3000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S3000x64 .f32) (harg6 : arg6.IsWhole) (arg7 : Memref sig .tc .vmem S3000x64 .f32) (harg7 : arg7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5) ∗ owns (c : Thread nD τ) arg7 fullShare (out1_7 x0 x1 x2 x3 x4 x5)) -∗ K ⟨⟩))
      ⊢ wp frame (wpE (defs₀ (F := F)) Variants.none c none) E (cc1__layer_kernel i arg0 harg0 arg1 harg1 arg2 harg2 arg3 harg3 arg4 harg4 arg5 harg5 arg6 harg6 arg7 harg7) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1 _)
  iexists _; isplitr
  swap; · iexact H7
  ipureintro
  try dsimp only
  exact View.read_writes_eq_canon _ _ _ (cover1 _)

/-- The proof data of pipeline 1 on core `c`: the arrays as found; after the body at point `t` each input buffer at its
    block and the two output buffers at `out1_6`, `out1_7` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  Pallas call 2 of the program: the dense layer step on one block of 3000 rows.
  From the six input blocks (the embedding rows, the propagated rows, the two weight matrices and
  the two bias rows) the body leaves the new embedding block in the first output buffer and its
  row-normalised copy in the second; both are stored whole, so each output buffer after the body
  is one function of the input blocks. The proof data of the pipeline records exactly that, at an
  arbitrary content `V` of the arrays on entry.
-/
import proofs.«416135_j28965259444540_1_alg».proof.Proof.Gen.Kernel.Launch
import proofs.«416135_j28965259444540_1_alg».proof.Proof.Gen.Kernel.Skeleton
import proofs.«416135_j28965259444540_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether it was fetched there or the block index stood still. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, whether it was fetched there or the block index stood still. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, whether it was fetched there or the block index stood still. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, whether it was fetched there or the block index stood still. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, whether it was fetched there or the block index stood still. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, whether it was fetched there or the block index stood still. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole rectangles the body reads and writes: a [3000, 64] block, a [64, 64] matrix, a [1, 64] row. -/
abbrev rect2_A : Rect S3000x64 := Rect.unit (s := S3000x64) ![0, 0] S3000x64.size inb_S3000x64_S3000x64_0_0
abbrev rect2_W : Rect S64x64 := Rect.unit (s := S64x64) ![0, 0] S64x64.size inb_S64x64_S64x64_0_0
abbrev rect2_B : Rect S1x64 := Rect.unit (s := S1x64) ![0, 0] S1x64.size inb_S1x64_S1x64_0_0

/-- The first output buffer after the body: the new embedding block, one whole store. -/
def out2_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rect2_A, k2_pay2 (View.ld x0 rect2_A) (View.ld x1 rect2_A) (View.ld x2 rect2_W) (View.ld x4 rect2_W) (View.ld x3 rect2_B) (View.ld x5 rect2_B)⟩]
/-- The second output buffer after the body: the row-normalised block, one whole store. -/
def out2_7 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rect2_A, k2_pay1 (k2_pay2 (View.ld x0 rect2_A) (View.ld x1 rect2_A) (View.ld x2 rect2_W) (View.ld x4 rect2_W) (View.ld x3 rect2_B) (View.ld x5 rect2_B)) (k2_pay3 (View.ld x0 rect2_A) (View.ld x1 rect2_A) (View.ld x2 rect2_W) (View.ld x4 rect2_W) (View.ld x3 rect2_B) (View.ld x5 rect2_B)) (k2_pay4 (F := F))⟩]

/-- One whole store covers the buffer. -/
theorem cover2 (p0 : Vec F S3000x64 .f32) (y : S3000x64.Idx) :
    ∃ pc ∈ ([⟨rect2_A, p0⟩] : List (View.Piece (Elt F) S3000x64 .f32)), y ∈ pc.1.set :=
  View.cover_of_tiled [⟨rect2_A, p0⟩] S3000x64.size (by rfl) y

set_option maxHeartbeats 1000000 in
/-- The body on whole staging buffers, the inputs' holding `x0 … x5` and the outputs' anything, runs to its end
    leaving the inputs as they were and the two outputs at `out2_6` and `out2_7` of the inputs. -/
theorem sound_kernel2 (c : Dev nD) (E : Set ℕ) (i : grid2.Coords) (arg0 : Memref sig .tc .vmem S3000x64 .f32) (harg0 : arg0.IsWhole) (arg1 : Memref sig .tc .vmem S3000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S3000x64 .f32) (harg6 : arg6.IsWhole) (arg7 : Memref sig .tc .vmem S3000x64 .f32) (harg7 : arg7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out2_6 x0 x1 x2 x3 x4 x5) ∗ owns (c : Thread nD τ) arg7 fullShare (out2_7 x0 x1 x2 x3 x4 x5)) -∗ K ⟨⟩))
      ⊢ wp frame (wpE (defs₀ (F := F)) Variants.none c none) E (cc2__layer_kernel i arg0 harg0 arg1 harg1 arg2 harg2 arg3 harg3 arg4 harg4 arg5 harg5 arg6 harg6 arg7 harg7) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2 _)
  iexists _; isplitr
  swap; · iexact H7
  ipureintro
  try dsimp only
  exact View.read_writes_eq_canon _ _ _ (cover2 _)

/-- The proof data of pipeline 2 on core `c`: the arrays as found; after the body at point `t` each input buffer at its
    block and the two output buffers at `out2_6`, `out2_7` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The whole program as ten segments in order: two stretches of host operations (the row gather with its fill
  mask; the weighted scatter-add and the slicing of the layer's parameters), a Pallas call, the same twice more,
  and the final concatenation. Between two segments every unscoped buffer of a core is held at a named content:
  the launch memory, then the host operations folded over it, then a call's arrays replaced by what its
  write-backs leave. Every weakly fair execution terminates, and in every final state each unscoped buffer holds
  the last of these contents.
-/
import proofs.«416135_j28965259444540_1_alg».proof.Proof.K.Body0
import proofs.«416135_j28965259444540_1_alg».proof.Proof.K.Body1
import proofs.«416135_j28965259444540_1_alg».proof.Proof.K.Body2
import proofs.«416135_j28965259444540_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the row gather of layer 0. -/
abbrev W1 : Dev nD → Valuation τ sig (Elt F) := fun c => StableHlo.after hostOps0 (W0 m c)
/-- After the scatter-add and the parameter slices of layer 0: what Pallas call 0 finds. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b

/-- After Pallas call 0: its arrays at what the pipeline leaves (an input as entered, an output at its write-backs), every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

abbrev W4 : Dev nD → Valuation τ sig (Elt F) := fun c => StableHlo.after hostOps1 (W3 m c)
abbrev W5 : Dev nD → Valuation τ sig (Elt F) := fun c => StableHlo.after hostOps1_1 (W4 m c)
abbrev V5 : (c : Dev nD) → (b : Ref sig .tc) → Buf (Elt F) ((c : Thread nD τ).loc b) := fun c b => W5 m c b

/-- After Pallas call 1: its arrays at what the pipeline leaves (an input as entered, an output at its write-backs), every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

abbrev W7 : Dev nD → Valuation τ sig (Elt F) := fun c => StableHlo.after hostOps2 (W6 m c)
abbrev W8 : Dev nD → Valuation τ sig (Elt F) := fun c => StableHlo.after hostOps2_1 (W7 m c)
abbrev V8 : (c : Dev nD) → (b : Ref sig .tc) → Buf (Elt F) ((c : Thread nD τ).loc b) := fun c b => W8 m c b

/-- After Pallas call 2: its arrays at what the pipeline leaves (an input as entered, an output at its write-backs), every other buffer as entered. -/
def W9 (c : Dev nD) : Valuation τ sig (Elt F) :=
  Pipeline.withArrays spec2 c (W8 m c) fun w => (dat2 (V8 m) c).arrAt w cfg2.N
theorem W9_arr (c : Dev nD) (w : Fin cfg2.W) :
    W9 m c (Proc.devRef .tc (Pipeline.arrRef spec2 w)) = (dat2 (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev V9 : (c : Dev nD) → (b : Ref sig .tc) → Buf (Elt F) ((c : Thread nD τ).loc b) := fun c b => W9 m c b
theorem hF2 (c : Dev nD) (w : Fin cfg2.W) : (dat2 (V8 m) c).arrAt w cfg2.N = V9 m c (Pipeline.arrRef spec2 w) :=
  (W9_arr m c w).symm
theorem hrest2 (c : Dev nD) : ∀ b, b ∉ Finset.univ.image (Pipeline.arrRef spec2) → V9 m c b = V8 m c b :=
  fun b hb => W9_of_ne m c b fun w e => hb (Finset.mem_image.mpr ⟨w, Finset.mem_univ _, e⟩)

/-- After the concatenation: the final contents. -/
abbrev W10 : Dev nD → Valuation τ sig (Elt F) := fun c => StableHlo.after hostOps3 (W9 m c)

/-- No pipeline has a prefetched table. -/
abbrev adm : (p : Fin 3) → (pcfgs (F := F) p).Adm := fun p => (cfgs p).toPCfg_adm
/-- Every pipeline's proof data, each at the contents its call finds. -/
def pdats : (p : Fin 3) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V5 m) c
  | ⟨2, _⟩ => fun c => dat2 (V8 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at some state. -/
abbrev Tₙ (c : Dev nD) : sProp 𝕄 := iprop(StableHlo.held (c : Thread nD τ) (Pipeline.ucRefs τ sig) (W10 m c) ∗ ∃ r, prngReg c r)

set_option backward.isDefEq.respectTransparency.types false in
/-- Pallas call 0 over the thread state: entered with every unscoped buffer at `W2`, left with them at `W3`:
    its arrays are split out of the unscoped buffers on entry and put back, at what the write-backs leave, on exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered with every unscoped buffer at `W5`, left with them at `W6`:
    its arrays are split out of the unscoped buffers on entry and put back, at what the write-backs leave, on exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered with every unscoped buffer at `W8`, left with them at `W9`:
    its arrays are split out of the unscoped buffers on entry and put back, at what the write-backs leave, on exit. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V8 m c) (V9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's ten segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .host (hseg hostOps1 hostOps1_sub hostOps1_fresh (W3 m)),
    .host (hseg hostOps1_1 hostOps1_1_sub hostOps1_1_fresh (W4 m)),
    .region (reg1 m),
    .host (hseg hostOps2 hostOps2_sub hostOps2_fresh (W6 m)),
    .host (hseg hostOps2_1 hostOps2_1_sub hostOps2_1_fresh (W7 m)),
    .region (reg2 m),
    .host (hseg hostOps3 hostOps3_sub hostOps3_fresh (W9 m)) ]

set_option backward.isDefEq.respectTransparency.types false in
/-- Every weakly fair execution of the program from memory `m` with zero counters terminates, nothing faulting, and every
    final state holds each unscoped buffer of each core at the final contents `W10`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W10 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-! ## The arguments end as launched: no host operation writes one, and a call only reads the embedding -/

theorem W2_of (c : Dev nD) (r : Ref sig .tc) (h0 : r ∉ hostOps0_W) (h1 : r ∉ hostOps0_1_W) : W2 m c r = W0 m c r :=
  (StableHlo.after_of_writes_sub hostOps0_1 _ hostOps0_1_writes h1).trans (StableHlo.after_of_writes_sub hostOps0 _ hostOps0_writes h0)
theorem W5_of (c : Dev nD) (r : Ref sig .tc) (h0 : r ∉ hostOps1_W) (h1 : r ∉ hostOps1_1_W) : W5 m c r = W3 m c r :=
  (StableHlo.after_of_writes_sub hostOps1_1 _ hostOps1_1_writes h1).trans (StableHlo.after_of_writes_sub hostOps1 _ hostOps1_writes h0)
theorem W8_of (c : Dev nD) (r : Ref sig .tc) (h0 : r ∉ hostOps2_W) (h1 : r ∉ hostOps2_1_W) : W8 m c r = W6 m c r :=
  (StableHlo.after_of_writes_sub hostOps2_1 _ hostOps2_1_writes h1).trans (StableHlo.after_of_writes_sub hostOps2 _ hostOps2_writes h0)
theorem W10_of (c : Dev nD) (r : Ref sig .tc) (h : r ∉ hostOps3_W) : W10 m c r = W9 m c r :=
  StableHlo.after_of_writes_sub hostOps3 _ hostOps3_writes h

/-- A buffer that no host operation writes and that is no array of any call ends as launched. -/
theorem W10_untouched (c : Dev nD) (r : Ref sig .tc)
    (h0 : r ∉ hostOps0_W) (h01 : r ∉ hostOps0_1_W) (h1 : r ∉ hostOps1_W) (h11 : r ∉ hostOps1_1_W)
    (h2 : r ∉ hostOps2_W) (h21 : r ∉ hostOps2_1_W) (h3 : r ∉ hostOps3_W)
    (a0 : ∀ w, Pipeline.arrRef spec0 w ≠ r) (a1 : ∀ w, Pipeline.arrRef spec1 w ≠ r) (a2 : ∀ w, Pipeline.arrRef spec2 w ≠ r) :
    W10 m c r = m ((c : Thread nD τ).loc r) :=
  (W10_of m c r h3).trans <| (W9_of_ne m c r a2).trans <| (W8_of m c r h2 h21).trans <| (W6_of_ne m c r a1).trans <|
    (W5_of m c r h1 h11).trans <| (W3_of_ne m c r a0).trans <| (W2_of m c r h0 h01).trans rfl

/-- The embedding argument is window 0 of the first call, an input: the call leaves it as found. -/
theorem W10_main_arg0 (c : Dev nD) : W10 m c main_arg0 = m ((c : Thread nD τ).loc main_arg0) :=
  (W10_of m c main_arg0 (by decide)).trans <| (W9_of_ne m c main_arg0 (by decide)).trans <| (W8_of m c main_arg0 (by decide) (by decide)).trans <|
    (W6_of_ne m c main_arg0 (by decide)).trans <| (W5_of m c main_arg0 (by decide) (by decide)).trans <|
    ((W3_arr m c 0).trans (((dat0 (V2 m) c).arrAt_in 0 rfl _).trans (A_eq0 (V2 m) c 0))).trans <| (W2_of m c main_arg0 (by decide) (by decide)).trans rfl
theorem W10_main_arg1 (c : Dev nD) : W10 m c main_arg1 = m ((c : Thread nD τ).loc main_arg1) :=
  W10_untouched m c main_arg1 (by decide) (by decide) (by decide) (by decide) (by decide) (by decide) (by decide) (by decide) (by decide) (by decide)
theorem W10_main_arg2 (c : Dev nD) : W10 m c main_arg2 = m ((c : Thread nD τ).loc main_arg2) :=
  W10_untouched m c main_arg2 (by decide) (by decide) (by decide) (by decide) (by decide) (by decide) (by decide) (by decide) (by decide) (by decide)
theorem W10_main_arg3 (c : Dev nD) : W10 m c main_arg3 = m ((c : Thread nD τ).loc main_arg3) :=
  W10_untouched m c main_arg3 (by decide) (by decide) (by decide) (by decide) (by decide) (by decide) (by decide) (by decide) (by decide) (by decide)
theorem W10_main_arg4 (c : Dev nD) : W10 m c main_arg4 = m ((c : Thread nD τ).loc main_arg4) :=
  W10_untouched m c main_arg4 (by decide) (by decide) (by decide) (by decide) (by decide) (by decide) (by decide) (by decide) (by decide) (by decide)
theorem W10_main_arg5 (c : Dev nD) : W10 m c main_arg5 = m ((c : Thread nD τ).loc main_arg5) :=
  W10_untouched m c main_arg5 (by decide) (by decide) (by decide) (by decide) (by decide) (by decide) (by decide) (by decide) (by decide) (by decide)
theorem W10_main_arg6 (c : Dev nD) : W10 m c main_arg6 = m ((c : Thread nD τ).loc main_arg6) :=
  W10_untouched m c main_arg6 (by decide) (by decide) (by decide) (by decide) (by decide) (by decide) (by decide) (by decide) (by decide) (by decide)
theorem W10_main_arg7 (c : Dev nD) : W10 m c main_arg7 = m ((c : Thread nD τ).loc main_arg7) :=
  W10_untouched m c main_arg7 (by decide) (by decide) (by decide) (by decide) (by decide) (by decide) (by decide) (by decide) (by decide) (by decide)

/-- The frame claim's post from the run: each argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c)⟩) (run_all m ρ)

end Cert.Kernel.Hand

end
-- ==== Proof.KI.Body0.lean ====
/-
  Pallas call 0 of the program: the dense layer step on one block of 3000 rows.
  From the six input blocks (the embedding rows, the propagated rows, the two weight matrices and
  the two bias rows) the body leaves the new embedding block in the first output buffer and its
  row-normalised copy in the second; both are stored whole, so each output buffer after the body
  is one function of the input blocks. The proof data of the pipeline records exactly that, at an
  arbitrary content `V` of the arrays on entry.
-/
import proofs.«416135_j28965259444540_1_alg».proof.Proof.Gen.KernelIdeal.Launch
import proofs.«416135_j28965259444540_1_alg».proof.Proof.Gen.KernelIdeal.Skeleton
import proofs.«416135_j28965259444540_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether it was fetched there or the block index stood still. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether it was fetched there or the block index stood still. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether it was fetched there or the block index stood still. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, whether it was fetched there or the block index stood still. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, whether it was fetched there or the block index stood still. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, whether it was fetched there or the block index stood still. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body reads and writes: a [3000, 64] block, a [64, 64] matrix, a [1, 64] row. -/
abbrev rect0_A : Rect S3000x64 := Rect.unit (s := S3000x64) ![0, 0] S3000x64.size inb_S3000x64_S3000x64_0_0
abbrev rect0_W : Rect S64x64 := Rect.unit (s := S64x64) ![0, 0] S64x64.size inb_S64x64_S64x64_0_0
abbrev rect0_B : Rect S1x64 := Rect.unit (s := S1x64) ![0, 0] S1x64.size inb_S1x64_S1x64_0_0

/-- The first output buffer after the body: the new embedding block, one whole store. -/
def out0_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rect0_A, k0_pay2 (View.ld x0 rect0_A) (View.ld x1 rect0_A) (View.ld x2 rect0_W) (View.ld x4 rect0_W) (View.ld x3 rect0_B) (View.ld x5 rect0_B)⟩]
/-- The second output buffer after the body: the row-normalised block, one whole store. -/
def out0_7 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rect0_A, k0_pay1 (k0_pay2 (View.ld x0 rect0_A) (View.ld x1 rect0_A) (View.ld x2 rect0_W) (View.ld x4 rect0_W) (View.ld x3 rect0_B) (View.ld x5 rect0_B)) (k0_pay3 (View.ld x0 rect0_A) (View.ld x1 rect0_A) (View.ld x2 rect0_W) (View.ld x4 rect0_W) (View.ld x3 rect0_B) (View.ld x5 rect0_B))⟩]

/-- One whole store covers the buffer. -/
theorem cover0 (p0 : Vec F S3000x64 .f32) (y : S3000x64.Idx) :
    ∃ pc ∈ ([⟨rect0_A, p0⟩] : List (View.Piece (Elt F) S3000x64 .f32)), y ∈ pc.1.set :=
  View.cover_of_tiled [⟨rect0_A, p0⟩] S3000x64.size (by rfl) y

set_option maxHeartbeats 1000000 in
/-- The body on whole staging buffers, the inputs' holding `x0 … x5` and the outputs' anything, runs to its end
    leaving the inputs as they were and the two outputs at `out0_6` and `out0_7` of the inputs. -/
theorem sound_kernel0 (c : Dev nD) (E : Set ℕ) (i : grid0.Coords) (arg0 : Memref sig .tc .vmem S3000x64 .f32) (harg0 : arg0.IsWhole) (arg1 : Memref sig .tc .vmem S3000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S3000x64 .f32) (harg6 : arg6.IsWhole) (arg7 : Memref sig .tc .vmem S3000x64 .f32) (harg7 : arg7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5) ∗ owns (c : Thread nD τ) arg7 fullShare (out0_7 x0 x1 x2 x3 x4 x5)) -∗ K ⟨⟩))
      ⊢ wp frame (wpE (defs₀ (F := F)) Variants.none c none) E (cc0__layer_kernel i arg0 harg0 arg1 harg1 arg2 harg2 arg3 harg3 arg4 harg4 arg5 harg5 arg6 harg6 arg7 harg7) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0 _)
  iexists _; isplitr
  swap; · iexact H7
  ipureintro
  try dsimp only
  exact View.read_writes_eq_canon _ _ _ (cover0 _)

/-- The proof data of pipeline 0 on core `c`: the arrays as found; after the body at point `t` each input buffer at its
    block and the two output buffers at `out0_6`, `out0_7` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Pallas call 1 of the program: the dense layer step on one block of 3000 rows.
  From the six input blocks (the embedding rows, the propagated rows, the two weight matrices and
  the two bias rows) the body leaves the new embedding block in the first output buffer and its
  row-normalised copy in the second; both are stored whole, so each output buffer after the body
  is one function of the input blocks. The proof data of the pipeline records exactly that, at an
  arbitrary content `V` of the arrays on entry.
-/
import proofs.«416135_j28965259444540_1_alg».proof.Proof.Gen.KernelIdeal.Launch
import proofs.«416135_j28965259444540_1_alg».proof.Proof.Gen.KernelIdeal.Skeleton
import proofs.«416135_j28965259444540_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether it was fetched there or the block index stood still. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether it was fetched there or the block index stood still. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether it was fetched there or the block index stood still. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, whether it was fetched there or the block index stood still. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, whether it was fetched there or the block index stood still. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, whether it was fetched there or the block index stood still. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body reads and writes: a [3000, 64] block, a [64, 64] matrix, a [1, 64] row. -/
abbrev rect1_A : Rect S3000x64 := Rect.unit (s := S3000x64) ![0, 0] S3000x64.size inb_S3000x64_S3000x64_0_0
abbrev rect1_W : Rect S64x64 := Rect.unit (s := S64x64) ![0, 0] S64x64.size inb_S64x64_S64x64_0_0
abbrev rect1_B : Rect S1x64 := Rect.unit (s := S1x64) ![0, 0] S1x64.size inb_S1x64_S1x64_0_0

/-- The first output buffer after the body: the new embedding block, one whole store. -/
def out1_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rect1_A, k1_pay2 (View.ld x0 rect1_A) (View.ld x1 rect1_A) (View.ld x2 rect1_W) (View.ld x4 rect1_W) (View.ld x3 rect1_B) (View.ld x5 rect1_B)⟩]
/-- The second output buffer after the body: the row-normalised block, one whole store. -/
def out1_7 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rect1_A, k1_pay1 (k1_pay2 (View.ld x0 rect1_A) (View.ld x1 rect1_A) (View.ld x2 rect1_W) (View.ld x4 rect1_W) (View.ld x3 rect1_B) (View.ld x5 rect1_B)) (k1_pay3 (View.ld x0 rect1_A) (View.ld x1 rect1_A) (View.ld x2 rect1_W) (View.ld x4 rect1_W) (View.ld x3 rect1_B) (View.ld x5 rect1_B)) (k1_pay4 (F := F))⟩]

/-- One whole store covers the buffer. -/
theorem cover1 (p0 : Vec F S3000x64 .f32) (y : S3000x64.Idx) :
    ∃ pc ∈ ([⟨rect1_A, p0⟩] : List (View.Piece (Elt F) S3000x64 .f32)), y ∈ pc.1.set :=
  View.cover_of_tiled [⟨rect1_A, p0⟩] S3000x64.size (by rfl) y

set_option maxHeartbeats 1000000 in
/-- The body on whole staging buffers, the inputs' holding `x0 … x5` and the outputs' anything, runs to its end
    leaving the inputs as they were and the two outputs at `out1_6` and `out1_7` of the inputs. -/
theorem sound_kernel1 (c : Dev nD) (E : Set ℕ) (i : grid1.Coords) (arg0 : Memref sig .tc .vmem S3000x64 .f32) (harg0 : arg0.IsWhole) (arg1 : Memref sig .tc .vmem S3000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S3000x64 .f32) (harg6 : arg6.IsWhole) (arg7 : Memref sig .tc .vmem S3000x64 .f32) (harg7 : arg7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5) ∗ owns (c : Thread nD τ) arg7 fullShare (out1_7 x0 x1 x2 x3 x4 x5)) -∗ K ⟨⟩))
      ⊢ wp frame (wpE (defs₀ (F := F)) Variants.none c none) E (cc1__layer_kernel i arg0 harg0 arg1 harg1 arg2 harg2 arg3 harg3 arg4 harg4 arg5 harg5 arg6 harg6 arg7 harg7) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1 _)
  iexists _; isplitr
  swap; · iexact H7
  ipureintro
  try dsimp only
  exact View.read_writes_eq_canon _ _ _ (cover1 _)

/-- The proof data of pipeline 1 on core `c`: the arrays as found; after the body at point `t` each input buffer at its
    block and the two output buffers at `out1_6`, `out1_7` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Pallas call 2 of the program: the dense layer step on one block of 3000 rows.
  From the six input blocks (the embedding rows, the propagated rows, the two weight matrices and
  the two bias rows) the body leaves the new embedding block in the first output buffer and its
  row-normalised copy in the second; both are stored whole, so each output buffer after the body
  is one function of the input blocks. The proof data of the pipeline records exactly that, at an
  arbitrary content `V` of the arrays on entry.
-/
import proofs.«416135_j28965259444540_1_alg».proof.Proof.Gen.KernelIdeal.Launch
import proofs.«416135_j28965259444540_1_alg».proof.Proof.Gen.KernelIdeal.Skeleton
import proofs.«416135_j28965259444540_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether it was fetched there or the block index stood still. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, whether it was fetched there or the block index stood still. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, whether it was fetched there or the block index stood still. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, whether it was fetched there or the block index stood still. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, whether it was fetched there or the block index stood still. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, whether it was fetched there or the block index stood still. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole rectangles the body reads and writes: a [3000, 64] block, a [64, 64] matrix, a [1, 64] row. -/
abbrev rect2_A : Rect S3000x64 := Rect.unit (s := S3000x64) ![0, 0] S3000x64.size inb_S3000x64_S3000x64_0_0
abbrev rect2_W : Rect S64x64 := Rect.unit (s := S64x64) ![0, 0] S64x64.size inb_S64x64_S64x64_0_0
abbrev rect2_B : Rect S1x64 := Rect.unit (s := S1x64) ![0, 0] S1x64.size inb_S1x64_S1x64_0_0

/-- The first output buffer after the body: the new embedding block, one whole store. -/
def out2_6 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rect2_A, k2_pay2 (View.ld x0 rect2_A) (View.ld x1 rect2_A) (View.ld x2 rect2_W) (View.ld x4 rect2_W) (View.ld x3 rect2_B) (View.ld x5 rect2_B)⟩]
/-- The second output buffer after the body: the row-normalised block, one whole store. -/
def out2_7 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rect2_A, k2_pay1 (k2_pay2 (View.ld x0 rect2_A) (View.ld x1 rect2_A) (View.ld x2 rect2_W) (View.ld x4 rect2_W) (View.ld x3 rect2_B) (View.ld x5 rect2_B)) (k2_pay3 (View.ld x0 rect2_A) (View.ld x1 rect2_A) (View.ld x2 rect2_W) (View.ld x4 rect2_W) (View.ld x3 rect2_B) (View.ld x5 rect2_B)) (k2_pay4 (F := F))⟩]

/-- One whole store covers the buffer. -/
theorem cover2 (p0 : Vec F S3000x64 .f32) (y : S3000x64.Idx) :
    ∃ pc ∈ ([⟨rect2_A, p0⟩] : List (View.Piece (Elt F) S3000x64 .f32)), y ∈ pc.1.set :=
  View.cover_of_tiled [⟨rect2_A, p0⟩] S3000x64.size (by rfl) y

set_option maxHeartbeats 1000000 in
/-- The body on whole staging buffers, the inputs' holding `x0 … x5` and the outputs' anything, runs to its end
    leaving the inputs as they were and the two outputs at `out2_6` and `out2_7` of the inputs. -/
theorem sound_kernel2 (c : Dev nD) (E : Set ℕ) (i : grid2.Coords) (arg0 : Memref sig .tc .vmem S3000x64 .f32) (harg0 : arg0.IsWhole) (arg1 : Memref sig .tc .vmem S3000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S3000x64 .f32) (harg6 : arg6.IsWhole) (arg7 : Memref sig .tc .vmem S3000x64 .f32) (harg7 : arg7.IsWhole)
    (x0 : Vec F S3000x64 .f32) (x1 : Vec F S3000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out2_6 x0 x1 x2 x3 x4 x5) ∗ owns (c : Thread nD τ) arg7 fullShare (out2_7 x0 x1 x2 x3 x4 x5)) -∗ K ⟨⟩))
      ⊢ wp frame (wpE (defs₀ (F := F)) Variants.none c none) E (cc2__layer_kernel i arg0 harg0 arg1 harg1 arg2 harg2 arg3 harg3 arg4 harg4 arg5 harg5 arg6 harg6 arg7 harg7) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2 _)
  iexists _; isplitr
  swap; · iexact H7
  ipureintro
  try dsimp only
  exact View.read_writes_eq_canon _ _ _ (cover2 _)

/-- The proof data of pipeline 2 on core `c`: the arrays as found; after the body at point `t` each input buffer at its
    block and the two output buffers at `out2_6`, `out2_7` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole program as ten segments in order: two stretches of host operations (the row gather with its fill
  mask; the weighted scatter-add and the slicing of the layer's parameters), a Pallas call, the same twice more,
  and the final concatenation. Between two segments every unscoped buffer of a core is held at a named content:
  the launch memory, then the host operations folded over it, then a call's arrays replaced by what its
  write-backs leave. Every weakly fair execution terminates, and in every final state each unscoped buffer holds
  the last of these contents.
-/
import proofs.«416135_j28965259444540_1_alg».proof.Proof.KI.Body0
import proofs.«416135_j28965259444540_1_alg».proof.Proof.KI.Body1
import proofs.«416135_j28965259444540_1_alg».proof.Proof.KI.Body2
import proofs.«416135_j28965259444540_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the row gather of layer 0. -/
abbrev W1 : Dev nD → Valuation τ sig (Elt F) := fun c => StableHlo.after hostOps0 (W0 m c)
/-- After the scatter-add and the parameter slices of layer 0: what Pallas call 0 finds. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b

/-- After Pallas call 0: its arrays at what the pipeline leaves (an input as entered, an output at its write-backs), every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

abbrev W4 : Dev nD → Valuation τ sig (Elt F) := fun c => StableHlo.after hostOps1 (W3 m c)
abbrev W5 : Dev nD → Valuation τ sig (Elt F) := fun c => StableHlo.after hostOps1_1 (W4 m c)
abbrev V5 : (c : Dev nD) → (b : Ref sig .tc) → Buf (Elt F) ((c : Thread nD τ).loc b) := fun c b => W5 m c b

/-- After Pallas call 1: its arrays at what the pipeline leaves (an input as entered, an output at its write-backs), every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

abbrev W7 : Dev nD → Valuation τ sig (Elt F) := fun c => StableHlo.after hostOps2 (W6 m c)
abbrev W8 : Dev nD → Valuation τ sig (Elt F) := fun c => StableHlo.after hostOps2_1 (W7 m c)
abbrev V8 : (c : Dev nD) → (b : Ref sig .tc) → Buf (Elt F) ((c : Thread nD τ).loc b) := fun c b => W8 m c b

/-- After Pallas call 2: its arrays at what the pipeline leaves (an input as entered, an output at its write-backs), every other buffer as entered. -/
def W9 (c : Dev nD) : Valuation τ sig (Elt F) :=
  Pipeline.withArrays spec2 c (W8 m c) fun w => (dat2 (V8 m) c).arrAt w cfg2.N
theorem W9_arr (c : Dev nD) (w : Fin cfg2.W) :
    W9 m c (Proc.devRef .tc (Pipeline.arrRef spec2 w)) = (dat2 (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev V9 : (c : Dev nD) → (b : Ref sig .tc) → Buf (Elt F) ((c : Thread nD τ).loc b) := fun c b => W9 m c b
theorem hF2 (c : Dev nD) (w : Fin cfg2.W) : (dat2 (V8 m) c).arrAt w cfg2.N = V9 m c (Pipeline.arrRef spec2 w) :=
  (W9_arr m c w).symm
theorem hrest2 (c : Dev nD) : ∀ b, b ∉ Finset.univ.image (Pipeline.arrRef spec2) → V9 m c b = V8 m c b :=
  fun b hb => W9_of_ne m c b fun w e => hb (Finset.mem_image.mpr ⟨w, Finset.mem_univ _, e⟩)

/-- After the concatenation: the final contents. -/
abbrev W10 : Dev nD → Valuation τ sig (Elt F) := fun c => StableHlo.after hostOps3 (W9 m c)

/-- No pipeline has a prefetched table. -/
abbrev adm : (p : Fin 3) → (pcfgs (F := F) p).Adm := fun p => (cfgs p).toPCfg_adm
/-- Every pipeline's proof data, each at the contents its call finds. -/
def pdats : (p : Fin 3) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V5 m) c
  | ⟨2, _⟩ => fun c => dat2 (V8 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at some state. -/
abbrev Tₙ (c : Dev nD) : sProp 𝕄 := iprop(StableHlo.held (c : Thread nD τ) (Pipeline.ucRefs τ sig) (W10 m c) ∗ ∃ r, prngReg c r)

set_option backward.isDefEq.respectTransparency.types false in
/-- Pallas call 0 over the thread state: entered with every unscoped buffer at `W2`, left with them at `W3`:
    its arrays are split out of the unscoped buffers on entry and put back, at what the write-backs leave, on exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered with every unscoped buffer at `W5`, left with them at `W6`:
    its arrays are split out of the unscoped buffers on entry and put back, at what the write-backs leave, on exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered with every unscoped buffer at `W8`, left with them at `W9`:
    its arrays are split out of the unscoped buffers on entry and put back, at what the write-backs leave, on exit. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V8 m c) (V9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's ten segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .host (hseg hostOps1 hostOps1_sub hostOps1_fresh (W3 m)),
    .host (hseg hostOps1_1 hostOps1_1_sub hostOps1_1_fresh (W4 m)),
    .region (reg1 m),
    .host (hseg hostOps2 hostOps2_sub hostOps2_fresh (W6 m)),
    .host (hseg hostOps2_1 hostOps2_1_sub hostOps2_1_fresh (W7 m)),
    .region (reg2 m),
    .host (hseg hostOps3 hostOps3_sub hostOps3_fresh (W9 m)) ]

set_option backward.isDefEq.respectTransparency.types false in
/-- Every weakly fair execution of the program from memory `m` with zero counters terminates, nothing faulting, and every
    final state holds each unscoped buffer of each core at the final contents `W10`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W10 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-! ## The arguments end as launched: no host operation writes one, and a call only reads the embedding -/

theorem W2_of (c : Dev nD) (r : Ref sig .tc) (h0 : r ∉ hostOps0_W) (h1 : r ∉ hostOps0_1_W) : W2 m c r = W0 m c r :=
  (StableHlo.after_of_writes_sub hostOps0_1 _ hostOps0_1_writes h1).trans (StableHlo.after_of_writes_sub hostOps0 _ hostOps0_writes h0)
theorem W5_of (c : Dev nD) (r : Ref sig .tc) (h0 : r ∉ hostOps1_W) (h1 : r ∉ hostOps1_1_W) : W5 m c r = W3 m c r :=
  (StableHlo.after_of_writes_sub hostOps1_1 _ hostOps1_1_writes h1).trans (StableHlo.after_of_writes_sub hostOps1 _ hostOps1_writes h0)
theorem W8_of (c : Dev nD) (r : Ref sig .tc) (h0 : r ∉ hostOps2_W) (h1 : r ∉ hostOps2_1_W) : W8 m c r = W6 m c r :=
  (StableHlo.after_of_writes_sub hostOps2_1 _ hostOps2_1_writes h1).trans (StableHlo.after_of_writes_sub hostOps2 _ hostOps2_writes h0)
theorem W10_of (c : Dev nD) (r : Ref sig .tc) (h : r ∉ hostOps3_W) : W10 m c r = W9 m c r :=
  StableHlo.after_of_writes_sub hostOps3 _ hostOps3_writes h

/-- A buffer that no host operation writes and that is no array of any call ends as launched. -/
theorem W10_untouched (c : Dev nD) (r : Ref sig .tc)
    (h0 : r ∉ hostOps0_W) (h01 : r ∉ hostOps0_1_W) (h1 : r ∉ hostOps1_W) (h11 : r ∉ hostOps1_1_W)
    (h2 : r ∉ hostOps2_W) (h21 : r ∉ hostOps2_1_W) (h3 : r ∉ hostOps3_W)
    (a0 : ∀ w, Pipeline.arrRef spec0 w ≠ r) (a1 : ∀ w, Pipeline.arrRef spec1 w ≠ r) (a2 : ∀ w, Pipeline.arrRef spec2 w ≠ r) :
    W10 m c r = m ((c : Thread nD τ).loc r) :=
  (W10_of m c r h3).trans <| (W9_of_ne m c r a2).trans <| (W8_of m c r h2 h21).trans <| (W6_of_ne m c r a1).trans <|
    (W5_of m c r h1 h11).trans <| (W3_of_ne m c r a0).trans <| (W2_of m c r h0 h01).trans rfl

/-- The embedding argument is window 0 of the first call, an input: the call leaves it as found. -/
theorem W10_main_arg0 (c : Dev nD) : W10 m c main_arg0 = m ((c : Thread nD τ).loc main_arg0) :=
  (W10_of m c main_arg0 (by decide)).trans <| (W9_of_ne m c main_arg0 (by decide)).trans <| (W8_of m c main_arg0 (by decide) (by decide)).trans <|
    (W6_of_ne m c main_arg0 (by decide)).trans <| (W5_of m c main_arg0 (by decide) (by decide)).trans <|
    ((W3_arr m c 0).trans (((dat0 (V2 m) c).arrAt_in 0 rfl _).trans (A_eq0 (V2 m) c 0))).trans <| (W2_of m c main_arg0 (by decide) (by decide)).trans rfl
theorem W10_main_arg1 (c : Dev nD) : W10 m c main_arg1 = m ((c : Thread nD τ).loc main_arg1) :=
  W10_untouched m c main_arg1 (by decide) (by decide) (by decide) (by decide) (by decide) (by decide) (by decide) (by decide) (by decide) (by decide)
theorem W10_main_arg2 (c : Dev nD) : W10 m c main_arg2 = m ((c : Thread nD τ).loc main_arg2) :=
  W10_untouched m c main_arg2 (by decide) (by decide) (by decide) (by decide) (by decide) (by decide) (by decide) (by decide) (by decide) (by decide)
theorem W10_main_arg3 (c : Dev nD) : W10 m c main_arg3 = m ((c : Thread nD τ).loc main_arg3) :=
  W10_untouched m c main_arg3 (by decide) (by decide) (by decide) (by decide) (by decide) (by decide) (by decide) (by decide) (by decide) (by decide)
theorem W10_main_arg4 (c : Dev nD) : W10 m c main_arg4 = m ((c : Thread nD τ).loc main_arg4) :=
  W10_untouched m c main_arg4 (by decide) (by decide) (by decide) (by decide) (by decide) (by decide) (by decide) (by decide) (by decide) (by decide)
theorem W10_main_arg5 (c : Dev nD) : W10 m c main_arg5 = m ((c : Thread nD τ).loc main_arg5) :=
  W10_untouched m c main_arg5 (by decide) (by decide) (by decide) (by decide) (by decide) (by decide) (by decide) (by decide) (by decide) (by decide)
theorem W10_main_arg6 (c : Dev nD) : W10 m c main_arg6 = m ((c : Thread nD τ).loc main_arg6) :=
  W10_untouched m c main_arg6 (by decide) (by decide) (by decide) (by decide) (by decide) (by decide) (by decide) (by decide) (by decide) (by decide)
theorem W10_main_arg7 (c : Dev nD) : W10 m c main_arg7 = m ((c : Thread nD τ).loc main_arg7) :=
  W10_untouched m c main_arg7 (by decide) (by decide) (by decide) (by decide) (by decide) (by decide) (by decide) (by decide) (by decide) (by decide)

/-- The frame claim's post from the run: each argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c)⟩) (run_all m ρ)

end Cert.KernelIdeal.Hand

end
-- ==== Proof.Spec.lean ====
/-
  The whole computation as pure array functions, spelt with the reference's own operations.

  One propagation step multiplies each gathered row of the node table by its edge weight and
  accumulates the products into the rows named by the edge sources (`spmm`); one dense step sends
  the current embedding `ego` and the propagated `side` to
  `leaky (side · W₁ + b₁) + leaky ((ego ⊙ side) · W₂ + b₂)` (`layerNE`), and the row-normalised
  copy divides each row by `max (‖row‖₂, ε)` (`layerNM`). The result is the input embedding and
  the three normalised layers side by side (`outR`).
-/
import proofs.«416135_j28965259444540_1_alg».proof.ReferenceIdeal
import proofs.«416135_j28965259444540_1_alg».proof.Proof.Gen.ReferenceIdeal

noncomputable section

namespace Cert.Spec

open Idealize.ShloMosaic Idealize.SL.Sem
open Cert.ReferenceIdeal Cert.ReferenceIdeal.Facts₀

variable {F : FTy → Type} [FloatOps F]

/-- The start indices of the row gather: a negative column index counted from the end, then laid out as a column. -/
def wrapIdx (cols : IVec S2400000 32) : IVec S2400000x1 32 :=
  broadcastInDim S2400000x1 ![0] bcast_S2400000_S2400000x1_0
    (select (cmpi .slt cols (broadcastInDim S2400000 ![] bcast_S_S2400000 (constantI S_ 32 0#32)))
      (addi cols (broadcastInDim S2400000 ![] bcast_S_S2400000 (constantI S_ 32 150000#32))) cols)

/-- The rows of `x` at the wrapped column indices. -/
def rowsAt (x : FVec F S150000x64 .f32) (cols : IVec S2400000 32) : FVec F S2400000x64 .f32 :=
  Host.gather gather_S150000x64_S2400000x1_S2400000x64_1_0_n_n_0_1_164 x (wrapIdx cols)

/-- The weighted messages accumulated into the rows named by `rows`, from zero. -/
def scatterRows (rows : IVec S2400000 32) (vals : FVec F S2400000 .f32) (g : FVec F S2400000x64 .f32) : FVec F S150000x64 .f32 :=
  Host.scatterAdd scatter_S150000x64_S2400000x1_S2400000x64_1_0_0_1
    (broadcastInDim S150000x64 ![] bcast_S_S150000x64 (constant S_ .f32 0x00000000#32))
    (broadcastInDim S2400000x1 ![0] bcast_S2400000_S2400000x1_0 rows)
    (mulf g (broadcastInDim S2400000x64 ![0, 1] bcast_S2400000x1_S2400000x64_0_1
      (broadcastInDim S2400000x1 ![0] bcast_S2400000_S2400000x1_0 vals)))

/-- One sparse propagation: gather, weigh, accumulate. -/
def spmm (x : FVec F S150000x64 .f32) (rows cols : IVec S2400000 32) (vals : FVec F S2400000 .f32) : FVec F S150000x64 .f32 :=
  scatterRows rows vals (rowsAt x cols)

/-- `x` where it is non-negative, `0.01 · x` elsewhere. -/
def leaky (x : FVec F S150000x64 .f32) : FVec F S150000x64 .f32 :=
  select (cmpf .oge x (broadcastInDim S150000x64 ![] bcast_S_S150000x64 (constant S_ .f32 0x00000000#32))) x
    (mulf (broadcastInDim S150000x64 ![] bcast_S_S150000x64 (id (constant S_ .f32 0x3C23D70A#32))) x)

/-- `x · w + b` with the bias laid along the rows. -/
def affine (x : FVec F S150000x64 .f32) (w : FVec F S64x64 .f32) (b : FVec F S64 .f32) : FVec F S150000x64 .f32 :=
  addf (Host.dotGeneral dot_S150000x64_S64x64_S150000x64_1_0_0_1_n_n none x w)
    (broadcastInDim S150000x64 ![0, 1] bcast_S1x64_S150000x64_0_1 (broadcastInDim S1x64 ![1] bcast_S64_S1x64_1 b))

/-- The next embedding from the current one and its propagation. -/
def layerNE (ego side : FVec F S150000x64 .f32) (w1 : FVec F S64x64 .f32) (b1 : FVec F S64 .f32)
    (w2 : FVec F S64x64 .f32) (b2 : FVec F S64 .f32) : FVec F S150000x64 .f32 :=
  addf (leaky (affine side w1 b1)) (leaky (affine (mulf ego side) w2 b2))

/-- Each row divided by the larger of its Euclidean norm and `ε`. -/
def layerNM (ne : FVec F S150000x64 .f32) : FVec F S150000x64 .f32 :=
  Host.divf ne (broadcastInDim S150000x64 ![0, 1] bcast_S150000x1_S150000x64_0_1
    (maximumf (Host.sqrt (broadcastInDim S150000x1 ![0] bcast_S150000_S150000x1_0
        (Host.reduceAdd (mulf ne ne) (constant S_ .f32 0x00000000#32) reducesTo_S150000x64_S150000_d1 h_S_)))
      (broadcastInDim S150000x1 ![] bcast_S_S150000x1 (constant S_ .f32 0x2B8CBCCC#32))))

/-- Layer `l`'s weight matrix and bias row out of the stacked parameters. -/
def w0 (W : FVec F S3x64x64 .f32) : FVec F S64x64 .f32 := shapeCast S64x64 (extractStridedSlice S1x64x64 ![0, 0, 0] W slices_S3x64x64_S1x64x64_0_0_0) shapeCasts_S1x64x64_S64x64
def w1 (W : FVec F S3x64x64 .f32) : FVec F S64x64 .f32 := shapeCast S64x64 (extractStridedSlice S1x64x64 ![1, 0, 0] W slices_S3x64x64_S1x64x64_1_0_0) shapeCasts_S1x64x64_S64x64
def w2 (W : FVec F S3x64x64 .f32) : FVec F S64x64 .f32 := shapeCast S64x64 (extractStridedSlice S1x64x64 ![2, 0, 0] W slices_S3x64x64_S1x64x64_2_0_0) shapeCasts_S1x64x64_S64x64
def b0 (b : FVec F S3x64 .f32) : FVec F S64 .f32 := shapeCast S64 (extractStridedSlice S1x64 ![0, 0] b slices_S3x64_S1x64_0_0) shapeCasts_S1x64_S64
def b1 (b : FVec F S3x64 .f32) : FVec F S64 .f32 := shapeCast S64 (extractStridedSlice S1x64 ![1, 0] b slices_S3x64_S1x64_1_0) shapeCasts_S1x64_S64
def b2 (b : FVec F S3x64 .f32) : FVec F S64 .f32 := shapeCast S64 (extractStridedSlice S1x64 ![2, 0] b slices_S3x64_S1x64_2_0) shapeCasts_S1x64_S64

/-- The three embeddings after the input one. -/
def ego1 (emb : FVec F S150000x64 .f32) (rows cols : IVec S2400000 32) (vals : FVec F S2400000 .f32)
    (W1 : FVec F S3x64x64 .f32) (B1 : FVec F S3x64 .f32) (W2 : FVec F S3x64x64 .f32) (B2 : FVec F S3x64 .f32) : FVec F S150000x64 .f32 :=
  layerNE emb (spmm emb rows cols vals) (w0 W1) (b0 B1) (w0 W2) (b0 B2)
def ego2 (emb : FVec F S150000x64 .f32) (rows cols : IVec S2400000 32) (vals : FVec F S2400000 .f32)
    (W1 : FVec F S3x64x64 .f32) (B1 : FVec F S3x64 .f32) (W2 : FVec F S3x64x64 .f32) (B2 : FVec F S3x64 .f32) : FVec F S150000x64 .f32 :=
  layerNE (ego1 emb rows cols vals W1 B1 W2 B2) (spmm (ego1 emb rows cols vals W1 B1 W2 B2) rows cols vals) (w1 W1) (b1 B1) (w1 W2) (b1 B2)
def ego3 (emb : FVec F S150000x64 .f32) (rows cols : IVec S2400000 32) (vals : FVec F S2400000 .f32)
    (W1 : FVec F S3x64x64 .f32) (B1 : FVec F S3x64 .f32) (W2 : FVec F S3x64x64 .f32) (B2 : FVec F S3x64 .f32) : FVec F S150000x64 .f32 :=
  layerNE (ego2 emb rows cols vals W1 B1 W2 B2) (spmm (ego2 emb rows cols vals W1 B1 W2 B2) rows cols vals) (w2 W1) (b2 B1) (w2 W2) (b2 B2)

/-- Four blocks of 64 columns side by side. -/
def cat4 (a b c d : FVec F S150000x64 .f32) : FVec F S150000x256 .f32 :=
  concatenate S150000x256 1 [⟨S150000x64, a⟩, ⟨S150000x64, b⟩, ⟨S150000x64, c⟩, ⟨S150000x64, d⟩]
    concatenates_S150000x64_S150000x64_S150000x64_S150000x64_S150000x256_d1

/-- The result: the input embedding and the three normalised layers side by side. -/
def outR (emb : FVec F S150000x64 .f32) (rows cols : IVec S2400000 32) (vals : FVec F S2400000 .f32)
    (W1 : FVec F S3x64x64 .f32) (B1 : FVec F S3x64 .f32) (W2 : FVec F S3x64x64 .f32) (B2 : FVec F S3x64 .f32) : FVec F S150000x256 .f32 :=
  cat4 emb (layerNM (ego1 emb rows cols vals W1 B1 W2 B2)) (layerNM (ego2 emb rows cols vals W1 B1 W2 B2))
    (layerNM (ego3 emb rows cols vals W1 B1 W2 B2))

end Cert.Spec

end
-- ==== Proof.Rows.lean ====
/-
  One row of the dense step, read index by index.

  A row of the next embedding depends on one row `e` of the current embedding and one row `s` of its
  propagation: entry `q` is `leaky (∑ₖ sₖ · W₁ₖq + b₁q) + leaky (∑ₖ (eₖ · sₖ) · W₂ₖq + b₂q)` (`gNE`), and the
  normalised row divides each entry by `max (√(∑ₖ nₖ²), ε)` (`gNM`). Both programs compute exactly these
  two row functions: the reference with whole-array operations over all 150000 rows, the kernel with
  the same operations over a block of 3000 rows. The lemmas below read each side at an index `(row, q)`
  and land on `gNE` / `gNM` of that row.
-/
import proofs.«416135_j28965259444540_1_alg».proof.Proof.Spec
import proofs.«416135_j28965259444540_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Rows

open Idealize.ShloMosaic Idealize.ShloMosaic.ValueIdx
open scoped BigOperators

/-! ## The row-level specification -/

/-- `x` where `x ≥ 0`, `slope · x` elsewhere, the slope and the zero kept as their words. -/
def leakyS (x : EReal) : EReal :=
  Scalar.select (Ideal.cmp .oge x (Ideal.ofBits .f32 0x00000000#32)) x (Ideal.ofBits .f32 0x3C23D70A#32 * x)

/-- One row of the next embedding from the row `e` of the current one and the row `s` of its propagation. -/
def gNE (e s : Fin 64 → EReal) (w1 : Fin 64 → Fin 64 → EReal) (b1 : Fin 64 → EReal)
    (w2 : Fin 64 → Fin 64 → EReal) (b2 : Fin 64 → EReal) : Fin 64 → EReal :=
  fun q => leakyS ((∑ k, s k * w1 k q) + b1 q) + leakyS ((∑ k, (e k * s k) * w2 k q) + b2 q)

/-- A row divided by the larger of its Euclidean norm and `ε`. -/
def gNM (n : Fin 64 → EReal) : Fin 64 → EReal :=
  fun q => Ideal.div (n q) (max (Ideal.sqrt (∑ k, n k * n k)) (Ideal.ofBits .f32 0x2B8CBCCC#32))

/-! ## Layout and contraction lemmas at coordinates -/

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The reference's whole-array step at an index -/

section Reference
open Cert.ReferenceIdeal Cert.ReferenceIdeal.Facts₀

/-- The left operand's index of the whole product at output `(r, q)` and contraction coordinate `k` is `(r, k)`. -/
theorem lhs_row_ref (r : Fin 150000) (q k : Fin 64) :
    dot_S150000x64_S64x64_S150000x64_1_0_0_1_n_n.lhsIdx (ix2 r q)
      ((contrEquiv1 dot_S150000x64_S64x64_S150000x64_1_0_0_1_n_n 64 rfl rfl).symm k) = ix2 r k := by
  funext a
  match a with
  | ⟨0, _⟩ => rfl
  | ⟨1, _⟩ => rfl

/-- The right operand's index there is `(k, q)`. -/
theorem rhs_col_ref (r : Fin 150000) (q k : Fin 64) :
    dot_S150000x64_S64x64_S150000x64_1_0_0_1_n_n.rhsIdx (ix2 r q)
      ((contrEquiv1 dot_S150000x64_S64x64_S150000x64_1_0_0_1_n_n 64 rfl rfl).symm k) = ix2 k q := by
  funext a
  match a with
  | ⟨0, _⟩ => rfl
  | ⟨1, _⟩ => rfl

/-- The whole product at `(r, q)`: the sum over `k` of row `r` against column `q`. -/
theorem hdot_apply (x : FVec Ideal S150000x64 .f32) (w : FVec Ideal S64x64 .f32) (r : Fin 150000) (q : Fin 64) :
    Host.dotGeneral dot_S150000x64_S64x64_S150000x64_1_0_0_1_n_n none x w (ix2 r q)
      = ∑ k : Fin 64, x (ix2 r k) * w (ix2 k q) := by
  refine (Ideal.dotGeneral_apply _ none .single x w (ix2 r q)).trans ?_
  rw [← Equiv.sum_comp (contrEquiv1 dot_S150000x64_S64x64_S150000x64_1_0_0_1_n_n 64 rfl rfl).symm]
  refine Finset.sum_congr rfl fun k _ => ?_
  rw [lhs_row_ref, rhs_col_ref]

/-- The bias laid along the rows reads, at `(r, q)`, its entry `q`. -/
theorem biasRows_apply (b : FVec Ideal S64 .f32) (r : Fin 150000) (q : Fin 64) :
    broadcastInDim S150000x64 ![0, 1] bcast_S1x64_S150000x64_0_1 (broadcastInDim S1x64 ![1] bcast_S64_S1x64_1 b) (ix2 r q)
      = b (ix1 q) := by
  refine (broadcastInDim_apply _ _ _ (ix2 r q) (ix2 (0 : Fin 1) q) fun a => ?_).trans ?_
  · match a with
    | ⟨0, _⟩ => rfl
    | ⟨1, _⟩ => rfl
  · refine broadcastInDim_apply _ _ b (ix2 (0 : Fin 1) q) (ix1 q) fun a => ?_
    match a with
    | ⟨0, _⟩ => rfl

/-- `x · w + b` at `(r, q)`. -/
theorem affine_apply (x : FVec Ideal S150000x64 .f32) (w : FVec Ideal S64x64 .f32) (b : FVec Ideal S64 .f32)
    (r : Fin 150000) (q : Fin 64) :
    Cert.Spec.affine x w b (ix2 r q) = (∑ k : Fin 64, x (ix2 r k) * w (ix2 k q)) + b (ix1 q) := by
  unfold Cert.Spec.affine
  rw [addf_apply, hdot_apply, biasRows_apply]

/-- The leaky rectifier at an index is `leakyS` of the element. -/
theorem leaky_apply (x : FVec Ideal S150000x64 .f32) (i : S150000x64.Idx) : Cert.Spec.leaky x i = leakyS (x i) := rfl

theorem layerNE_apply (ego side : FVec Ideal S150000x64 .f32) (w1 : FVec Ideal S64x64 .f32) (b1 : FVec Ideal S64 .f32)
    (w2 : FVec Ideal S64x64 .f32) (b2 : FVec Ideal S64 .f32) (r : Fin 150000) (q : Fin 64) :
    Cert.Spec.layerNE ego side w1 b1 w2 b2 (ix2 r q)
      = gNE (fun k => ego (ix2 r k)) (fun k => side (ix2 r k)) (fun k j => w1 (ix2 k j)) (fun j => b1 (ix1 j))
          (fun k j => w2 (ix2 k j)) (fun j => b2 (ix1 j)) q := by
  unfold Cert.Spec.layerNE
  rw [addf_apply, leaky_apply, leaky_apply, affine_apply, affine_apply]
  rfl

/-- A column `[150000, 1]` laid along the rows reads, at `(r, q)`, its entry `r`. -/
theorem colRows_apply {α : Type} (v : S150000x1.Idx → α) (r : Fin 150000) (q : Fin 64) :
    broadcastInDim S150000x64 ![0, 1] bcast_S150000x1_S150000x64_0_1 v (ix2 r q) = v (ix2 r (0 : Fin 1)) := by
  refine broadcastInDim_apply _ _ v (ix2 r q) (ix2 r (0 : Fin 1)) fun a => ?_
  match a with
  | ⟨0, _⟩ => rfl
  | ⟨1, _⟩ => rfl

/-- A vector `[150000]` as a column reads, at `(r, u)`, its entry `r`. -/
theorem asCol_apply {α : Type} (v : S150000.Idx → α) (r : Fin 150000) (u : Fin 1) :
    broadcastInDim S150000x1 ![0] bcast_S150000_S150000x1_0 v (ix2 r u) = v (ix1 r) := by
  refine broadcastInDim_apply _ _ v (ix2 r u) (ix1 r) fun a => ?_
  match a with
  | ⟨0, _⟩ => rfl

/-- The sum along each row, from the zero word, at row `r`. -/
theorem hsum_apply (v : FVec Ideal S150000x64 .f32) (r : Fin 150000) :
    Host.reduceAdd (F := Ideal) v (constant (F := Ideal) S_ .f32 0x00000000#32) reducesTo_S150000x64_S150000_d1 h_S_ (ix1 r)
      = ∑ k : Fin 64, v (ix2 r k) := by
  have hR : S150000x64.Reduces [1] S150000 := by decide
  refine (Ideal.hostReduceAdd_single reducesTo_S150000x64_S150000_d1 hR v _ (ix1 r)).trans ?_
  rw [show (constant (F := Ideal) S_ .f32 0x00000000#32 (Shape.Idx.first h_S_)) = Ideal.ofBits .f32 0x00000000#32 from rfl,
    Ideal.ofBits_zero_f32, zero_add]
  refine Finset.sum_congr rfl fun k _ => congrArg v ?_
  funext a
  match a with
  | ⟨0, _⟩ => rfl
  | ⟨1, _⟩ => rfl

/-- The host's quotient and square root at an index are the extended reals'. -/
theorem hostDivf_apply {s : Shape} {φ : FTy} (a b : FVec Ideal s φ) (i : s.Idx) : Host.divf a b i = Ideal.div (a i) (b i) := rfl
theorem hostSqrt_apply {s : Shape} {φ : FTy} (a : FVec Ideal s φ) (i : s.Idx) : Host.sqrt a i = Ideal.sqrt (a i) := rfl

theorem layerNM_apply (ne : FVec Ideal S150000x64 .f32) (r : Fin 150000) (q : Fin 64) :
    Cert.Spec.layerNM ne (ix2 r q) = gNM (fun k => ne (ix2 r k)) q := by
  unfold Cert.Spec.layerNM
  rw [hostDivf_apply, colRows_apply, maximumf_apply, hostSqrt_apply, asCol_apply, hsum_apply]
  rfl

end Reference

/-! ## The kernel's block step at an index -/

section Kernel
open Cert.KernelIdeal Cert.KernelIdeal.Gen

/-- The left operand's index of the block product at output `(p, q)` and contraction coordinate `k` is `(p, k)`. -/
theorem lhs_row (p : Fin 3000) (q k : Fin 64) :
    dot_S3000x64_S64x64_S3000x64_1_0_0_1_n_n.lhsIdx (ix2 p q)
      ((contrEquiv1 dot_S3000x64_S64x64_S3000x64_1_0_0_1_n_n 64 rfl rfl).symm k) = ix2 p k := by
  funext a
  match a with
  | ⟨0, _⟩ => rfl
  | ⟨1, _⟩ => rfl

/-- The right operand's index there is `(k, q)`. -/
theorem rhs_col (p : Fin 3000) (q k : Fin 64) :
    dot_S3000x64_S64x64_S3000x64_1_0_0_1_n_n.rhsIdx (ix2 p q)
      ((contrEquiv1 dot_S3000x64_S64x64_S3000x64_1_0_0_1_n_n 64 rfl rfl).symm k) = ix2 k q := by
  funext a
  match a with
  | ⟨0, _⟩ => rfl
  | ⟨1, _⟩ => rfl

/-- The block product into the zero accumulator at `(p, q)`: the sum over `k` of row `p` against column `q`. -/
theorem kmatmul_apply (x : FVec Ideal S3000x64 .bf16) (w : FVec Ideal S64x64 .bf16) (p : Fin 3000) (q : Fin 64) :
    matmul dot_S3000x64_S64x64_S3000x64_1_0_0_1_n_n none x w (constant (F := Ideal) S3000x64 .f32 0x00000000#32) (ix2 p q)
      = ∑ k : Fin 64, x (ix2 p k) * w (ix2 k q) := by
  refine (Ideal.matmul_constant_zero_apply _ none x w (ix2 p q)).trans ?_
  rw [← Equiv.sum_comp (contrEquiv1 dot_S3000x64_S64x64_S3000x64_1_0_0_1_n_n 64 rfl rfl).symm]
  refine Finset.sum_congr rfl fun k _ => ?_
  rw [lhs_row, rhs_col]

/-- The sum along a row of a block, at row `p`. -/
theorem lanesum_apply (v : FVec Ideal S3000x64 .f32) (p : Fin 3000) :
    multiReduction (F := Ideal) .add [1] S3000 v 0x00000000#32 reduces_S3000x64_S3000 (.inl rfl) rfl (ix1 p)
      = ∑ k : Fin 64, v (ix2 p k) := by
  refine (Ideal.multiReduction_add_single v 0x00000000#32 reduces_S3000x64_S3000 (.inl rfl) rfl (ix1 p)).trans ?_
  refine Finset.sum_congr rfl fun k _ => congrArg v ?_
  funext a
  match a with
  | ⟨0, _⟩ => rfl
  | ⟨1, _⟩ => rfl

/-- A square root at an index is the square root of the element. -/
theorem sqrt_apply {s : Shape} {φ : FTy} (v : FVec Ideal s φ) (i : s.Idx) : sqrt v i = Ideal.sqrt (v i) := rfl

/-- The normalisation of a block `P` at `(p, q)`: entry `q` of row `p` over the larger of that row's norm and `ε`. -/
theorem normed_core (P : FVec Ideal S3000x64 .f32) (p : Fin 3000) (q : Fin 64) :
    divf P (broadcastTo S3000x64
        (maximumf
          (sqrt (shapeCast S3000x1
            (multiReduction (F := Ideal) .add [1] S3000 (mulf P P) 0x00000000#32 reduces_S3000x64_S3000 (.inl rfl) rfl)
            shapeCasts_S3000_S3000x1))
          (broadcast S3000x1 (Scalar.ofBits (F := Ideal) .f32 0x2B8CBCCC#32)))
        broadcasts_S3000x1_S3000x64) (ix2 p q)
      = gNM (fun k => P (ix2 p k)) q := by
  rw [divf_apply, broadcastTo_a1_ab_apply, maximumf_apply, sqrt_apply, shapeCast_a_a1_apply, broadcast_apply]
  exact congrArg (fun t => Ideal.div (P (ix2 p q)) (max (Ideal.sqrt t) (Ideal.ofBits .f32 0x2B8CBCCC#32)))
    (lanesum_apply (mulf P P) p)

theorem k0_newego_apply (x0 x1 : Vec Ideal S3000x64 .f32) (w1 w2 : Vec Ideal S64x64 .f32) (bb1 bb2 : Vec Ideal S1x64 .f32)
    (p : Fin 3000) (q : Fin 64) :
    k0_pay2 x0 x1 w1 w2 bb1 bb2 (ix2 p q)
      = gNE (fun k => x0 (ix2 p k)) (fun k => x1 (ix2 p k)) (fun k j => w1 (ix2 k j)) (fun j => bb1 (ix2 0 j))
          (fun k j => w2 (ix2 k j)) (fun j => bb2 (ix2 0 j)) q := by
  unfold k0_pay2
  simp only [shapeCast_self]
  simp only [addf_apply, select_apply, cmpf_apply, mulf_apply, broadcast_apply, kmatmul_apply, broadcastTo_1b_ab_apply,
    truncf_apply]
  rfl

theorem k0_normed_apply (x0 x1 : Vec Ideal S3000x64 .f32) (w1 w2 : Vec Ideal S64x64 .f32) (bb1 bb2 : Vec Ideal S1x64 .f32)
    (p : Fin 3000) (q : Fin 64) :
    k0_pay1 (k0_pay2 x0 x1 w1 w2 bb1 bb2) (k0_pay3 x0 x1 w1 w2 bb1 bb2) (ix2 p q)
      = gNM (fun k => k0_pay2 x0 x1 w1 w2 bb1 bb2 (ix2 p k)) q := by
  unfold k0_pay1 k0_pay3
  exact normed_core _ p q

theorem k1_newego_apply (x0 x1 : Vec Ideal S3000x64 .f32) (w1 w2 : Vec Ideal S64x64 .f32) (bb1 bb2 : Vec Ideal S1x64 .f32)
    (p : Fin 3000) (q : Fin 64) :
    k1_pay2 x0 x1 w1 w2 bb1 bb2 (ix2 p q)
      = gNE (fun k => x0 (ix2 p k)) (fun k => x1 (ix2 p k)) (fun k j => w1 (ix2 k j)) (fun j => bb1 (ix2 0 j))
          (fun k j => w2 (ix2 k j)) (fun j => bb2 (ix2 0 j)) q := by
  unfold k1_pay2
  simp only [shapeCast_self]
  simp only [addf_apply, select_apply, cmpf_apply, mulf_apply, broadcast_apply, kmatmul_apply, broadcastTo_1b_ab_apply,
    truncf_apply]
  rfl

theorem k1_normed_apply (x0 x1 : Vec Ideal S3000x64 .f32) (w1 w2 : Vec Ideal S64x64 .f32) (bb1 bb2 : Vec Ideal S1x64 .f32)
    (p : Fin 3000) (q : Fin 64) :
    k1_pay1 (k1_pay2 x0 x1 w1 w2 bb1 bb2) (k1_pay3 x0 x1 w1 w2 bb1 bb2) (k1_pay4 (F := Ideal)) (ix2 p q)
      = gNM (fun k => k1_pay2 x0 x1 w1 w2 bb1 bb2 (ix2 p k)) q := by
  unfold k1_pay1 k1_pay3 k1_pay4
  exact normed_core _ p q

theorem k2_newego_apply (x0 x1 : Vec Ideal S3000x64 .f32) (w1 w2 : Vec Ideal S64x64 .f32) (bb1 bb2 : Vec Ideal S1x64 .f32)
    (p : Fin 3000) (q : Fin 64) :
    k2_pay2 x0 x1 w1 w2 bb1 bb2 (ix2 p q)
      = gNE (fun k => x0 (ix2 p k)) (fun k => x1 (ix2 p k)) (fun k j => w1 (ix2 k j)) (fun j => bb1 (ix2 0 j))
          (fun k j => w2 (ix2 k j)) (fun j => bb2 (ix2 0 j)) q := by
  unfold k2_pay2
  simp only [shapeCast_self]
  simp only [addf_apply, select_apply, cmpf_apply, mulf_apply, broadcast_apply, kmatmul_apply, broadcastTo_1b_ab_apply,
    truncf_apply]
  rfl

theorem k2_normed_apply (x0 x1 : Vec Ideal S3000x64 .f32) (w1 w2 : Vec Ideal S64x64 .f32) (bb1 bb2 : Vec Ideal S1x64 .f32)
    (p : Fin 3000) (q : Fin 64) :
    k2_pay1 (k2_pay2 x0 x1 w1 w2 bb1 bb2) (k2_pay3 x0 x1 w1 w2 bb1 bb2) (k2_pay4 (F := Ideal)) (ix2 p q)
      = gNM (fun k => k2_pay2 x0 x1 w1 w2 bb1 bb2 (ix2 p k)) q := by
  unfold k2_pay1 k2_pay3 k2_pay4
  exact normed_core _ p q

end Kernel

end Cert.Rows

end
-- ==== Proof.KI.Arr.lean ====
/-
  The dense step as a function of whole arrays.

  Row `r` of the next embedding is the row function `gNE` of row `r` of the current embedding and row `r`
  of its propagation; row `r` of the normalised array is `gNM` of row `r` of the next embedding. The
  weight matrices are read at `(k, j)` and the bias rows, kept as [1, 64] arrays, at `(0, j)`.
-/
import proofs.«416135_j28965259444540_1_alg».proof.Proof.Rows

noncomputable section

namespace Cert.KernelIdeal.HandVal

open Cert.KernelIdeal
open Idealize.ShloMosaic Idealize.ShloMosaic.ValueIdx

/-- The next embedding, row by row: entry `(r, q)` is `gNE` of rows `r` of `ego` and `side` at `q`. -/
def neArr (ego side : S150000x64.Idx → EReal) (w1 : S64x64.Idx → EReal) (b1 : S1x64.Idx → EReal)
    (w2 : S64x64.Idx → EReal) (b2 : S1x64.Idx → EReal) : S150000x64.Idx → EReal :=
  fun i => Cert.Rows.gNE (fun k => ego (ix2 (i 0 : Fin 150000) k)) (fun k => side (ix2 (i 0 : Fin 150000) k))
    (fun k j => w1 (ix2 k j)) (fun j => b1 (ix2 0 j)) (fun k j => w2 (ix2 k j)) (fun j => b2 (ix2 0 j)) (i 1 : Fin 64)

/-- The normalised array, row by row: entry `(r, q)` is `gNM` of row `r` of `ne` at `q`. -/
def nmArr (ne : S150000x64.Idx → EReal) : S150000x64.Idx → EReal :=
  fun i => Cert.Rows.gNM (fun k => ne (ix2 (i 0 : Fin 150000) k)) (i 1 : Fin 64)

/-- `neArr` at an index given by its coordinates. -/
theorem neArr_ix2 (ego side : S150000x64.Idx → EReal) (w1 : S64x64.Idx → EReal) (b1 : S1x64.Idx → EReal)
    (w2 : S64x64.Idx → EReal) (b2 : S1x64.Idx → EReal) (r : Fin 150000) (q : Fin 64) :
    neArr ego side w1 b1 w2 b2 (ix2 r q)
      = Cert.Rows.gNE (fun k => ego (ix2 r k)) (fun k => side (ix2 r k))
          (fun k j => w1 (ix2 k j)) (fun j => b1 (ix2 0 j)) (fun k j => w2 (ix2 k j)) (fun j => b2 (ix2 0 j)) q := rfl

/-- `nmArr` at an index given by its coordinates. -/
theorem nmArr_ix2 (ne : S150000x64.Idx → EReal) (r : Fin 150000) (q : Fin 64) :
    nmArr ne (ix2 r q) = Cert.Rows.gNM (fun k => ne (ix2 r k)) q := rfl

end Cert.KernelIdeal.HandVal

end
-- ==== Proof.KI.Val0.lean ====
/-
  Pallas call 0, from blocks to arrays.

  The call runs over 50 row blocks of 3000 rows. At point `t` the two blocked inputs bring rows
  `3000 t … 3000 t + 2999` of the embedding and of its propagation, the four whole inputs bring the two
  weight matrices and the two bias rows, and the two outputs are written back to the same rows. The body's
  outputs depend on a row of the blocks only through that same row, so what point `t` writes back is block
  `t` of one function of the whole arrays: the row function `gNE` (and `gNM` after it) applied row by row.
  The 50 blocks tile the 150000 rows (row `r` lies in block `r / 3000`), hence after the call each output
  array is that function of the input arrays.
-/
import proofs.«416135_j28965259444540_1_alg».proof.Proof.KI.Body0
import proofs.«416135_j28965259444540_1_alg».proof.Proof.KI.Arr
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## One block, over variables -/

/-- The zero offsets of a whole-buffer rectangle. -/
theorem zeroOff0 : (![0, 0] : Fin 2 → Nat) = fun _ => 0 := funext fun a => by fin_cases a <;> rfl

/-- If the blocks `x0`, `x1` hold rows `ρ p` of `ego`, `side` and the whole blocks hold the weights and biases,
    the new-embedding payload at `(p, q)` is `neArr` at `(ρ p, q)`. -/
theorem pay_ne0 (x0 x1 : Vec Ideal S3000x64 .f32) (x2 x4 : Vec Ideal S64x64 .f32) (x3 x5 : Vec Ideal S1x64 .f32)
    (ego side : S150000x64.Idx → EReal) (w1 : S64x64.Idx → EReal) (b1 : S1x64.Idx → EReal)
    (w2 : S64x64.Idx → EReal) (b2 : S1x64.Idx → EReal) (ρ : Fin 3000 → Fin 150000)
    (h0 : ∀ (p : Fin 3000) (k : Fin 64), x0 (ix2 p k) = ego (ix2 (ρ p) k))
    (h1 : ∀ (p : Fin 3000) (k : Fin 64), x1 (ix2 p k) = side (ix2 (ρ p) k))
    (h2 : ∀ (k j : Fin 64), x2 (ix2 k j) = w1 (ix2 k j))
    (h3 : ∀ (j : Fin 64), x3 (ix2 0 j) = b1 (ix2 0 j))
    (h4 : ∀ (k j : Fin 64), x4 (ix2 k j) = w2 (ix2 k j))
    (h5 : ∀ (j : Fin 64), x5 (ix2 0 j) = b2 (ix2 0 j))
    (p : Fin 3000) (q : Fin 64) :
    k0_pay2 x0 x1 x2 x4 x3 x5 (ix2 p q) = neArr ego side w1 b1 w2 b2 (ix2 (ρ p) q) := by
  rw [Cert.Rows.k0_newego_apply, neArr_ix2]
  simp only [h0, h1, h2, h3, h4, h5]

/-- Under the same hypotheses the normalised payload at `(p, q)` is `nmArr` of `neArr` at `(ρ p, q)`. -/
theorem pay_nm0 (x0 x1 : Vec Ideal S3000x64 .f32) (x2 x4 : Vec Ideal S64x64 .f32) (x3 x5 : Vec Ideal S1x64 .f32)
    (ego side : S150000x64.Idx → EReal) (w1 : S64x64.Idx → EReal) (b1 : S1x64.Idx → EReal)
    (w2 : S64x64.Idx → EReal) (b2 : S1x64.Idx → EReal) (ρ : Fin 3000 → Fin 150000)
    (h0 : ∀ (p : Fin 3000) (k : Fin 64), x0 (ix2 p k) = ego (ix2 (ρ p) k))
    (h1 : ∀ (p : Fin 3000) (k : Fin 64), x1 (ix2 p k) = side (ix2 (ρ p) k))
    (h2 : ∀ (k j : Fin 64), x2 (ix2 k j) = w1 (ix2 k j))
    (h3 : ∀ (j : Fin 64), x3 (ix2 0 j) = b1 (ix2 0 j))
    (h4 : ∀ (k j : Fin 64), x4 (ix2 k j) = w2 (ix2 k j))
    (h5 : ∀ (j : Fin 64), x5 (ix2 0 j) = b2 (ix2 0 j))
    (p : Fin 3000) (q : Fin 64) :
    k0_pay1 (k0_pay2 x0 x1 x2 x4 x3 x5) (k0_pay3 x0 x1 x2 x4 x3 x5) (ix2 p q)
      = nmArr (neArr ego side w1 b1 w2 b2) (ix2 (ρ p) q) := by
  rw [Cert.Rows.k0_normed_apply, nmArr_ix2]
  simp only [pay_ne0 x0 x1 x2 x4 x3 x5 ego side w1 b1 w2 b2 ρ h0 h1 h2 h3 h4 h5]

/-! ## The index maps over the grid -/

/-- The printed index maps, decided over the 50 points: the four blocked windows are at block `(t, 0)`, the
    four whole ones at block `(0, 0)`. -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The array row under row `p` of block `t`. -/
def rowOf0 (t : Fin cfg0.N) (p : Fin 3000) : Fin 150000 :=
  ⟨t.val * 3000 + p.val, by have ht : t.val < 50 := lt_of_lt_of_eq t.isLt N_0; have hp := p.isLt; omega⟩

/-! ## The input blocks at a point, read off the arrays -/

/-- Block `t` of the embedding holds its rows `3000 t + p`. -/
theorem in0_0 (c : Dev nD) (t : Fin cfg0.N) (p : Fin 3000) (k : Fin 64) :
    iblk0 V c 0 t (ix2 p k) = V c main_arg0 (ix2 (rowOf0 t p) k) := by
  obtain ⟨e0, e1, -⟩ := blockIdx0 t
  show V c main_arg0 (((cfg0.win 0).blk t).view.emb (ix2 p k)) = V c main_arg0 (ix2 (rowOf0 t p) k)
  congr 1
  funext a; apply Fin.ext
  match a with
  | ⟨0, _⟩ => show win0_0.index t (0 : Fin 2) * 3000 + 1 * p.val = t.val * 3000 + p.val; omega
  | ⟨1, _⟩ => show win0_0.index t (1 : Fin 2) * 64 + 1 * k.val = k.val; omega

/-- Block `t` of the propagated rows holds its rows `3000 t + p`. -/
theorem in0_1 (c : Dev nD) (t : Fin cfg0.N) (p : Fin 3000) (k : Fin 64) :
    iblk0 V c 1 t (ix2 p k) = V c main_v6 (ix2 (rowOf0 t p) k) := by
  obtain ⟨-, -, e0, e1, -⟩ := blockIdx0 t
  show V c main_v6 (((cfg0.win 1).blk t).view.emb (ix2 p k)) = V c main_v6 (ix2 (rowOf0 t p) k)
  congr 1
  funext a; apply Fin.ext
  match a with
  | ⟨0, _⟩ => show win0_1.index t (0 : Fin 2) * 3000 + 1 * p.val = t.val * 3000 + p.val; omega
  | ⟨1, _⟩ => show win0_1.index t (1 : Fin 2) * 64 + 1 * k.val = k.val; omega

/-- The first weight matrix is staged whole. -/
theorem in0_2 (c : Dev nD) (t : Fin cfg0.N) (k j : Fin 64) :
    iblk0 V c 2 t (ix2 k j) = V c main_v8 (ix2 k j) := by
  obtain ⟨-, -, -, -, e0, e1, -⟩ := blockIdx0 t
  show V c main_v8 (((cfg0.win 2).blk t).view.emb (ix2 k j)) = V c main_v8 (ix2 k j)
  congr 1
  funext a; apply Fin.ext
  match a with
  | ⟨0, _⟩ => show win0_2.index t (0 : Fin 2) * 64 + 1 * k.val = k.val; omega
  | ⟨1, _⟩ => show win0_2.index t (1 : Fin 2) * 64 + 1 * j.val = j.val; omega

/-- The first bias row is staged whole. -/
theorem in0_3 (c : Dev nD) (t : Fin cfg0.N) (j : Fin 64) :
    iblk0 V c 3 t (ix2 0 j) = V c main_v11 (ix2 0 j) := by
  obtain ⟨-, -, -, -, -, -, e0, e1, -⟩ := blockIdx0 t
  show V c main_v11 (((cfg0.win 3).blk t).view.emb (ix2 0 j)) = V c main_v11 (ix2 0 j)
  congr 1
  funext a; apply Fin.ext
  match a with
  | ⟨0, _⟩ => show win0_3.index t (0 : Fin 2) * 1 + 1 * 0 = 0; omega
  | ⟨1, _⟩ => show win0_3.index t (1 : Fin 2) * 64 + 1 * j.val = j.val; omega

/-- The second weight matrix is staged whole. -/
theorem in0_4 (c : Dev nD) (t : Fin cfg0.N) (k j : Fin 64) :
    iblk0 V c 4 t (ix2 k j) = V c main_v13 (ix2 k j) := by
  obtain ⟨-, -, -, -, -, -, -, -, e0, e1, -⟩ := blockIdx0 t
  show V c main_v13 (((cfg0.win 4).blk t).view.emb (ix2 k j)) = V c main_v13 (ix2 k j)
  congr 1
  funext a; apply Fin.ext
  match a with
  | ⟨0, _⟩ => show win0_4.index t (0 : Fin 2) * 64 + 1 * k.val = k.val; omega
  | ⟨1, _⟩ => show win0_4.index t (1 : Fin 2) * 64 + 1 * j.val = j.val; omega

/-- The second bias row is staged whole. -/
theorem in0_5 (c : Dev nD) (t : Fin cfg0.N) (j : Fin 64) :
    iblk0 V c 5 t (ix2 0 j) = V c main_v16 (ix2 0 j) := by
  obtain ⟨-, -, -, -, -, -, -, -, -, -, e0, e1, -⟩ := blockIdx0 t
  show V c main_v16 (((cfg0.win 5).blk t).view.emb (ix2 0 j)) = V c main_v16 (ix2 0 j)
  congr 1
  funext a; apply Fin.ext
  match a with
  | ⟨0, _⟩ => show win0_5.index t (0 : Fin 2) * 1 + 1 * 0 = 0; omega
  | ⟨1, _⟩ => show win0_5.index t (1 : Fin 2) * 64 + 1 * j.val = j.val; omega

/-! ## What a point writes back -/

/-- Element `(p, q)` of output block `t` sits at `(3000 t + p, q)` of the first output array … -/
theorem emb0_6 (t : Fin cfg0.N) (p : Fin 3000) (q : Fin 64) :
    ((cfg0.win 6).blk t).view.emb (ix2 p q) = ix2 (rowOf0 t p) q := by
  obtain ⟨-, -, -, -, -, -, -, -, -, -, -, -, e0, e1, -⟩ := blockIdx0 t
  funext a; apply Fin.ext
  match a with
  | ⟨0, _⟩ => show win0_6.index t (0 : Fin 2) * 3000 + 1 * p.val = t.val * 3000 + p.val; omega
  | ⟨1, _⟩ => show win0_6.index t (1 : Fin 2) * 64 + 1 * q.val = q.val; omega

/-- … and of the second. -/
theorem emb0_7 (t : Fin cfg0.N) (p : Fin 3000) (q : Fin 64) :
    ((cfg0.win 7).blk t).view.emb (ix2 p q) = ix2 (rowOf0 t p) q := by
  obtain ⟨-, -, -, -, -, -, -, -, -, -, -, -, -, -, e0, e1⟩ := blockIdx0 t
  funext a; apply Fin.ext
  match a with
  | ⟨0, _⟩ => show win0_7.index t (0 : Fin 2) * 3000 + 1 * p.val = t.val * 3000 + p.val; omega
  | ⟨1, _⟩ => show win0_7.index t (1 : Fin 2) * 64 + 1 * q.val = q.val; omega

/-- What point `t` writes back to the first output array is block `t` of `neArr` of the input arrays. -/
theorem flushed0_6 (c : Dev nD) (t : Fin cfg0.N) :
    (dat0 V c).flushed 6 t = ((cfg0.win 6).blk t).view.read (Elt Ideal)
      (neArr (V c main_arg0) (V c main_v6) (V c main_v8) (V c main_v11) (V c main_v13) (V c main_v16)) := by
  show (cfg0.win 6).cut (grid0.coords t) ((dat0 V c).after 6 t) = _
  rw [after0_6]
  unfold out0_6
  rw [View.canon_unit_zero zeroOff0]
  simp only [View.ld_unit_zero (S := S3000x64) zeroOff0, View.ld_unit_zero (S := S64x64) zeroOff0, View.ld_unit_zero (S := S1x64) zeroOff0]
  funext j
  obtain ⟨p, q, rfl⟩ : ∃ (p : Fin 3000) (q : Fin 64), j = ix2 p q := ⟨j 0, j 1, eq_ix2 j⟩
  show k0_pay2 (iblk0 V c 0 t) (iblk0 V c 1 t) (iblk0 V c 2 t) (iblk0 V c 4 t) (iblk0 V c 3 t) (iblk0 V c 5 t) (ix2 p q)
    = neArr (V c main_arg0) (V c main_v6) (V c main_v8) (V c main_v11) (V c main_v13) (V c main_v16) (((cfg0.win 6).blk t).view.emb (ix2 p q))
  rw [emb0_6]
  exact pay_ne0 (iblk0 V c 0 t) (iblk0 V c 1 t) (iblk0 V c 2 t) (iblk0 V c 4 t) (iblk0 V c 3 t) (iblk0 V c 5 t) _ _ _ _ _ _ (rowOf0 t)
    (in0_0 V c t) (in0_1 V c t) (in0_2 V c t) (in0_3 V c t) (in0_4 V c t) (in0_5 V c t) p q

/-- What point `t` writes back to the second output array is block `t` of `nmArr` of that. -/
theorem flushed0_7 (c : Dev nD) (t : Fin cfg0.N) :
    (dat0 V c).flushed 7 t = ((cfg0.win 7).blk t).view.read (Elt Ideal)
      (nmArr (neArr (V c main_arg0) (V c main_v6) (V c main_v8) (V c main_v11) (V c main_v13) (V c main_v16))) := by
  show (cfg0.win 7).cut (grid0.coords t) ((dat0 V c).after 7 t) = _
  rw [after0_7]
  unfold out0_7
  rw [View.canon_unit_zero zeroOff0]
  simp only [View.ld_unit_zero (S := S3000x64) zeroOff0, View.ld_unit_zero (S := S64x64) zeroOff0, View.ld_unit_zero (S := S1x64) zeroOff0]
  funext j
  obtain ⟨p, q, rfl⟩ : ∃ (p : Fin 3000) (q : Fin 64), j = ix2 p q := ⟨j 0, j 1, eq_ix2 j⟩
  show k0_pay1 (k0_pay2 (iblk0 V c 0 t) (iblk0 V c 1 t) (iblk0 V c 2 t) (iblk0 V c 4 t) (iblk0 V c 3 t) (iblk0 V c 5 t)) (k0_pay3 (iblk0 V c 0 t) (iblk0 V c 1 t) (iblk0 V c 2 t) (iblk0 V c 4 t) (iblk0 V c 3 t) (iblk0 V c 5 t)) (ix2 p q)
    = nmArr (neArr (V c main_arg0) (V c main_v6) (V c main_v8) (V c main_v11) (V c main_v13) (V c main_v16)) (((cfg0.win 7).blk t).view.emb (ix2 p q))
  rw [emb0_7]
  exact pay_nm0 (iblk0 V c 0 t) (iblk0 V c 1 t) (iblk0 V c 2 t) (iblk0 V c 4 t) (iblk0 V c 3 t) (iblk0 V c 5 t) _ _ _ _ _ _ (rowOf0 t)
    (in0_0 V c t) (in0_1 V c t) (in0_2 V c t) (in0_3 V c t) (in0_4 V c t) (in0_5 V c t) p q

/-! ## The blocks tile the rows -/

/-- An index of the first output array is in block `t` iff each coordinate is in the block's range on its axis. -/
theorem mem_blk0_6 (t : Fin cfg0.N) (i : S150000x64.Idx) :
    i ∈ ((cfg0.win 6).blk t).view.set ↔ ∀ a : Fin 2, win0_6.index t a * S3000x64.size a ≤ (i a).val ∧ (i a).val < win0_6.index t a * S3000x64.size a + S3000x64.size a := by
  show i ∈ ((View.whole main_v17_0).slice (win0_6.rect t)).set ↔ _
  rw [View.set_slice_whole, Rect.mem_set_unit]
  exact Iff.rfl

/-- The same for the second output array. -/
theorem mem_blk0_7 (t : Fin cfg0.N) (i : S150000x64.Idx) :
    i ∈ ((cfg0.win 7).blk t).view.set ↔ ∀ a : Fin 2, win0_7.index t a * S3000x64.size a ≤ (i a).val ∧ (i a).val < win0_7.index t a * S3000x64.size a + S3000x64.size a := by
  show i ∈ ((View.whole main_v17_1).slice (win0_7.rect t)).set ↔ _
  rw [View.set_slice_whole, Rect.mem_set_unit]
  exact Iff.rfl

/-- The point whose block holds row `r`: `r / 3000`. -/
def pointOf0 (i : S150000x64.Idx) : Fin cfg0.N :=
  ⟨(i 0).val / 3000, by have hi : (i 0).val < 150000 := idx2_lt0 i; rw [show cfg0.N = 50 from N_0]; omega⟩

/-- Every index of the first output array lies in the block of some point that writes back. -/
theorem cover0_6 (i : S150000x64.Idx) :
    ∃ t : Fin cfg0.N, (cfg0.win 6).flush t = true ∧ i ∈ ((cfg0.win 6).blk t).view.set := by
  have hi0 : (i 0).val < 150000 := idx2_lt0 i
  have hi1 : (i 1).val < 64 := idx2_lt1 i
  refine ⟨pointOf0 i, flush0_6 _, ?_⟩
  obtain ⟨-, -, -, -, -, -, -, -, -, -, -, -, e0, e1, -⟩ := blockIdx0 (pointOf0 i)
  have et : (pointOf0 i).val = (i 0).val / 3000 := rfl
  rw [mem_blk0_6]
  intro a
  match a with
  | ⟨0, _⟩ => show win0_6.index (pointOf0 i) (0 : Fin 2) * 3000 ≤ (i 0).val ∧ (i 0).val < win0_6.index (pointOf0 i) (0 : Fin 2) * 3000 + 3000; omega
  | ⟨1, _⟩ => show win0_6.index (pointOf0 i) (1 : Fin 2) * 64 ≤ (i 1).val ∧ (i 1).val < win0_6.index (pointOf0 i) (1 : Fin 2) * 64 + 64; omega

/-- Every index of the second output array lies in the block of some point that writes back. -/
theorem cover0_7 (i : S150000x64.Idx) :
    ∃ t : Fin cfg0.N, (cfg0.win 7).flush t = true ∧ i ∈ ((cfg0.win 7).blk t).view.set := by
  have hi0 : (i 0).val < 150000 := idx2_lt0 i
  have hi1 : (i 1).val < 64 := idx2_lt1 i
  refine ⟨pointOf0 i, flush0_7 _, ?_⟩
  obtain ⟨-, -, -, -, -, -, -, -, -, -, -, -, -, -, e0, e1⟩ := blockIdx0 (pointOf0 i)
  have et : (pointOf0 i).val = (i 0).val / 3000 := rfl
  rw [mem_blk0_7]
  intro a
  match a with
  | ⟨0, _⟩ => show win0_7.index (pointOf0 i) (0 : Fin 2) * 3000 ≤ (i 0).val ∧ (i 0).val < win0_7.index (pointOf0 i) (0 : Fin 2) * 3000 + 3000; omega
  | ⟨1, _⟩ => show win0_7.index (pointOf0 i) (1 : Fin 2) * 64 ≤ (i 1).val ∧ (i 1).val < win0_7.index (pointOf0 i) (1 : Fin 2) * 64 + 64; omega

/-! ## The output arrays after the call -/

/-- After the call the first output array is `neArr` of the input arrays as the call found them. -/
theorem arr6_0 (c : Dev nD) :
    (dat0 V c).arrAt 6 cfg0.N
      = neArr (V c main_arg0) (V c main_v6) (V c main_v8) (V c main_v11) (V c main_v13) (V c main_v16) :=
  (dat0 V c).arrAt_eq_of_cover 6 _ (fun t _ => flushed0_6 V c t) cover0_6

/-- After the call the second output array is `nmArr` of that. -/
theorem arr7_0 (c : Dev nD) :
    (dat0 V c).arrAt 7 cfg0.N
      = nmArr (neArr (V c main_arg0) (V c main_v6) (V c main_v8) (V c main_v11) (V c main_v13) (V c main_v16)) :=
  (dat0 V c).arrAt_eq_of_cover 7 _ (fun t _ => flushed0_7 V c t) cover0_7

end Cert.KernelIdeal.HandVal

end
-- ==== Proof.KI.Val1.lean ====
/-
  Pallas call 1, from blocks to arrays.

  The call runs over 50 row blocks of 3000 rows. At point `t` the two blocked inputs bring rows
  `3000 t … 3000 t + 2999` of the embedding and of its propagation, the four whole inputs bring the two
  weight matrices and the two bias rows, and the two outputs are written back to the same rows. The body's
  outputs depend on a row of the blocks only through that same row, so what point `t` writes back is block
  `t` of one function of the whole arrays: the row function `gNE` (and `gNM` after it) applied row by row.
  The 50 blocks tile the 150000 rows (row `r` lies in block `r / 3000`), hence after the call each output
  array is that function of the input arrays.
-/
import proofs.«416135_j28965259444540_1_alg».proof.Proof.KI.Body1
import proofs.«416135_j28965259444540_1_alg».proof.Proof.KI.Arr
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## One block, over variables -/

/-- The zero offsets of a whole-buffer rectangle. -/
theorem zeroOff1 : (![0, 0] : Fin 2 → Nat) = fun _ => 0 := funext fun a => by fin_cases a <;> rfl

/-- If the blocks `x0`, `x1` hold rows `ρ p` of `ego`, `side` and the whole blocks hold the weights and biases,
    the new-embedding payload at `(p, q)` is `neArr` at `(ρ p, q)`. -/
theorem pay_ne1 (x0 x1 : Vec Ideal S3000x64 .f32) (x2 x4 : Vec Ideal S64x64 .f32) (x3 x5 : Vec Ideal S1x64 .f32)
    (ego side : S150000x64.Idx → EReal) (w1 : S64x64.Idx → EReal) (b1 : S1x64.Idx → EReal)
    (w2 : S64x64.Idx → EReal) (b2 : S1x64.Idx → EReal) (ρ : Fin 3000 → Fin 150000)
    (h0 : ∀ (p : Fin 3000) (k : Fin 64), x0 (ix2 p k) = ego (ix2 (ρ p) k))
    (h1 : ∀ (p : Fin 3000) (k : Fin 64), x1 (ix2 p k) = side (ix2 (ρ p) k))
    (h2 : ∀ (k j : Fin 64), x2 (ix2 k j) = w1 (ix2 k j))
    (h3 : ∀ (j : Fin 64), x3 (ix2 0 j) = b1 (ix2 0 j))
    (h4 : ∀ (k j : Fin 64), x4 (ix2 k j) = w2 (ix2 k j))
    (h5 : ∀ (j : Fin 64), x5 (ix2 0 j) = b2 (ix2 0 j))
    (p : Fin 3000) (q : Fin 64) :
    k1_pay2 x0 x1 x2 x4 x3 x5 (ix2 p q) = neArr ego side w1 b1 w2 b2 (ix2 (ρ p) q) := by
  rw [Cert.Rows.k1_newego_apply, neArr_ix2]
  simp only [h0, h1, h2, h3, h4, h5]

/-- Under the same hypotheses the normalised payload at `(p, q)` is `nmArr` of `neArr` at `(ρ p, q)`. -/
theorem pay_nm1 (x0 x1 : Vec Ideal S3000x64 .f32) (x2 x4 : Vec Ideal S64x64 .f32) (x3 x5 : Vec Ideal S1x64 .f32)
    (ego side : S150000x64.Idx → EReal) (w1 : S64x64.Idx → EReal) (b1 : S1x64.Idx → EReal)
    (w2 : S64x64.Idx → EReal) (b2 : S1x64.Idx → EReal) (ρ : Fin 3000 → Fin 150000)
    (h0 : ∀ (p : Fin 3000) (k : Fin 64), x0 (ix2 p k) = ego (ix2 (ρ p) k))
    (h1 : ∀ (p : Fin 3000) (k : Fin 64), x1 (ix2 p k) = side (ix2 (ρ p) k))
    (h2 : ∀ (k j : Fin 64), x2 (ix2 k j) = w1 (ix2 k j))
    (h3 : ∀ (j : Fin 64), x3 (ix2 0 j) = b1 (ix2 0 j))
    (h4 : ∀ (k j : Fin 64), x4 (ix2 k j) = w2 (ix2 k j))
    (h5 : ∀ (j : Fin 64), x5 (ix2 0 j) = b2 (ix2 0 j))
    (p : Fin 3000) (q : Fin 64) :
    k1_pay1 (k1_pay2 x0 x1 x2 x4 x3 x5) (k1_pay3 x0 x1 x2 x4 x3 x5) (k1_pay4 (F := Ideal)) (ix2 p q)
      = nmArr (neArr ego side w1 b1 w2 b2) (ix2 (ρ p) q) := by
  rw [Cert.Rows.k1_normed_apply, nmArr_ix2]
  simp only [pay_ne1 x0 x1 x2 x4 x3 x5 ego side w1 b1 w2 b2 ρ h0 h1 h2 h3 h4 h5]

/-! ## The index maps over the grid -/

/-- The printed index maps, decided over the 50 points: the four blocked windows are at block `(t, 0)`, the
    four whole ones at block `(0, 0)`. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The array row under row `p` of block `t`. -/
def rowOf1 (t : Fin cfg1.N) (p : Fin 3000) : Fin 150000 :=
  ⟨t.val * 3000 + p.val, by have ht : t.val < 50 := lt_of_lt_of_eq t.isLt N_1; have hp := p.isLt; omega⟩

/-! ## The input blocks at a point, read off the arrays -/

/-- Block `t` of the embedding holds its rows `3000 t + p`. -/
theorem in1_0 (c : Dev nD) (t : Fin cfg1.N) (p : Fin 3000) (k : Fin 64) :
    iblk1 V c 0 t (ix2 p k) = V c main_v17_0 (ix2 (rowOf1 t p) k) := by
  obtain ⟨e0, e1, -⟩ := blockIdx1 t
  show V c main_v17_0 (((cfg1.win 0).blk t).view.emb (ix2 p k)) = V c main_v17_0 (ix2 (rowOf1 t p) k)
  congr 1
  funext a; apply Fin.ext
  match a with
  | ⟨0, _⟩ => show win1_0.index t (0 : Fin 2) * 3000 + 1 * p.val = t.val * 3000 + p.val; omega
  | ⟨1, _⟩ => show win1_0.index t (1 : Fin 2) * 64 + 1 * k.val = k.val; omega

/-- Block `t` of the propagated rows holds its rows `3000 t + p`. -/
theorem in1_1 (c : Dev nD) (t : Fin cfg1.N) (p : Fin 3000) (k : Fin 64) :
    iblk1 V c 1 t (ix2 p k) = V c main_v24 (ix2 (rowOf1 t p) k) := by
  obtain ⟨-, -, e0, e1, -⟩ := blockIdx1 t
  show V c main_v24 (((cfg1.win 1).blk t).view.emb (ix2 p k)) = V c main_v24 (ix2 (rowOf1 t p) k)
  congr 1
  funext a; apply Fin.ext
  match a with
  | ⟨0, _⟩ => show win1_1.index t (0 : Fin 2) * 3000 + 1 * p.val = t.val * 3000 + p.val; omega
  | ⟨1, _⟩ => show win1_1.index t (1 : Fin 2) * 64 + 1 * k.val = k.val; omega

/-- The first weight matrix is staged whole. -/
theorem in1_2 (c : Dev nD) (t : Fin cfg1.N) (k j : Fin 64) :
    iblk1 V c 2 t (ix2 k j) = V c main_v26 (ix2 k j) := by
  obtain ⟨-, -, -, -, e0, e1, -⟩ := blockIdx1 t
  show V c main_v26 (((cfg1.win 2).blk t).view.emb (ix2 k j)) = V c main_v26 (ix2 k j)
  congr 1
  funext a; apply Fin.ext
  match a with
  | ⟨0, _⟩ => show win1_2.index t (0 : Fin 2) * 64 + 1 * k.val = k.val; omega
  | ⟨1, _⟩ => show win1_2.index t (1 : Fin 2) * 64 + 1 * j.val = j.val; omega

/-- The first bias row is staged whole. -/
theorem in1_3 (c : Dev nD) (t : Fin cfg1.N) (j : Fin 64) :
    iblk1 V c 3 t (ix2 0 j) = V c main_v29 (ix2 0 j) := by
  obtain ⟨-, -, -, -, -, -, e0, e1, -⟩ := blockIdx1 t
  show V c main_v29 (((cfg1.win 3).blk t).view.emb (ix2 0 j)) = V c main_v29 (ix2 0 j)
  congr 1
  funext a; apply Fin.ext
  match a with
  | ⟨0, _⟩ => show win1_3.index t (0 : Fin 2) * 1 + 1 * 0 = 0; omega
  | ⟨1, _⟩ => show win1_3.index t (1 : Fin 2) * 64 + 1 * j.val = j.val; omega

/-- The second weight matrix is staged whole. -/
theorem in1_4 (c : Dev nD) (t : Fin cfg1.N) (k j : Fin 64) :
    iblk1 V c 4 t (ix2 k j) = V c main_v31 (ix2 k j) := by
  obtain ⟨-, -, -, -, -, -, -, -, e0, e1, -⟩ := blockIdx1 t
  show V c main_v31 (((cfg1.win 4).blk t).view.emb (ix2 k j)) = V c main_v31 (ix2 k j)
  congr 1
  funext a; apply Fin.ext
  match a with
  | ⟨0, _⟩ => show win1_4.index t (0 : Fin 2) * 64 + 1 * k.val = k.val; omega
  | ⟨1, _⟩ => show win1_4.index t (1 : Fin 2) * 64 + 1 * j.val = j.val; omega

/-- The second bias row is staged whole. -/
theorem in1_5 (c : Dev nD) (t : Fin cfg1.N) (j : Fin 64) :
    iblk1 V c 5 t (ix2 0 j) = V c main_v34 (ix2 0 j) := by
  obtain ⟨-, -, -, -, -, -, -, -, -, -, e0, e1, -⟩ := blockIdx1 t
  show V c main_v34 (((cfg1.win 5).blk t).view.emb (ix2 0 j)) = V c main_v34 (ix2 0 j)
  congr 1
  funext a; apply Fin.ext
  match a with
  | ⟨0, _⟩ => show win1_5.index t (0 : Fin 2) * 1 + 1 * 0 = 0; omega
  | ⟨1, _⟩ => show win1_5.index t (1 : Fin 2) * 64 + 1 * j.val = j.val; omega

/-! ## What a point writes back -/

/-- Element `(p, q)` of output block `t` sits at `(3000 t + p, q)` of the first output array … -/
theorem emb1_6 (t : Fin cfg1.N) (p : Fin 3000) (q : Fin 64) :
    ((cfg1.win 6).blk t).view.emb (ix2 p q) = ix2 (rowOf1 t p) q := by
  obtain ⟨-, -, -, -, -, -, -, -, -, -, -, -, e0, e1, -⟩ := blockIdx1 t
  funext a; apply Fin.ext
  match a with
  | ⟨0, _⟩ => show win1_6.index t (0 : Fin 2) * 3000 + 1 * p.val = t.val * 3000 + p.val; omega
  | ⟨1, _⟩ => show win1_6.index t (1 : Fin 2) * 64 + 1 * q.val = q.val; omega

/-- … and of the second. -/
theorem emb1_7 (t : Fin cfg1.N) (p : Fin 3000) (q : Fin 64) :
    ((cfg1.win 7).blk t).view.emb (ix2 p q) = ix2 (rowOf1 t p) q := by
  obtain ⟨-, -, -, -, -, -, -, -, -, -, -, -, -, -, e0, e1⟩ := blockIdx1 t
  funext a; apply Fin.ext
  match a with
  | ⟨0, _⟩ => show win1_7.index t (0 : Fin 2) * 3000 + 1 * p.val = t.val * 3000 + p.val; omega
  | ⟨1, _⟩ => show win1_7.index t (1 : Fin 2) * 64 + 1 * q.val = q.val; omega

/-- What point `t` writes back to the first output array is block `t` of `neArr` of the input arrays. -/
theorem flushed1_6 (c : Dev nD) (t : Fin cfg1.N) :
    (dat1 V c).flushed 6 t = ((cfg1.win 6).blk t).view.read (Elt Ideal)
      (neArr (V c main_v17_0) (V c main_v24) (V c main_v26) (V c main_v29) (V c main_v31) (V c main_v34)) := by
  show (cfg1.win 6).cut (grid1.coords t) ((dat1 V c).after 6 t) = _
  rw [after1_6]
  unfold out1_6
  rw [View.canon_unit_zero zeroOff1]
  simp only [View.ld_unit_zero (S := S3000x64) zeroOff1, View.ld_unit_zero (S := S64x64) zeroOff1, View.ld_unit_zero (S := S1x64) zeroOff1]
  funext j
  obtain ⟨p, q, rfl⟩ : ∃ (p : Fin 3000) (q : Fin 64), j = ix2 p q := ⟨j 0, j 1, eq_ix2 j⟩
  show k1_pay2 (iblk1 V c 0 t) (iblk1 V c 1 t) (iblk1 V c 2 t) (iblk1 V c 4 t) (iblk1 V c 3 t) (iblk1 V c 5 t) (ix2 p q)
    = neArr (V c main_v17_0) (V c main_v24) (V c main_v26) (V c main_v29) (V c main_v31) (V c main_v34) (((cfg1.win 6).blk t).view.emb (ix2 p q))
  rw [emb1_6]
  exact pay_ne1 (iblk1 V c 0 t) (iblk1 V c 1 t) (iblk1 V c 2 t) (iblk1 V c 4 t) (iblk1 V c 3 t) (iblk1 V c 5 t) _ _ _ _ _ _ (rowOf1 t)
    (in1_0 V c t) (in1_1 V c t) (in1_2 V c t) (in1_3 V c t) (in1_4 V c t) (in1_5 V c t) p q

/-- What point `t` writes back to the second output array is block `t` of `nmArr` of that. -/
theorem flushed1_7 (c : Dev nD) (t : Fin cfg1.N) :
    (dat1 V c).flushed 7 t = ((cfg1.win 7).blk t).view.read (Elt Ideal)
      (nmArr (neArr (V c main_v17_0) (V c main_v24) (V c main_v26) (V c main_v29) (V c main_v31) (V c main_v34))) := by
  show (cfg1.win 7).cut (grid1.coords t) ((dat1 V c).after 7 t) = _
  rw [after1_7]
  unfold out1_7
  rw [View.canon_unit_zero zeroOff1]
  simp only [View.ld_unit_zero (S := S3000x64) zeroOff1, View.ld_unit_zero (S := S64x64) zeroOff1, View.ld_unit_zero (S := S1x64) zeroOff1]
  funext j
  obtain ⟨p, q, rfl⟩ : ∃ (p : Fin 3000) (q : Fin 64), j = ix2 p q := ⟨j 0, j 1, eq_ix2 j⟩
  show k1_pay1 (k1_pay2 (iblk1 V c 0 t) (iblk1 V c 1 t) (iblk1 V c 2 t) (iblk1 V c 4 t) (iblk1 V c 3 t) (iblk1 V c 5 t)) (k1_pay3 (iblk1 V c 0 t) (iblk1 V c 1 t) (iblk1 V c 2 t) (iblk1 V c 4 t) (iblk1 V c 3 t) (iblk1 V c 5 t)) (k1_pay4 (F := Ideal)) (ix2 p q)
    = nmArr (neArr (V c main_v17_0) (V c main_v24) (V c main_v26) (V c main_v29) (V c main_v31) (V c main_v34)) (((cfg1.win 7).blk t).view.emb (ix2 p q))
  rw [emb1_7]
  exact pay_nm1 (iblk1 V c 0 t) (iblk1 V c 1 t) (iblk1 V c 2 t) (iblk1 V c 4 t) (iblk1 V c 3 t) (iblk1 V c 5 t) _ _ _ _ _ _ (rowOf1 t)
    (in1_0 V c t) (in1_1 V c t) (in1_2 V c t) (in1_3 V c t) (in1_4 V c t) (in1_5 V c t) p q

/-! ## The blocks tile the rows -/

/-- An index of the first output array is in block `t` iff each coordinate is in the block's range on its axis. -/
theorem mem_blk1_6 (t : Fin cfg1.N) (i : S150000x64.Idx) :
    i ∈ ((cfg1.win 6).blk t).view.set ↔ ∀ a : Fin 2, win1_6.index t a * S3000x64.size a ≤ (i a).val ∧ (i a).val < win1_6.index t a * S3000x64.size a + S3000x64.size a := by
  show i ∈ ((View.whole main_v35_0).slice (win1_6.rect t)).set ↔ _
  rw [View.set_slice_whole, Rect.mem_set_unit]
  exact Iff.rfl

/-- The same for the second output array. -/
theorem mem_blk1_7 (t : Fin cfg1.N) (i : S150000x64.Idx) :
    i ∈ ((cfg1.win 7).blk t).view.set ↔ ∀ a : Fin 2, win1_7.index t a * S3000x64.size a ≤ (i a).val ∧ (i a).val < win1_7.index t a * S3000x64.size a + S3000x64.size a := by
  show i ∈ ((View.whole main_v35_1).slice (win1_7.rect t)).set ↔ _
  rw [View.set_slice_whole, Rect.mem_set_unit]
  exact Iff.rfl

/-- The point whose block holds row `r`: `r / 3000`. -/
def pointOf1 (i : S150000x64.Idx) : Fin cfg1.N :=
  ⟨(i 0).val / 3000, by have hi : (i 0).val < 150000 := idx2_lt0 i; rw [show cfg1.N = 50 from N_1]; omega⟩

/-- Every index of the first output array lies in the block of some point that writes back. -/
theorem cover1_6 (i : S150000x64.Idx) :
    ∃ t : Fin cfg1.N, (cfg1.win 6).flush t = true ∧ i ∈ ((cfg1.win 6).blk t).view.set := by
  have hi0 : (i 0).val < 150000 := idx2_lt0 i
  have hi1 : (i 1).val < 64 := idx2_lt1 i
  refine ⟨pointOf1 i, flush1_6 _, ?_⟩
  obtain ⟨-, -, -, -, -, -, -, -, -, -, -, -, e0, e1, -⟩ := blockIdx1 (pointOf1 i)
  have et : (pointOf1 i).val = (i 0).val / 3000 := rfl
  rw [mem_blk1_6]
  intro a
  match a with
  | ⟨0, _⟩ => show win1_6.index (pointOf1 i) (0 : Fin 2) * 3000 ≤ (i 0).val ∧ (i 0).val < win1_6.index (pointOf1 i) (0 : Fin 2) * 3000 + 3000; omega
  | ⟨1, _⟩ => show win1_6.index (pointOf1 i) (1 : Fin 2) * 64 ≤ (i 1).val ∧ (i 1).val < win1_6.index (pointOf1 i) (1 : Fin 2) * 64 + 64; omega

/-- Every index of the second output array lies in the block of some point that writes back. -/
theorem cover1_7 (i : S150000x64.Idx) :
    ∃ t : Fin cfg1.N, (cfg1.win 7).flush t = true ∧ i ∈ ((cfg1.win 7).blk t).view.set := by
  have hi0 : (i 0).val < 150000 := idx2_lt0 i
  have hi1 : (i 1).val < 64 := idx2_lt1 i
  refine ⟨pointOf1 i, flush1_7 _, ?_⟩
  obtain ⟨-, -, -, -, -, -, -, -, -, -, -, -, -, -, e0, e1⟩ := blockIdx1 (pointOf1 i)
  have et : (pointOf1 i).val = (i 0).val / 3000 := rfl
  rw [mem_blk1_7]
  intro a
  match a with
  | ⟨0, _⟩ => show win1_7.index (pointOf1 i) (0 : Fin 2) * 3000 ≤ (i 0).val ∧ (i 0).val < win1_7.index (pointOf1 i) (0 : Fin 2) * 3000 + 3000; omega
  | ⟨1, _⟩ => show win1_7.index (pointOf1 i) (1 : Fin 2) * 64 ≤ (i 1).val ∧ (i 1).val < win1_7.index (pointOf1 i) (1 : Fin 2) * 64 + 64; omega

/-! ## The output arrays after the call -/

/-- After the call the first output array is `neArr` of the input arrays as the call found them. -/
theorem arr6_1 (c : Dev nD) :
    (dat1 V c).arrAt 6 cfg1.N
      = neArr (V c main_v17_0) (V c main_v24) (V c main_v26) (V c main_v29) (V c main_v31) (V c main_v34) :=
  (dat1 V c).arrAt_eq_of_cover 6 _ (fun t _ => flushed1_6 V c t) cover1_6

/-- After the call the second output array is `nmArr` of that. -/
theorem arr7_1 (c : Dev nD) :
    (dat1 V c).arrAt 7 cfg1.N
      = nmArr (neArr (V c main_v17_0) (V c main_v24) (V c main_v26) (V c main_v29) (V c main_v31) (V c main_v34)) :=
  (dat1 V c).arrAt_eq_of_cover 7 _ (fun t _ => flushed1_7 V c t) cover1_7

end Cert.KernelIdeal.HandVal

end
-- ==== Proof.KI.Val2.lean ====
/-
  Pallas call 2, from blocks to arrays.

  The call runs over 50 row blocks of 3000 rows. At point `t` the two blocked inputs bring rows
  `3000 t … 3000 t + 2999` of the embedding and of its propagation, the four whole inputs bring the two
  weight matrices and the two bias rows, and the two outputs are written back to the same rows. The body's
  outputs depend on a row of the blocks only through that same row, so what point `t` writes back is block
  `t` of one function of the whole arrays: the row function `gNE` (and `gNM` after it) applied row by row.
  The 50 blocks tile the 150000 rows (row `r` lies in block `r / 3000`), hence after the call each output
  array is that function of the input arrays.
-/
import proofs.«416135_j28965259444540_1_alg».proof.Proof.KI.Body2
import proofs.«416135_j28965259444540_1_alg».proof.Proof.KI.Arr
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## One block, over variables -/

/-- The zero offsets of a whole-buffer rectangle. -/
theorem zeroOff2 : (![0, 0] : Fin 2 → Nat) = fun _ => 0 := funext fun a => by fin_cases a <;> rfl

/-- If the blocks `x0`, `x1` hold rows `ρ p` of `ego`, `side` and the whole blocks hold the weights and biases,
    the new-embedding payload at `(p, q)` is `neArr` at `(ρ p, q)`. -/
theorem pay_ne2 (x0 x1 : Vec Ideal S3000x64 .f32) (x2 x4 : Vec Ideal S64x64 .f32) (x3 x5 : Vec Ideal S1x64 .f32)
    (ego side : S150000x64.Idx → EReal) (w1 : S64x64.Idx → EReal) (b1 : S1x64.Idx → EReal)
    (w2 : S64x64.Idx → EReal) (b2 : S1x64.Idx → EReal) (ρ : Fin 3000 → Fin 150000)
    (h0 : ∀ (p : Fin 3000) (k : Fin 64), x0 (ix2 p k) = ego (ix2 (ρ p) k))
    (h1 : ∀ (p : Fin 3000) (k : Fin 64), x1 (ix2 p k) = side (ix2 (ρ p) k))
    (h2 : ∀ (k j : Fin 64), x2 (ix2 k j) = w1 (ix2 k j))
    (h3 : ∀ (j : Fin 64), x3 (ix2 0 j) = b1 (ix2 0 j))
    (h4 : ∀ (k j : Fin 64), x4 (ix2 k j) = w2 (ix2 k j))
    (h5 : ∀ (j : Fin 64), x5 (ix2 0 j) = b2 (ix2 0 j))
    (p : Fin 3000) (q : Fin 64) :
    k2_pay2 x0 x1 x2 x4 x3 x5 (ix2 p q) = neArr ego side w1 b1 w2 b2 (ix2 (ρ p) q) := by
  rw [Cert.Rows.k2_newego_apply, neArr_ix2]
  simp only [h0, h1, h2, h3, h4, h5]

/-- Under the same hypotheses the normalised payload at `(p, q)` is `nmArr` of `neArr` at `(ρ p, q)`. -/
theorem pay_nm2 (x0 x1 : Vec Ideal S3000x64 .f32) (x2 x4 : Vec Ideal S64x64 .f32) (x3 x5 : Vec Ideal S1x64 .f32)
    (ego side : S150000x64.Idx → EReal) (w1 : S64x64.Idx → EReal) (b1 : S1x64.Idx → EReal)
    (w2 : S64x64.Idx → EReal) (b2 : S1x64.Idx → EReal) (ρ : Fin 3000 → Fin 150000)
    (h0 : ∀ (p : Fin 3000) (k : Fin 64), x0 (ix2 p k) = ego (ix2 (ρ p) k))
    (h1 : ∀ (p : Fin 3000) (k : Fin 64), x1 (ix2 p k) = side (ix2 (ρ p) k))
    (h2 : ∀ (k j : Fin 64), x2 (ix2 k j) = w1 (ix2 k j))
    (h3 : ∀ (j : Fin 64), x3 (ix2 0 j) = b1 (ix2 0 j))
    (h4 : ∀ (k j : Fin 64), x4 (ix2 k j) = w2 (ix2 k j))
    (h5 : ∀ (j : Fin 64), x5 (ix2 0 j) = b2 (ix2 0 j))
    (p : Fin 3000) (q : Fin 64) :
    k2_pay1 (k2_pay2 x0 x1 x2 x4 x3 x5) (k2_pay3 x0 x1 x2 x4 x3 x5) (k2_pay4 (F := Ideal)) (ix2 p q)
      = nmArr (neArr ego side w1 b1 w2 b2) (ix2 (ρ p) q) := by
  rw [Cert.Rows.k2_normed_apply, nmArr_ix2]
  simp only [pay_ne2 x0 x1 x2 x4 x3 x5 ego side w1 b1 w2 b2 ρ h0 h1 h2 h3 h4 h5]

/-! ## The index maps over the grid -/

/-- The printed index maps, decided over the 50 points: the four blocked windows are at block `(t, 0)`, the
    four whole ones at block `(0, 0)`. -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- The array row under row `p` of block `t`. -/
def rowOf2 (t : Fin cfg2.N) (p : Fin 3000) : Fin 150000 :=
  ⟨t.val * 3000 + p.val, by have ht : t.val < 50 := lt_of_lt_of_eq t.isLt N_2; have hp := p.isLt; omega⟩

/-! ## The input blocks at a point, read off the arrays -/

/-- Block `t` of the embedding holds its rows `3000 t + p`. -/
theorem in2_0 (c : Dev nD) (t : Fin cfg2.N) (p : Fin 3000) (k : Fin 64) :
    iblk2 V c 0 t (ix2 p k) = V c main_v35_0 (ix2 (rowOf2 t p) k) := by
  obtain ⟨e0, e1, -⟩ := blockIdx2 t
  show V c main_v35_0 (((cfg2.win 0).blk t).view.emb (ix2 p k)) = V c main_v35_0 (ix2 (rowOf2 t p) k)
  congr 1
  funext a; apply Fin.ext
  match a with
  | ⟨0, _⟩ => show win2_0.index t (0 : Fin 2) * 3000 + 1 * p.val = t.val * 3000 + p.val; omega
  | ⟨1, _⟩ => show win2_0.index t (1 : Fin 2) * 64 + 1 * k.val = k.val; omega

/-- Block `t` of the propagated rows holds its rows `3000 t + p`. -/
theorem in2_1 (c : Dev nD) (t : Fin cfg2.N) (p : Fin 3000) (k : Fin 64) :
    iblk2 V c 1 t (ix2 p k) = V c main_v42 (ix2 (rowOf2 t p) k) := by
  obtain ⟨-, -, e0, e1, -⟩ := blockIdx2 t
  show V c main_v42 (((cfg2.win 1).blk t).view.emb (ix2 p k)) = V c main_v42 (ix2 (rowOf2 t p) k)
  congr 1
  funext a; apply Fin.ext
  match a with
  | ⟨0, _⟩ => show win2_1.index t (0 : Fin 2) * 3000 + 1 * p.val = t.val * 3000 + p.val; omega
  | ⟨1, _⟩ => show win2_1.index t (1 : Fin 2) * 64 + 1 * k.val = k.val; omega

/-- The first weight matrix is staged whole. -/
theorem in2_2 (c : Dev nD) (t : Fin cfg2.N) (k j : Fin 64) :
    iblk2 V c 2 t (ix2 k j) = V c main_v44 (ix2 k j) := by
  obtain ⟨-, -, -, -, e0, e1, -⟩ := blockIdx2 t
  show V c main_v44 (((cfg2.win 2).blk t).view.emb (ix2 k j)) = V c main_v44 (ix2 k j)
  congr 1
  funext a; apply Fin.ext
  match a with
  | ⟨0, _⟩ => show win2_2.index t (0 : Fin 2) * 64 + 1 * k.val = k.val; omega
  | ⟨1, _⟩ => show win2_2.index t (1 : Fin 2) * 64 + 1 * j.val = j.val; omega

/-- The first bias row is staged whole. -/
theorem in2_3 (c : Dev nD) (t : Fin cfg2.N) (j : Fin 64) :
    iblk2 V c 3 t (ix2 0 j) = V c main_v47 (ix2 0 j) := by
  obtain ⟨-, -, -, -, -, -, e0, e1, -⟩ := blockIdx2 t
  show V c main_v47 (((cfg2.win 3).blk t).view.emb (ix2 0 j)) = V c main_v47 (ix2 0 j)
  congr 1
  funext a; apply Fin.ext
  match a with
  | ⟨0, _⟩ => show win2_3.index t (0 : Fin 2) * 1 + 1 * 0 = 0; omega
  | ⟨1, _⟩ => show win2_3.index t (1 : Fin 2) * 64 + 1 * j.val = j.val; omega

/-- The second weight matrix is staged whole. -/
theorem in2_4 (c : Dev nD) (t : Fin cfg2.N) (k j : Fin 64) :
    iblk2 V c 4 t (ix2 k j) = V c main_v49 (ix2 k j) := by
  obtain ⟨-, -, -, -, -, -, -, -, e0, e1, -⟩ := blockIdx2 t
  show V c main_v49 (((cfg2.win 4).blk t).view.emb (ix2 k j)) = V c main_v49 (ix2 k j)
  congr 1
  funext a; apply Fin.ext
  match a with
  | ⟨0, _⟩ => show win2_4.index t (0 : Fin 2) * 64 + 1 * k.val = k.val; omega
  | ⟨1, _⟩ => show win2_4.index t (1 : Fin 2) * 64 + 1 * j.val = j.val; omega

/-- The second bias row is staged whole. -/
theorem in2_5 (c : Dev nD) (t : Fin cfg2.N) (j : Fin 64) :
    iblk2 V c 5 t (ix2 0 j) = V c main_v52 (ix2 0 j) := by
  obtain ⟨-, -, -, -, -, -, -, -, -, -, e0, e1, -⟩ := blockIdx2 t
  show V c main_v52 (((cfg2.win 5).blk t).view.emb (ix2 0 j)) = V c main_v52 (ix2 0 j)
  congr 1
  funext a; apply Fin.ext
  match a with
  | ⟨0, _⟩ => show win2_5.index t (0 : Fin 2) * 1 + 1 * 0 = 0; omega
  | ⟨1, _⟩ => show win2_5.index t (1 : Fin 2) * 64 + 1 * j.val = j.val; omega

/-! ## What a point writes back -/

/-- Element `(p, q)` of output block `t` sits at `(3000 t + p, q)` of the first output array … -/
theorem emb2_6 (t : Fin cfg2.N) (p : Fin 3000) (q : Fin 64) :
    ((cfg2.win 6).blk t).view.emb (ix2 p q) = ix2 (rowOf2 t p) q := by
  obtain ⟨-, -, -, -, -, -, -, -, -, -, -, -, e0, e1, -⟩ := blockIdx2 t
  funext a; apply Fin.ext
  match a with
  | ⟨0, _⟩ => show win2_6.index t (0 : Fin 2) * 3000 + 1 * p.val = t.val * 3000 + p.val; omega
  | ⟨1, _⟩ => show win2_6.index t (1 : Fin 2) * 64 + 1 * q.val = q.val; omega

/-- … and of the second. -/
theorem emb2_7 (t : Fin cfg2.N) (p : Fin 3000) (q : Fin 64) :
    ((cfg2.win 7).blk t).view.emb (ix2 p q) = ix2 (rowOf2 t p) q := by
  obtain ⟨-, -, -, -, -, -, -, -, -, -, -, -, -, -, e0, e1⟩ := blockIdx2 t
  funext a; apply Fin.ext
  match a with
  | ⟨0, _⟩ => show win2_7.index t (0 : Fin 2) * 3000 + 1 * p.val = t.val * 3000 + p.val; omega
  | ⟨1, _⟩ => show win2_7.index t (1 : Fin 2) * 64 + 1 * q.val = q.val; omega

/-- What point `t` writes back to the first output array is block `t` of `neArr` of the input arrays. -/
theorem flushed2_6 (c : Dev nD) (t : Fin cfg2.N) :
    (dat2 V c).flushed 6 t = ((cfg2.win 6).blk t).view.read (Elt Ideal)
      (neArr (V c main_v35_0) (V c main_v42) (V c main_v44) (V c main_v47) (V c main_v49) (V c main_v52)) := by
  show (cfg2.win 6).cut (grid2.coords t) ((dat2 V c).after 6 t) = _
  rw [after2_6]
  unfold out2_6
  rw [View.canon_unit_zero zeroOff2]
  simp only [View.ld_unit_zero (S := S3000x64) zeroOff2, View.ld_unit_zero (S := S64x64) zeroOff2, View.ld_unit_zero (S := S1x64) zeroOff2]
  funext j
  obtain ⟨p, q, rfl⟩ : ∃ (p : Fin 3000) (q : Fin 64), j = ix2 p q := ⟨j 0, j 1, eq_ix2 j⟩
  show k2_pay2 (iblk2 V c 0 t) (iblk2 V c 1 t) (iblk2 V c 2 t) (iblk2 V c 4 t) (iblk2 V c 3 t) (iblk2 V c 5 t) (ix2 p q)
    = neArr (V c main_v35_0) (V c main_v42) (V c main_v44) (V c main_v47) (V c main_v49) (V c main_v52) (((cfg2.win 6).blk t).view.emb (ix2 p q))
  rw [emb2_6]
  exact pay_ne2 (iblk2 V c 0 t) (iblk2 V c 1 t) (iblk2 V c 2 t) (iblk2 V c 4 t) (iblk2 V c 3 t) (iblk2 V c 5 t) _ _ _ _ _ _ (rowOf2 t)
    (in2_0 V c t) (in2_1 V c t) (in2_2 V c t) (in2_3 V c t) (in2_4 V c t) (in2_5 V c t) p q

/-- What point `t` writes back to the second output array is block `t` of `nmArr` of that. -/
theorem flushed2_7 (c : Dev nD) (t : Fin cfg2.N) :
    (dat2 V c).flushed 7 t = ((cfg2.win 7).blk t).view.read (Elt Ideal)
      (nmArr (neArr (V c main_v35_0) (V c main_v42) (V c main_v44) (V c main_v47) (V c main_v49) (V c main_v52))) := by
  show (cfg2.win 7).cut (grid2.coords t) ((dat2 V c).after 7 t) = _
  rw [after2_7]
  unfold out2_7
  rw [View.canon_unit_zero zeroOff2]
  simp only [View.ld_unit_zero (S := S3000x64) zeroOff2, View.ld_unit_zero (S := S64x64) zeroOff2, View.ld_unit_zero (S := S1x64) zeroOff2]
  funext j
  obtain ⟨p, q, rfl⟩ : ∃ (p : Fin 3000) (q : Fin 64), j = ix2 p q := ⟨j 0, j 1, eq_ix2 j⟩
  show k2_pay1 (k2_pay2 (iblk2 V c 0 t) (iblk2 V c 1 t) (iblk2 V c 2 t) (iblk2 V c 4 t) (iblk2 V c 3 t) (iblk2 V c 5 t)) (k2_pay3 (iblk2 V c 0 t) (iblk2 V c 1 t) (iblk2 V c 2 t) (iblk2 V c 4 t) (iblk2 V c 3 t) (iblk2 V c 5 t)) (k2_pay4 (F := Ideal)) (ix2 p q)
    = nmArr (neArr (V c main_v35_0) (V c main_v42) (V c main_v44) (V c main_v47) (V c main_v49) (V c main_v52)) (((cfg2.win 7).blk t).view.emb (ix2 p q))
  rw [emb2_7]
  exact pay_nm2 (iblk2 V c 0 t) (iblk2 V c 1 t) (iblk2 V c 2 t) (iblk2 V c 4 t) (iblk2 V c 3 t) (iblk2 V c 5 t) _ _ _ _ _ _ (rowOf2 t)
    (in2_0 V c t) (in2_1 V c t) (in2_2 V c t) (in2_3 V c t) (in2_4 V c t) (in2_5 V c t) p q

/-! ## The blocks tile the rows -/

/-- An index of the first output array is in block `t` iff each coordinate is in the block's range on its axis. -/
theorem mem_blk2_6 (t : Fin cfg2.N) (i : S150000x64.Idx) :
    i ∈ ((cfg2.win 6).blk t).view.set ↔ ∀ a : Fin 2, win2_6.index t a * S3000x64.size a ≤ (i a).val ∧ (i a).val < win2_6.index t a * S3000x64.size a + S3000x64.size a := by
  show i ∈ ((View.whole main_v53_0).slice (win2_6.rect t)).set ↔ _
  rw [View.set_slice_whole, Rect.mem_set_unit]
  exact Iff.rfl

/-- The same for the second output array. -/
theorem mem_blk2_7 (t : Fin cfg2.N) (i : S150000x64.Idx) :
    i ∈ ((cfg2.win 7).blk t).view.set ↔ ∀ a : Fin 2, win2_7.index t a * S3000x64.size a ≤ (i a).val ∧ (i a).val < win2_7.index t a * S3000x64.size a + S3000x64.size a := by
  show i ∈ ((View.whole main_v53_1).slice (win2_7.rect t)).set ↔ _
  rw [View.set_slice_whole, Rect.mem_set_unit]
  exact Iff.rfl

/-- The point whose block holds row `r`: `r / 3000`. -/
def pointOf2 (i : S150000x64.Idx) : Fin cfg2.N :=
  ⟨(i 0).val / 3000, by have hi : (i 0).val < 150000 := idx2_lt0 i; rw [show cfg2.N = 50 from N_2]; omega⟩

/-- Every index of the first output array lies in the block of some point that writes back. -/
theorem cover2_6 (i : S150000x64.Idx) :
    ∃ t : Fin cfg2.N, (cfg2.win 6).flush t = true ∧ i ∈ ((cfg2.win 6).blk t).view.set := by
  have hi0 : (i 0).val < 150000 := idx2_lt0 i
  have hi1 : (i 1).val < 64 := idx2_lt1 i
  refine ⟨pointOf2 i, flush2_6 _, ?_⟩
  obtain ⟨-, -, -, -, -, -, -, -, -, -, -, -, e0, e1, -⟩ := blockIdx2 (pointOf2 i)
  have et : (pointOf2 i).val = (i 0).val / 3000 := rfl
  rw [mem_blk2_6]
  intro a
  match a with
  | ⟨0, _⟩ => show win2_6.index (pointOf2 i) (0 : Fin 2) * 3000 ≤ (i 0).val ∧ (i 0).val < win2_6.index (pointOf2 i) (0 : Fin 2) * 3000 + 3000; omega
  | ⟨1, _⟩ => show win2_6.index (pointOf2 i) (1 : Fin 2) * 64 ≤ (i 1).val ∧ (i 1).val < win2_6.index (pointOf2 i) (1 : Fin 2) * 64 + 64; omega

/-- Every index of the second output array lies in the block of some point that writes back. -/
theorem cover2_7 (i : S150000x64.Idx) :
    ∃ t : Fin cfg2.N, (cfg2.win 7).flush t = true ∧ i ∈ ((cfg2.win 7).blk t).view.set := by
  have hi0 : (i 0).val < 150000 := idx2_lt0 i
  have hi1 : (i 1).val < 64 := idx2_lt1 i
  refine ⟨pointOf2 i, flush2_7 _, ?_⟩
  obtain ⟨-, -, -, -, -, -, -, -, -, -, -, -, -, -, e0, e1⟩ := blockIdx2 (pointOf2 i)
  have et : (pointOf2 i).val = (i 0).val / 3000 := rfl
  rw [mem_blk2_7]
  intro a
  match a with
  | ⟨0, _⟩ => show win2_7.index (pointOf2 i) (0 : Fin 2) * 3000 ≤ (i 0).val ∧ (i 0).val < win2_7.index (pointOf2 i) (0 : Fin 2) * 3000 + 3000; omega
  | ⟨1, _⟩ => show win2_7.index (pointOf2 i) (1 : Fin 2) * 64 ≤ (i 1).val ∧ (i 1).val < win2_7.index (pointOf2 i) (1 : Fin 2) * 64 + 64; omega

/-! ## The output arrays after the call -/

/-- After the call the first output array is `neArr` of the input arrays as the call found them. -/
theorem arr6_2 (c : Dev nD) :
    (dat2 V c).arrAt 6 cfg2.N
      = neArr (V c main_v35_0) (V c main_v42) (V c main_v44) (V c main_v47) (V c main_v49) (V c main_v52) :=
  (dat2 V c).arrAt_eq_of_cover 6 _ (fun t _ => flushed2_6 V c t) cover2_6

/-- After the call the second output array is `nmArr` of that. -/
theorem arr7_2 (c : Dev nD) :
    (dat2 V c).arrAt 7 cfg2.N
      = nmArr (neArr (V c main_v35_0) (V c main_v42) (V c main_v44) (V c main_v47) (V c main_v49) (V c main_v52)) :=
  (dat2 V c).arrAt_eq_of_cover 7 _ (fun t _ => flushed2_7 V c t) cover2_7

end Cert.KernelIdeal.HandVal

end
-- ==== Proof.KSpec.lean ====
/-
  The kernel program's row gather as a pure function: the rows of the table at the wrapped column
  indices where the wrapped index lies in `[0, 149999]`, a fill value elsewhere.
-/
import proofs.«416135_j28965259444540_1_alg».proof.KernelIdeal
import proofs.«416135_j28965259444540_1_alg».proof.Proof.Gen.KernelIdeal

noncomputable section

namespace Cert.KSpec

open Idealize.ShloMosaic Idealize.SL.Sem
open Cert.KernelIdeal Cert.KernelIdeal.Facts₀

variable {F : FTy → Type} [FloatOps F]

/-- The start indices of the row gather: a negative column index counted from the end, then laid out as a column. -/
def wrapIdx (cols : IVec S2400000 32) : IVec S2400000x1 32 :=
  broadcastInDim S2400000x1 ![0] bcast_S2400000_S2400000x1_0
    (select (cmpi .slt cols (broadcastInDim S2400000 ![] bcast_S_S2400000 (constantI S_ 32 0#32)))
      (addi cols (broadcastInDim S2400000 ![] bcast_S_S2400000 (constantI S_ 32 150000#32))) cols)

/-- Per edge, whether the wrapped index lies in `[0, 149999]`. -/
def inBounds (w : IVec S2400000x1 32) : IVec S2400000 1 :=
  Host.reduce IntOp.andi
    (andi (cmpi .sge w (broadcastInDim S2400000x1 ![] bcast_S_S2400000x1 (constantI S_ 32 0#32)))
      (cmpi .sle w (broadcastInDim S2400000x1 ![0, 1] bcast_S1x1_S2400000x1_0_1
        (broadcastInDim S1x1 ![1] bcast_S1_S1x1_1 (constantI S1 32 149999#32)))))
    (constantI S_ 1 1#1) reducesTo_S2400000x1_S2400000_d1 h_S_

/-- The gathered rows, with the fill value on the edges whose wrapped index is out of bounds. -/
def takeK (x : FVec F S150000x64 .f32) (cols : IVec S2400000 32) : FVec F S2400000x64 .f32 :=
  select (broadcastInDim S2400000x64 ![0] bcast_S2400000_S2400000x64_0 (inBounds (wrapIdx cols)))
    (Host.gather gather_S150000x64_S2400000x1_S2400000x64_1_0_n_n_0_1_164 x (wrapIdx cols))
    (broadcastInDim S2400000x64 ![] bcast_S_S2400000x64 (constant S_ .f32 0x7FC00000#32))

/-- Every column index lies in `[-150000, 150000)`. -/
def InRange (cols : IVec S2400000 32) : Prop := ∀ i, -150000 ≤ (cols i).toInt ∧ (cols i).toInt < 150000

end Cert.KSpec

end
-- ==== Proof.KI.Host.lean ====
/-
  The kernel program's host stretches before its first kernel region, read as values.

  The first stretch wraps the column indices (a negative index counts from the end), gathers the rows of the
  input embedding at them and puts a fill value on the edges whose wrapped index is out of bounds (`takeK`).
  The second weighs the gathered rows by the edge values and accumulates them into the rows named by the edge
  sources, from zero (`scatterRows`), and cuts the first layer's two weight matrices and two bias rows out of
  the stacked parameters. Every other array is left as it was.

  Each statement is over an arbitrary valuation `V` of the arrays before the stretches run.
-/
import proofs.«416135_j28965259444540_1_alg».proof.Proof.Gen.KernelIdeal.Launch
import proofs.«416135_j28965259444540_1_alg».proof.Proof.Gen.KernelIdeal.Regions
import proofs.«416135_j28965259444540_1_alg».proof.Proof.Spec
import proofs.«416135_j28965259444540_1_alg».proof.Proof.KSpec
import Idealize.ShloMosaic.Lib.StableHlo.Run

set_option maxRecDepth 1196

noncomputable section

namespace Cert.KernelIdeal.HostVal

open Idealize.ShloMosaic Idealize.ShloMosaic.TcCoe Idealize.SL.Sem
open Cert.KernelIdeal.Gen
open Idealize.ShloMosaic.StableHlo

variable {F : FTy → Type} [FloatOps F]

/-- Contents moved to a typed reference's buffer type and back are the contents. -/
theorem ofBuf_toBuf0 {T : BufTy} (x : StableHlo.TRef sig T) (v : T.Contents (Elt F)) : x.ofBuf (x.toBuf v) = v := by
  simp only [StableHlo.TRef.ofBuf, StableHlo.TRef.toBuf, cast_cast, cast_eq]

variable (V : Valuation τ sig (Elt F))

/-! ### The first stretch

Read at the array of gathered rows, the stretch is the composition of its operations' functions on the input
embedding and the column indices; the reduction over each edge's one index and the gather are compared by their
arguments, never opened. -/

attribute [local irreducible] Host.reduce Host.gather in
set_option maxRecDepth 8192 in
set_option maxHeartbeats 1000000 in
theorem take_0 :
    StableHlo.after hostOps0 V (main_v0 : DevRef τ sig) = Cert.KSpec.takeK (V main_arg0) (V main_arg2) := by
  after_results_simp
  simp only [ofBuf_toBuf0]
  rfl

/-- The first stretch writes only its own intermediate arrays and the gathered rows. -/
theorem argA_0 (r : Ref sig .tc) (h : r ∉ hostOps0_W) :
    StableHlo.after hostOps0 V (r : DevRef τ sig) = V r :=
  StableHlo.after_of_writes_sub hostOps0 V hostOps0_writes h

/-! ### The second stretch, from any valuation

What the second stretch leaves in each array the kernel region reads, as a function of what the arrays held when
it started: it reads the gathered rows, the edge sources, the edge values and the stacked parameters. The
accumulation is compared by its arguments, never opened. -/

attribute [local irreducible] Host.scatterAdd in
set_option maxRecDepth 8192 in
set_option maxHeartbeats 1000000 in
theorem sideB_0 (W : Valuation τ sig (Elt F)) :
    StableHlo.after hostOps0_1 W (main_v6 : DevRef τ sig)
      = Cert.Spec.scatterRows (W main_arg1) (W main_arg3) (W main_v0) := by
  after_results_simp
  rfl

attribute [local irreducible] Host.scatterAdd in
set_option maxRecDepth 8192 in
set_option maxHeartbeats 1000000 in
theorem w1B_0 (W : Valuation τ sig (Elt F)) :
    StableHlo.after hostOps0_1 W (main_v8 : DevRef τ sig) = Cert.Spec.w0 (W main_arg4) := by
  after_results_simp
  rfl

attribute [local irreducible] Host.scatterAdd in
set_option maxRecDepth 8192 in
set_option maxHeartbeats 1000000 in
theorem w2B_0 (W : Valuation τ sig (Elt F)) :
    StableHlo.after hostOps0_1 W (main_v13 : DevRef τ sig) = Cert.Spec.w0 (W main_arg6) := by
  after_results_simp
  rfl

attribute [local irreducible] Host.scatterAdd in
set_option maxRecDepth 8192 in
set_option maxHeartbeats 1000000 in
theorem b1B_0 (W : Valuation τ sig (Elt F)) :
    StableHlo.after hostOps0_1 W (main_v11 : DevRef τ sig)
      = shapeCast S1x64 (Cert.Spec.b0 (W main_arg5)) shapeCasts_S64_S1x64 := by
  after_results_simp
  rfl

attribute [local irreducible] Host.scatterAdd in
set_option maxRecDepth 8192 in
set_option maxHeartbeats 1000000 in
theorem b2B_0 (W : Valuation τ sig (Elt F)) :
    StableHlo.after hostOps0_1 W (main_v16 : DevRef τ sig)
      = shapeCast S1x64 (Cert.Spec.b0 (W main_arg7)) shapeCasts_S64_S1x64 := by
  after_results_simp
  rfl

/-! ### Both stretches

The second stretch run after the first: its inputs are the first's gathered rows and arrays the first leaves
alone. -/

theorem side_0 :
    StableHlo.after hostOps0_1 (StableHlo.after hostOps0 V) (main_v6 : DevRef τ sig)
      = Cert.Spec.scatterRows (V main_arg1) (V main_arg3) (Cert.KSpec.takeK (V main_arg0) (V main_arg2)) := by
  rw [sideB_0, take_0, argA_0 V main_arg1 (by decide), argA_0 V main_arg3 (by decide)]

theorem w1_0 :
    StableHlo.after hostOps0_1 (StableHlo.after hostOps0 V) (main_v8 : DevRef τ sig) = Cert.Spec.w0 (V main_arg4) := by
  rw [w1B_0, argA_0 V main_arg4 (by decide)]

theorem w2_0 :
    StableHlo.after hostOps0_1 (StableHlo.after hostOps0 V) (main_v13 : DevRef τ sig) = Cert.Spec.w0 (V main_arg6) := by
  rw [w2B_0, argA_0 V main_arg6 (by decide)]

theorem b1_0 :
    StableHlo.after hostOps0_1 (StableHlo.after hostOps0 V) (main_v11 : DevRef τ sig)
      = shapeCast S1x64 (Cert.Spec.b0 (V main_arg5)) shapeCasts_S64_S1x64 := by
  rw [b1B_0, argA_0 V main_arg5 (by decide)]

theorem b2_0 :
    StableHlo.after hostOps0_1 (StableHlo.after hostOps0 V) (main_v16 : DevRef τ sig)
      = shapeCast S1x64 (Cert.Spec.b0 (V main_arg7)) shapeCasts_S64_S1x64 := by
  rw [b2B_0, argA_0 V main_arg7 (by decide)]

theorem keep_0 (r : Ref sig .tc) (h : r ∉ hostOps0_W ∧ r ∉ hostOps0_1_W) :
    StableHlo.after hostOps0_1 (StableHlo.after hostOps0 V) (r : DevRef τ sig) = V r :=
  (StableHlo.after_of_writes_sub hostOps0_1 _ hostOps0_1_writes h.2).trans
    (StableHlo.after_of_writes_sub hostOps0 V hostOps0_writes h.1)

end Cert.KernelIdeal.HostVal

end
-- ==== Proof.KI.Host1.lean ====
/-
  The second layer's host stretches of the kernel program, read as values.

  Before the second kernel region the program runs two stretches of whole-array operations. The first
  wraps the column indices, gathers the rows of the current embedding at them and masks the edges whose
  wrapped index is out of bounds. The second weighs the gathered rows by the edge values and accumulates
  them into the rows named by the edge sources, from zero, and cuts this layer's two weight matrices
  and two bias rows out of the stacked parameters. Every other array is left as it was.

  Each statement is over an arbitrary valuation of the arrays before the stretches run.
-/
import proofs.«416135_j28965259444540_1_alg».proof.Proof.Gen.KernelIdeal.Launch
import proofs.«416135_j28965259444540_1_alg».proof.Proof.Gen.KernelIdeal.Regions
import proofs.«416135_j28965259444540_1_alg».proof.Proof.Spec
import proofs.«416135_j28965259444540_1_alg».proof.Proof.KSpec
import Idealize.ShloMosaic.Lib.StableHlo.Run

set_option maxRecDepth 1196

noncomputable section

namespace Cert.KernelIdeal.HostVal

open Idealize.ShloMosaic Idealize.ShloMosaic.TcCoe Idealize.SL.Sem
open Idealize.ShloMosaic.StableHlo
open Cert.KernelIdeal.Gen

variable {F : FTy → Type} [FloatOps F]

variable (V : Valuation τ sig (Elt F))

/-- Contents moved to a typed reference's buffer type and back are the contents. -/
theorem ofBuf_toBuf_1 {T : BufTy} (x : StableHlo.TRef sig T) (v : T.Contents (Elt F)) :
    x.ofBuf (x.toBuf v) = v := by
  simp only [StableHlo.TRef.ofBuf, StableHlo.TRef.toBuf, cast_cast, cast_eq]

/-! ## The gather stretch -/

attribute [local irreducible] Host.reduce Host.gather in
set_option maxRecDepth 8192 in
set_option maxHeartbeats 1000000 in
/-- The gather stretch leaves, in its result array, the masked row gather of the current embedding. -/
theorem take_1 :
    StableHlo.after hostOps1 V (main_v18 : DevRef τ sig) = Cert.KSpec.takeK (V main_v17_0) (V main_arg2) := by
  after_results_simp
  simp only [ofBuf_toBuf_1]
  rfl

/-! ## The accumulate-and-cut stretch, from any contents -/

attribute [local irreducible] Host.scatter Host.scatterAdd in
set_option maxRecDepth 8192 in
set_option maxHeartbeats 1000000 in
theorem side_of_1 (W : Valuation τ sig (Elt F)) :
    StableHlo.after hostOps1_1 W (main_v24 : DevRef τ sig)
      = Cert.Spec.scatterRows (W main_arg1) (W main_arg3) (W main_v18) := by
  after_results_simp
  rfl

set_option maxRecDepth 8192 in
set_option maxHeartbeats 1000000 in
theorem w1_of_1 (W : Valuation τ sig (Elt F)) :
    StableHlo.after hostOps1_1 W (main_v26 : DevRef τ sig) = Cert.Spec.w1 (W main_arg4) := by
  after_results_simp
  rfl

set_option maxRecDepth 8192 in
set_option maxHeartbeats 1000000 in
theorem w2_of_1 (W : Valuation τ sig (Elt F)) :
    StableHlo.after hostOps1_1 W (main_v31 : DevRef τ sig) = Cert.Spec.w1 (W main_arg6) := by
  after_results_simp
  rfl

set_option maxRecDepth 8192 in
set_option maxHeartbeats 1000000 in
theorem b1_of_1 (W : Valuation τ sig (Elt F)) :
    StableHlo.after hostOps1_1 W (main_v29 : DevRef τ sig)
      = shapeCast S1x64 (Cert.Spec.b1 (W main_arg5)) shapeCasts_S64_S1x64 := by
  after_results_simp
  rfl

set_option maxRecDepth 8192 in
set_option maxHeartbeats 1000000 in
theorem b2_of_1 (W : Valuation τ sig (Elt F)) :
    StableHlo.after hostOps1_1 W (main_v34 : DevRef τ sig)
      = shapeCast S1x64 (Cert.Spec.b1 (W main_arg7)) shapeCasts_S64_S1x64 := by
  after_results_simp
  rfl

/-! ## The two stretches in a row -/

/-- An array the gather stretch does not write keeps its contents. -/
theorem keep_take_1 (r : Ref sig .tc) (h : r ∉ hostOps1_W) :
    StableHlo.after hostOps1 V (r : DevRef τ sig) = V r :=
  StableHlo.after_of_writes_sub hostOps1 V hostOps1_writes h

theorem side_1 :
    StableHlo.after hostOps1_1 (StableHlo.after hostOps1 V) (main_v24 : DevRef τ sig)
      = Cert.Spec.scatterRows (V main_arg1) (V main_arg3) (Cert.KSpec.takeK (V main_v17_0) (V main_arg2)) := by
  rw [side_of_1, take_1, keep_take_1 V main_arg1 (by decide), keep_take_1 V main_arg3 (by decide)]

theorem w1_1 :
    StableHlo.after hostOps1_1 (StableHlo.after hostOps1 V) (main_v26 : DevRef τ sig) = Cert.Spec.w1 (V main_arg4) := by
  rw [w1_of_1, keep_take_1 V main_arg4 (by decide)]

theorem w2_1 :
    StableHlo.after hostOps1_1 (StableHlo.after hostOps1 V) (main_v31 : DevRef τ sig) = Cert.Spec.w1 (V main_arg6) := by
  rw [w2_of_1, keep_take_1 V main_arg6 (by decide)]

theorem b1_1 :
    StableHlo.after hostOps1_1 (StableHlo.after hostOps1 V) (main_v29 : DevRef τ sig)
      = shapeCast S1x64 (Cert.Spec.b1 (V main_arg5)) shapeCasts_S64_S1x64 := by
  rw [b1_of_1, keep_take_1 V main_arg5 (by decide)]

theorem b2_1 :
    StableHlo.after hostOps1_1 (StableHlo.after hostOps1 V) (main_v34 : DevRef τ sig)
      = shapeCast S1x64 (Cert.Spec.b1 (V main_arg7)) shapeCasts_S64_S1x64 := by
  rw [b2_of_1, keep_take_1 V main_arg7 (by decide)]

/-- An array neither stretch writes keeps its contents. -/
theorem keep_1 (r : Ref sig .tc) (h : r ∉ hostOps1_W ∧ r ∉ hostOps1_1_W) :
    StableHlo.after hostOps1_1 (StableHlo.after hostOps1 V) (r : DevRef τ sig) = V r :=
  (StableHlo.after_of_writes_sub hostOps1_1 _ hostOps1_1_writes h.2).trans
    (StableHlo.after_of_writes_sub hostOps1 V hostOps1_writes h.1)

end Cert.KernelIdeal.HostVal

end
-- ==== Proof.KI.Host2.lean ====
/-
  The kernel program's host stretches before and after its third kernel region, read as values.

  Before the region the program runs two stretches of whole-array operations. The first wraps the column indices,
  gathers the rows of the current embedding at them and puts a fill value on the edges whose wrapped index is out
  of bounds ("takeK"). The second weighs the gathered rows by the edge values and accumulates them into the rows
  named by the edge sources, from zero ("scatterRows"), and cuts the third layer's two weight matrices and two bias
  rows out of the stacked parameters (the bias rows laid out as one-row matrices). Every other array is left as it
  was: a stretch changes only the arrays its own operations write. After the region a last stretch lays the input
  embedding and the three normalised layers side by side ("cat4").

  Each statement is over an arbitrary valuation "V" of the arrays before the stretches run. A stretch's result is
  first read from ANY contents "W" of the arrays the stretch starts from — the fold unrolled and each operation's
  result read at its own array —, and the two stretches are then put in a row through the arrays the first leaves
  alone.
-/
import proofs.«416135_j28965259444540_1_alg».proof.Proof.Gen.KernelIdeal.Launch
import proofs.«416135_j28965259444540_1_alg».proof.Proof.Gen.KernelIdeal.Regions
import proofs.«416135_j28965259444540_1_alg».proof.Proof.Spec
import proofs.«416135_j28965259444540_1_alg».proof.Proof.KSpec
import Idealize.ShloMosaic.Lib.StableHlo.Run

set_option maxRecDepth 1196

noncomputable section

namespace Cert.KernelIdeal.HostVal

open Idealize.ShloMosaic Idealize.ShloMosaic.TcCoe Idealize.SL.Sem Idealize.ShloMosaic.StableHlo
open Cert.KernelIdeal.Gen

variable {F : FTy → Type} [FloatOps F]

/-! ## One stretch, from any contents -/

/-- Contents moved to a typed reference's buffer type and back are the contents. -/
theorem ofBuf_toBuf2 {T : BufTy} (x : StableHlo.TRef sig T) (v : T.Contents (Elt F)) : x.ofBuf (x.toBuf v) = v := by
  simp only [StableHlo.TRef.ofBuf, StableHlo.TRef.toBuf, cast_cast, cast_eq]

attribute [local irreducible] Host.reduce Host.gather in
set_option maxRecDepth 8192 in
set_option maxHeartbeats 1000000 in
/-- The first stretch leaves the masked gather of the current embedding's rows in its last array: every
    intermediate array is written and read back at its own type, which changes nothing, and what is left is the
    mask, the gather and the fill value as "takeK" spells them. -/
theorem take_2_of (W : Valuation τ sig (Elt F)) :
    after hostOps2 W (main_v36 : DevRef τ sig) = Cert.KSpec.takeK (W main_v35_0) (W main_arg2) := by
  after_results_simp
  simp only [ofBuf_toBuf2]
  rfl

set_option maxRecDepth 8192 in
set_option maxHeartbeats 1000000 in
/-- The second stretch accumulates the weighted rows it finds in the first stretch's last array. -/
theorem side_2_of (W : Valuation τ sig (Elt F)) :
    after hostOps2_1 W (main_v42 : DevRef τ sig)
      = Cert.Spec.scatterRows (W main_arg1) (W main_arg3) (W main_v36) := by
  after_results_simp
  rfl

set_option maxRecDepth 8192 in
set_option maxHeartbeats 1000000 in
theorem w1_2_of (W : Valuation τ sig (Elt F)) :
    after hostOps2_1 W (main_v44 : DevRef τ sig) = Cert.Spec.w2 (W main_arg4) := by
  after_results_simp
  rfl

set_option maxRecDepth 8192 in
set_option maxHeartbeats 1000000 in
theorem w2_2_of (W : Valuation τ sig (Elt F)) :
    after hostOps2_1 W (main_v49 : DevRef τ sig) = Cert.Spec.w2 (W main_arg6) := by
  after_results_simp
  rfl

set_option maxRecDepth 8192 in
set_option maxHeartbeats 1000000 in
theorem b1_2_of (W : Valuation τ sig (Elt F)) :
    after hostOps2_1 W (main_v47 : DevRef τ sig)
      = shapeCast S1x64 (Cert.Spec.b2 (W main_arg5)) shapeCasts_S64_S1x64 := by
  after_results_simp
  rfl

set_option maxRecDepth 8192 in
set_option maxHeartbeats 1000000 in
theorem b2_2_of (W : Valuation τ sig (Elt F)) :
    after hostOps2_1 W (main_v52 : DevRef τ sig)
      = shapeCast S1x64 (Cert.Spec.b2 (W main_arg7)) shapeCasts_S64_S1x64 := by
  after_results_simp
  rfl

/-- The first stretch changes only the arrays it writes. -/
theorem keep_2a (W : Valuation τ sig (Elt F)) {r : Ref sig .tc} (h : r ∉ hostOps2_W) :
    after hostOps2 W (r : DevRef τ sig) = W r := after_of_writes_sub hostOps2 W hostOps2_writes h

/-- The second stretch changes only the arrays it writes. -/
theorem keep_2b (W : Valuation τ sig (Elt F)) {r : Ref sig .tc} (h : r ∉ hostOps2_1_W) :
    after hostOps2_1 W (r : DevRef τ sig) = W r := after_of_writes_sub hostOps2_1 W hostOps2_1_writes h

/-! ## The two stretches in a row -/

variable (V : Valuation τ sig (Elt F))

theorem take_2 :
    StableHlo.after hostOps2 V (main_v36 : DevRef τ sig) = Cert.KSpec.takeK (V main_v35_0) (V main_arg2) :=
  take_2_of V

theorem side_2 :
    StableHlo.after hostOps2_1 (StableHlo.after hostOps2 V) (main_v42 : DevRef τ sig)
      = Cert.Spec.scatterRows (V main_arg1) (V main_arg3) (Cert.KSpec.takeK (V main_v35_0) (V main_arg2)) := by
  rw [side_2_of, take_2_of, keep_2a V (r := main_arg1) (by decide), keep_2a V (r := main_arg3) (by decide)]

theorem w1_2 :
    StableHlo.after hostOps2_1 (StableHlo.after hostOps2 V) (main_v44 : DevRef τ sig) = Cert.Spec.w2 (V main_arg4) := by
  rw [w1_2_of, keep_2a V (r := main_arg4) (by decide)]

theorem w2_2 :
    StableHlo.after hostOps2_1 (StableHlo.after hostOps2 V) (main_v49 : DevRef τ sig) = Cert.Spec.w2 (V main_arg6) := by
  rw [w2_2_of, keep_2a V (r := main_arg6) (by decide)]

theorem b1_2 :
    StableHlo.after hostOps2_1 (StableHlo.after hostOps2 V) (main_v47 : DevRef τ sig)
      = shapeCast S1x64 (Cert.Spec.b2 (V main_arg5)) shapeCasts_S64_S1x64 := by
  rw [b1_2_of, keep_2a V (r := main_arg5) (by decide)]

theorem b2_2 :
    StableHlo.after hostOps2_1 (StableHlo.after hostOps2 V) (main_v52 : DevRef τ sig)
      = shapeCast S1x64 (Cert.Spec.b2 (V main_arg7)) shapeCasts_S64_S1x64 := by
  rw [b2_2_of, keep_2a V (r := main_arg7) (by decide)]

theorem keep_2 (r : Ref sig .tc) (h : r ∉ hostOps2_W ∧ r ∉ hostOps2_1_W) :
    StableHlo.after hostOps2_1 (StableHlo.after hostOps2 V) (r : DevRef τ sig) = V r := by
  rw [keep_2b _ h.2, keep_2a V h.1]

/-- The last stretch lays its four operands side by side. -/
theorem cat :
    StableHlo.after hostOps3 V (main_v54 : DevRef τ sig)
      = Cert.Spec.cat4 (V main_arg0) (V main_v17_1) (V main_v35_1) (V main_v53_1) := by
  after_results_simp
  rfl

end Cert.KernelIdeal.HostVal

end
-- ==== Proof.KI.Bridge.lean ====
/-
  The row-by-row arrays of one dense step are the specification's whole-array step.

  Entry (r, q) of the specification's next embedding is the row function of row r of the operands,
  and entry (r, q) of its normalised copy is the normalising row function of row r; the arrays built
  row by row from the same two row functions are therefore the same arrays. The only difference in
  spelling is the bias: a [64] row on one side, its [1, 64] reshape on the other, and the reshape
  read at (0, j) is the row read at j.
-/
import proofs.«416135_j28965259444540_1_alg».proof.Proof.KI.Arr
import proofs.«416135_j28965259444540_1_alg».proof.Proof.Spec
import Idealize.ShloMosaic.Lib.ValueIdx
import Idealize.ShloMosaic.Lib.ValueLayout

noncomputable section

namespace Cert.KernelIdeal.HandVal

open Idealize.ShloMosaic Idealize.ShloMosaic.ValueIdx
open Cert.KernelIdeal

/-- A [64] row reshaped to [1, 64] reads, at (0, j), the row at j. -/
theorem biasRow_apply (b : FVec Ideal S64 .f32) (h : S64.ShapeCasts S1x64) (j : Fin 64) :
    shapeCast S1x64 b h (ix2 (0 : Fin 1) j) = b (ix1 j) :=
  shapeCast_a_1a_apply b h 0 j

/-- The same, as an equality of rows. -/
theorem biasRow_eq (b : FVec Ideal S64 .f32) (h : S64.ShapeCasts S1x64) :
    (fun j : Fin 64 => shapeCast S1x64 b h (ix2 (0 : Fin 1) j)) = fun j => b (ix1 j) :=
  funext fun j => biasRow_apply b h j

/-- The next embedding built row by row is the specification's. -/
theorem neArr_eq (ego side : FVec Ideal Cert.KernelIdeal.S150000x64 .f32) (w1 w2 : FVec Ideal Cert.KernelIdeal.S64x64 .f32)
    (b1v b2v : FVec Ideal Cert.KernelIdeal.S64 .f32) :
    neArr ego side w1 (shapeCast Cert.KernelIdeal.S1x64 b1v Cert.KernelIdeal.Gen.shapeCasts_S64_S1x64) w2
        (shapeCast Cert.KernelIdeal.S1x64 b2v Cert.KernelIdeal.Gen.shapeCasts_S64_S1x64)
      = Cert.Spec.layerNE ego side w1 b1v w2 b2v := by
  funext i
  obtain ⟨r, q, rfl⟩ : ∃ (r : Fin 150000) (q : Fin 64), i = ix2 r q := ⟨i 0, i 1, eq_ix2 i⟩
  rw [Cert.Rows.layerNE_apply]
  show Cert.Rows.gNE _ _ _ (fun j => shapeCast S1x64 b1v _ (ix2 (0 : Fin 1) j)) _
      (fun j => shapeCast S1x64 b2v _ (ix2 (0 : Fin 1) j)) q = _
  rw [biasRow_eq b1v, biasRow_eq b2v]

/-- The normalised copy built row by row is the specification's. -/
theorem nmArr_eq (ne : FVec Ideal Cert.KernelIdeal.S150000x64 .f32) : nmArr ne = Cert.Spec.layerNM ne := by
  funext i
  obtain ⟨r, q, rfl⟩ : ∃ (r : Fin 150000) (q : Fin 64), i = ix2 r q := ⟨i 0, i 1, eq_ix2 i⟩
  rw [Cert.Rows.layerNM_apply]
  rfl

end Cert.KernelIdeal.HandVal

end
-- ==== Proof.TakeFill.lean ====
/-
  The column indices are in range, and the row gather's fill mask is then all ones.

  A column index c is admitted when -150000 ≤ c < 150000 as a signed word. The gather wraps a
  negative index once (c + 150000), so the wrapped index w satisfies 0 ≤ w ≤ 149999; the two
  comparisons w ≥ 0 and w ≤ 149999 both hold on every edge, their conjunction reduced over the
  unit axis is one, and selecting by a mask of ones returns the gathered rows themselves.
-/
import proofs.«416135_j28965259444540_1_alg».proof.Defs
import proofs.«416135_j28965259444540_1_alg».proof.Proof.Spec
import proofs.«416135_j28965259444540_1_alg».proof.Proof.KSpec
import proofs.«416135_j28965259444540_1_alg».proof.Proof.Gen.Pre_finite_inputs
import Idealize.ShloMosaic.Lib.ReduceAll
import Idealize.ShloMosaic.Lib.StableHlo.Predicate
import Idealize.ShloMosaic.Lib.ValueIdx

noncomputable section

namespace Cert.TakeFill

open Idealize.ShloMosaic Idealize.SL.Sem

/-- A word in [-150000, 150000), wrapped once when negative, lies in [0, 149999]. -/
theorem wrap_inb (x : BitVec 32) (h : -150000 ≤ x.toInt ∧ x.toInt < 150000) :
    0 ≤ (Scalar.select (IntOp.cmpi .slt x 0#32) (IntOp.addi x 150000#32) x).toInt
      ∧ (Scalar.select (IntOp.cmpi .slt x 0#32) (IntOp.addi x 150000#32) x).toInt ≤ 149999 := by
  obtain ⟨hlo, hhi⟩ := h
  by_cases hn : x.toInt < 0
  · -- negative: the comparison is one, the sum x + 150000 does not wrap and lies in [0, 150000)
    have hc : IntOp.cmpi .slt x 0#32 = 1#1 :=
      IntOp.cmpi_slt.2 (by rw [show (0#32 : BitVec 32).toInt = 0 from by decide]; exact hn)
    rw [hc, ValueIdx.select_one]
    have ha : (IntOp.addi x 150000#32).toInt = x.toInt + 150000 := by
      show (x + 150000#32).toInt = _
      rw [BitVec.toInt_add, show (150000#32 : BitVec 32).toInt = 150000 from by decide]
      exact Int.bmod_eq_of_le_mul_two (by omega) (by omega)
    rw [ha]; omega
  · -- non-negative: the comparison is zero and the word is kept
    have hc : ¬ IntOp.cmpi .slt x 0#32 = 1#1 := fun e => hn (by
      have := IntOp.cmpi_slt.1 e
      rwa [show (0#32 : BitVec 32).toInt = 0 from by decide] at this)
    rw [ValueIdx.eq_zero_of_ne_one hc, ValueIdx.select_zero]
    omega

/-- Every wrapped start index lies in [0, 149999]. -/
theorem wrapIdx_inb (cols : IVec Cert.KernelIdeal.S2400000 32) (h : Cert.KSpec.InRange cols)
    (i : Cert.KernelIdeal.S2400000x1.Idx) :
    0 ≤ (Cert.KSpec.wrapIdx cols i).toInt ∧ (Cert.KSpec.wrapIdx cols i).toInt ≤ 149999 :=
  wrap_inb _ (h _)

/-- A left fold by and over ones, from one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- With every column index in range the bounds mask is one on every edge. -/
theorem inBounds_eq (cols : IVec Cert.KernelIdeal.S2400000 32) (h : Cert.KSpec.InRange cols) :
    Cert.KSpec.inBounds (Cert.KSpec.wrapIdx cols) = fun _ => 1#1 := by
  funext j
  unfold Cert.KSpec.inBounds
  rw [Host.reduce_eq_foldl]
  refine foldl_andi_ones _ (fun i => ?_) _
  obtain ⟨h0, h1⟩ := wrapIdx_inb cols h i
  refine IntOp.andi_eq_one.2 ⟨IntOp.cmpi_sge.2 ?_, IntOp.cmpi_sle.2 ?_⟩
  · show (0#32 : BitVec 32).toInt ≤ _
    rw [show (0#32 : BitVec 32).toInt = 0 from by decide]; exact h0
  · show _ ≤ (149999#32 : BitVec 32).toInt
    rw [show (149999#32 : BitVec 32).toInt = 149999 from by decide]; exact h1

/-- With every column index in range the kernel program's gather is the plain row gather. -/
theorem takeK_eq {F : FTy → Type} [FloatOps F] (x : FVec F Cert.KernelIdeal.S150000x64 .f32)
    (cols : IVec Cert.KernelIdeal.S2400000 32) (h : Cert.KSpec.InRange cols) :
    Cert.KSpec.takeK x cols = Cert.Spec.rowsAt x cols := by
  unfold Cert.KSpec.takeK
  rw [inBounds_eq cols h]
  funext p
  exact ValueIdx.select_one _ _

/-- One index into a rank-0 array. -/
instance : Subsingleton Cert.Pre_finite_inputs.S_.Idx := ⟨fun a b => funext fun d => d.elim0⟩

/-- The printed precondition's last conjunct, read back: every column index lies in [-150000, 150000). -/
theorem inRange_of_fn {F : FTy → Type} [FloatOps F]
    (a0 : FVec F Cert.Pre_finite_inputs.S150000x64 .f32) (a1 a2 : IVec Cert.Pre_finite_inputs.S2400000 32)
    (a3 : FVec F Cert.Pre_finite_inputs.S2400000 .f32) (a4 : FVec F Cert.Pre_finite_inputs.S3x64x64 .f32)
    (a5 : FVec F Cert.Pre_finite_inputs.S3x64 .f32) (a6 : FVec F Cert.Pre_finite_inputs.S3x64x64 .f32)
    (a7 : FVec F Cert.Pre_finite_inputs.S3x64 .f32)
    (h : Cert.Pre_finite_inputs.fn (F := F) a0 a1 a2 a3 a4 a5 a6 a7 = fun _ => 1#1) :
    Cert.KSpec.InRange a2 := by
  intro i
  have e := congrFun h ValueIdx.ix0
  dsimp only [Cert.Pre_finite_inputs.fn, Cert.Pre_finite_inputs.fn_part1, Cert.Pre_finite_inputs.fn_part2] at e
  -- the conjunction's last factor is the reduction by and of the range test over all edges
  have e34 := (IntOp.andi_eq_one.1 e).2
  have ei := Host.reduce_andi_all _ _ _ _ _ e34 i
  obtain ⟨h1, h2⟩ := IntOp.andi_eq_one.1 ei
  have h1' := IntOp.cmpi_sge.1 h1
  have h2' := IntOp.cmpi_slt.1 h2
  change (4294817296#32 : BitVec 32).toInt ≤ (a2 i).toInt at h1'
  rw [show (4294817296#32 : BitVec 32).toInt = -150000 from by decide] at h1'
  change (a2 i).toInt < (150000#32 : BitVec 32).toInt at h2'
  rw [show (150000#32 : BitVec 32).toInt = 150000 from by decide] at h2'
  exact ⟨h1', h2'⟩

/-- The precondition of the idealized kernel program gives the range of the column indices on every device. -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.KSpec.InRange (m ((c.tc : Thread Cert.KernelIdeal.nD Cert.KernelIdeal.τ).loc Cert.KernelIdeal.main_arg2)) :=
  inRange_of_fn _ _ _ _ _ _ _ _ (h c)

/-- The same for the kernel program as printed. -/
theorem inRange_of_pre_bits (m : (ℓ : Loc Cert.Kernel.nD Cert.Kernel.τ Cert.Kernel.sig) → Buf (Elt Bits) ℓ)
    (h : Cert.Pre_Kernel m) (c : Dev Cert.Kernel.nD) :
    Cert.KSpec.InRange (m ((c.tc : Thread Cert.Kernel.nD Cert.Kernel.τ).loc Cert.Kernel.main_arg2)) :=
  inRange_of_fn _ _ _ _ _ _ _ _ (h c)

end Cert.TakeFill

end
-- ==== Proof.KI.Value.lean ====
/-
  The value of the idealized kernel program. With every column index in [-150000, 150000) the fill mask of the
  row gather is all ones, so each propagation is the reference's; each Pallas call's two output arrays are the
  dense layer step and its row-normalised copy of the arrays it finds; chaining the three layers through the
  contents between segments, the result buffer ends at the input embedding and the three normalised layers
  side by side.
-/
import proofs.«416135_j28965259444540_1_alg».proof.Proof.KI.Run
import proofs.«416135_j28965259444540_1_alg».proof.Proof.KI.Val0
import proofs.«416135_j28965259444540_1_alg».proof.Proof.KI.Val1
import proofs.«416135_j28965259444540_1_alg».proof.Proof.KI.Val2
import proofs.«416135_j28965259444540_1_alg».proof.Proof.KI.Host
import proofs.«416135_j28965259444540_1_alg».proof.Proof.KI.Host1
import proofs.«416135_j28965259444540_1_alg».proof.Proof.KI.Host2
import proofs.«416135_j28965259444540_1_alg».proof.Proof.KI.Bridge
import proofs.«416135_j28965259444540_1_alg».proof.Proof.TakeFill

noncomputable section

namespace Cert.KernelIdeal.HandVal

open Cert.KernelIdeal Cert.KernelIdeal.Gen Cert.KernelIdeal.Hand Cert.KernelIdeal.HostVal
open Idealize.ShloMosaic Idealize.ShloMosaic.TcCoe Idealize.SL.Sem

variable (m : (ℓ : Loc nD τ sig) → Buf (Elt Ideal) ℓ)

/-- The arguments as launched, by name. -/
abbrev aEmb (c : Dev nD) := m ((c : Thread nD τ).loc main_arg0)
abbrev aRows (c : Dev nD) := m ((c : Thread nD τ).loc main_arg1)
abbrev aCols (c : Dev nD) := m ((c : Thread nD τ).loc main_arg2)
abbrev aVals (c : Dev nD) := m ((c : Thread nD τ).loc main_arg3)
abbrev aW1 (c : Dev nD) := m ((c : Thread nD τ).loc main_arg4)
abbrev aB1 (c : Dev nD) := m ((c : Thread nD τ).loc main_arg5)
abbrev aW2 (c : Dev nD) := m ((c : Thread nD τ).loc main_arg6)
abbrev aB2 (c : Dev nD) := m ((c : Thread nD τ).loc main_arg7)

/-! ## Buffers that no segment so far has written -/

/-- A buffer that the first two host stretches do not write and that is no array of call 0 is, after call 0, as launched. -/
theorem W3_same (c : Dev nD) (r : Ref sig .tc) (h0 : r ∉ hostOps0_W) (h01 : r ∉ hostOps0_1_W)
    (a0 : ∀ w, Pipeline.arrRef spec0 w ≠ r) : W3 m c r = m ((c : Thread nD τ).loc r) :=
  (W3_of_ne m c r a0).trans ((W2_of m c r h0 h01).trans rfl)

/-- The same after call 1. -/
theorem W6_same (c : Dev nD) (r : Ref sig .tc) (h0 : r ∉ hostOps0_W) (h01 : r ∉ hostOps0_1_W)
    (a0 : ∀ w, Pipeline.arrRef spec0 w ≠ r) (h1 : r ∉ hostOps1_W) (h11 : r ∉ hostOps1_1_W)
    (a1 : ∀ w, Pipeline.arrRef spec1 w ≠ r) : W6 m c r = m ((c : Thread nD τ).loc r) :=
  (W6_of_ne m c r a1).trans ((W5_of m c r h1 h11).trans (W3_same m c r h0 h01 a0))

variable (hR : ∀ c : Dev nD, Cert.KSpec.InRange (m ((c : Thread nD τ).loc main_arg2)))
include hR

/-! ## Layer 0 -/

/-- What call 0 finds as the propagation: the reference's, of the input embedding. -/
theorem side0 (c : Dev nD) : Hand.V2 m c main_v6 = Cert.Spec.spmm (F := Ideal) (aEmb m c) (aRows m c) (aCols m c) (aVals m c) := by
  show StableHlo.after hostOps0_1 (StableHlo.after hostOps0 (W0 m c)) (main_v6 : DevRef τ sig) = _
  rw [side_0]
  show Cert.Spec.scatterRows (F := Ideal) (aRows m c) (aVals m c) (Cert.KSpec.takeK (F := Ideal) (aEmb m c) (aCols m c)) = _
  rw [Cert.TakeFill.takeK_eq _ _ (hR c)]
  rfl

/-- What call 0 leaves in its first output array: the first new embedding. -/
theorem new1 (c : Dev nD) : W3 m c main_v17_0 = Cert.Spec.ego1 (F := Ideal) (aEmb m c) (aRows m c) (aCols m c) (aVals m c) (aW1 m c) (aB1 m c) (aW2 m c) (aB2 m c) := by
  refine ((W3_arr m c 6).trans (arr6_0 (Hand.V2 m) c)).trans ?_
  have e0 : Hand.V2 m c main_arg0 = aEmb m c := W2_of m c main_arg0 (by decide) (by decide)
  have e2 : Hand.V2 m c main_v8 = Cert.Spec.w0 (F := Ideal) (aW1 m c) := w1_0 (W0 m c)
  have e3 : Hand.V2 m c main_v11 = shapeCast S1x64 (Cert.Spec.b0 (F := Ideal) (aB1 m c)) shapeCasts_S64_S1x64 := b1_0 (W0 m c)
  have e4 : Hand.V2 m c main_v13 = Cert.Spec.w0 (F := Ideal) (aW2 m c) := w2_0 (W0 m c)
  have e5 : Hand.V2 m c main_v16 = shapeCast S1x64 (Cert.Spec.b0 (F := Ideal) (aB2 m c)) shapeCasts_S64_S1x64 := b2_0 (W0 m c)
  rw [e0, side0 m hR c, e2, e3, e4, e5, neArr_eq]
  rfl

/-- What call 0 leaves in its second output array: the first new embedding, row-normalised. -/
theorem nrm1 (c : Dev nD) : W3 m c main_v17_1 = Cert.Spec.layerNM (F := Ideal) (Cert.Spec.ego1 (F := Ideal) (aEmb m c) (aRows m c) (aCols m c) (aVals m c) (aW1 m c) (aB1 m c) (aW2 m c) (aB2 m c)) := by
  refine ((W3_arr m c 7).trans (arr7_0 (Hand.V2 m) c)).trans ?_
  have h6 := ((W3_arr m c 6).trans (arr6_0 (Hand.V2 m) c)).symm.trans (new1 m hR c)
  rw [h6, nmArr_eq]

/-! ## Layer 1 -/

/-- What call 1 finds as the current embedding: the previous call's first output array, untouched by the host
    operations in between. -/
theorem egoIn1 (c : Dev nD) : Hand.V5 m c main_v17_0 = Cert.Spec.ego1 (F := Ideal) (aEmb m c) (aRows m c) (aCols m c) (aVals m c) (aW1 m c) (aB1 m c) (aW2 m c) (aB2 m c) :=
  (W5_of m c main_v17_0 (by decide) (by decide)).trans (new1 m hR c)

/-- What call 1 finds as the propagation: the reference's, of the current embedding. -/
theorem side1 (c : Dev nD) :
    Hand.V5 m c main_v24 = Cert.Spec.spmm (F := Ideal) (Cert.Spec.ego1 (F := Ideal) (aEmb m c) (aRows m c) (aCols m c) (aVals m c) (aW1 m c) (aB1 m c) (aW2 m c) (aB2 m c)) (aRows m c) (aCols m c) (aVals m c) := by
  show StableHlo.after hostOps1_1 (StableHlo.after hostOps1 (W3 m c)) (main_v24 : DevRef τ sig) = _
  rw [side_1, W3_same m c main_arg1 (by decide) (by decide) (by decide), W3_same m c main_arg3 (by decide) (by decide) (by decide),
    W3_same m c main_arg2 (by decide) (by decide) (by decide), new1 m hR c, Cert.TakeFill.takeK_eq _ _ (hR c)]
  rfl

/-- What call 1 leaves in its first output array: the next embedding. -/
theorem new2 (c : Dev nD) : W6 m c main_v35_0 = Cert.Spec.ego2 (F := Ideal) (aEmb m c) (aRows m c) (aCols m c) (aVals m c) (aW1 m c) (aB1 m c) (aW2 m c) (aB2 m c) := by
  refine ((W6_arr m c 6).trans (arr6_1 (Hand.V5 m) c)).trans ?_
  have e2 : Hand.V5 m c main_v26 = Cert.Spec.w1 (F := Ideal) (aW1 m c) :=
    (w1_1 (W3 m c)).trans (congrArg (Cert.Spec.w1 (F := Ideal)) (W3_same m c main_arg4 (by decide) (by decide) (by decide)))
  have e3 : Hand.V5 m c main_v29 = shapeCast S1x64 (Cert.Spec.b1 (F := Ideal) (aB1 m c)) shapeCasts_S64_S1x64 :=
    (b1_1 (W3 m c)).trans
      (congrArg (fun x => shapeCast S1x64 (Cert.Spec.b1 (F := Ideal) x) shapeCasts_S64_S1x64) (W3_same m c main_arg5 (by decide) (by decide) (by decide)))
  have e4 : Hand.V5 m c main_v31 = Cert.Spec.w1 (F := Ideal) (aW2 m c) :=
    (w2_1 (W3 m c)).trans (congrArg (Cert.Spec.w1 (F := Ideal)) (W3_same m c main_arg6 (by decide) (by decide) (by decide)))
  have e5 : Hand.V5 m c main_v34 = shapeCast S1x64 (Cert.Spec.b1 (F := Ideal) (aB2 m c)) shapeCasts_S64_S1x64 :=
    (b2_1 (W3 m c)).trans
      (congrArg (fun x => shapeCast S1x64 (Cert.Spec.b1 (F := Ideal) x) shapeCasts_S64_S1x64) (W3_same m c main_arg7 (by decide) (by decide) (by decide)))
  rw [egoIn1 m hR c, side1 m hR c, e2, e3, e4, e5, neArr_eq]
  rfl

/-- What call 1 leaves in its second output array: the next embedding, row-normalised. -/
theorem nrm2 (c : Dev nD) : W6 m c main_v35_1 = Cert.Spec.layerNM (F := Ideal) (Cert.Spec.ego2 (F := Ideal) (aEmb m c) (aRows m c) (aCols m c) (aVals m c) (aW1 m c) (aB1 m c) (aW2 m c) (aB2 m c)) := by
  refine ((W6_arr m c 7).trans (arr7_1 (Hand.V5 m) c)).trans ?_
  have h6 := ((W6_arr m c 6).trans (arr6_1 (Hand.V5 m) c)).symm.trans (new2 m hR c)
  rw [h6, nmArr_eq]

/-! ## Layer 2 -/

/-- What call 2 finds as the current embedding: the previous call's first output array, untouched by the host
    operations in between. -/
theorem egoIn2 (c : Dev nD) : Hand.V8 m c main_v35_0 = Cert.Spec.ego2 (F := Ideal) (aEmb m c) (aRows m c) (aCols m c) (aVals m c) (aW1 m c) (aB1 m c) (aW2 m c) (aB2 m c) :=
  (W8_of m c main_v35_0 (by decide) (by decide)).trans (new2 m hR c)

/-- What call 2 finds as the propagation: the reference's, of the current embedding. -/
theorem side2 (c : Dev nD) :
    Hand.V8 m c main_v42 = Cert.Spec.spmm (F := Ideal) (Cert.Spec.ego2 (F := Ideal) (aEmb m c) (aRows m c) (aCols m c) (aVals m c) (aW1 m c) (aB1 m c) (aW2 m c) (aB2 m c)) (aRows m c) (aCols m c) (aVals m c) := by
  show StableHlo.after hostOps2_1 (StableHlo.after hostOps2 (W6 m c)) (main_v42 : DevRef τ sig) = _
  rw [side_2, W6_same m c main_arg1 (by decide) (by decide) (by decide) (by decide) (by decide) (by decide), W6_same m c main_arg3 (by decide) (by decide) (by decide) (by decide) (by decide) (by decide),
    W6_same m c main_arg2 (by decide) (by decide) (by decide) (by decide) (by decide) (by decide), new2 m hR c, Cert.TakeFill.takeK_eq _ _ (hR c)]
  rfl

/-- What call 2 leaves in its first output array: the next embedding. -/
theorem new3 (c : Dev nD) : W9 m c main_v53_0 = Cert.Spec.ego3 (F := Ideal) (aEmb m c) (aRows m c) (aCols m c) (aVals m c) (aW1 m c) (aB1 m c) (aW2 m c) (aB2 m c) := by
  refine ((W9_arr m c 6).trans (arr6_2 (Hand.V8 m) c)).trans ?_
  have e2 : Hand.V8 m c main_v44 = Cert.Spec.w2 (F := Ideal) (aW1 m c) :=
    (w1_2 (W6 m c)).trans (congrArg (Cert.Spec.w2 (F := Ideal)) (W6_same m c main_arg4 (by decide) (by decide) (by decide) (by decide) (by decide) (by decide)))
  have e3 : Hand.V8 m c main_v47 = shapeCast S1x64 (Cert.Spec.b2 (F := Ideal) (aB1 m c)) shapeCasts_S64_S1x64 :=
    (b1_2 (W6 m c)).trans
      (congrArg (fun x => shapeCast S1x64 (Cert.Spec.b2 (F := Ideal) x) shapeCasts_S64_S1x64) (W6_same m c main_arg5 (by decide) (by decide) (by decide) (by decide) (by decide) (by decide)))
  have e4 : Hand.V8 m c main_v49 = Cert.Spec.w2 (F := Ideal) (aW2 m c) :=
    (w2_2 (W6 m c)).trans (congrArg (Cert.Spec.w2 (F := Ideal)) (W6_same m c main_arg6 (by decide) (by decide) (by decide) (by decide) (by decide) (by decide)))
  have e5 : Hand.V8 m c main_v52 = shapeCast S1x64 (Cert.Spec.b2 (F := Ideal) (aB2 m c)) shapeCasts_S64_S1x64 :=
    (b2_2 (W6 m c)).trans
      (congrArg (fun x => shapeCast S1x64 (Cert.Spec.b2 (F := Ideal) x) shapeCasts_S64_S1x64) (W6_same m c main_arg7 (by decide) (by decide) (by decide) (by decide) (by decide) (by decide)))
  rw [egoIn2 m hR c, side2 m hR c, e2, e3, e4, e5, neArr_eq]
  rfl

/-- What call 2 leaves in its second output array: the next embedding, row-normalised. -/
theorem nrm3 (c : Dev nD) : W9 m c main_v53_1 = Cert.Spec.layerNM (F := Ideal) (Cert.Spec.ego3 (F := Ideal) (aEmb m c) (aRows m c) (aCols m c) (aVals m c) (aW1 m c) (aB1 m c) (aW2 m c) (aB2 m c)) := by
  refine ((W9_arr m c 7).trans (arr7_2 (Hand.V8 m) c)).trans ?_
  have h6 := ((W9_arr m c 6).trans (arr6_2 (Hand.V8 m) c)).symm.trans (new3 m hR c)
  rw [h6, nmArr_eq]

/-! ## The result -/

/-- The result buffer ends at the input embedding and the three normalised layers side by side. -/
theorem out_eq (c : Dev nD) : W10 m c main_v54 = Cert.Spec.outR (F := Ideal) (aEmb m c) (aRows m c) (aCols m c) (aVals m c) (aW1 m c) (aB1 m c) (aW2 m c) (aB2 m c) := by
  show StableHlo.after hostOps3 (W9 m c) (main_v54 : DevRef τ sig) = _
  have e0 : W9 m c main_arg0 = aEmb m c := (W10_of m c main_arg0 (by decide)).symm.trans (W10_main_arg0 m c)
  have e1 : W9 m c main_v17_1 = W3 m c main_v17_1 :=
    (W9_of_ne m c main_v17_1 (by decide)).trans <| (W8_of m c main_v17_1 (by decide) (by decide)).trans <|
      (W6_of_ne m c main_v17_1 (by decide)).trans (W5_of m c main_v17_1 (by decide) (by decide))
  have e2 : W9 m c main_v35_1 = W6 m c main_v35_1 :=
    (W9_of_ne m c main_v35_1 (by decide)).trans (W8_of m c main_v35_1 (by decide) (by decide))
  rw [cat, e0, e1, e2, nrm1 m hR c, nrm2 m hR c, nrm3 m hR c]
  rfl

end Cert.KernelIdeal.HandVal

end
-- ==== Proof.RefRun.lean ====
/-
  The reference program's @main as one straight line of host operations, and its run.

  @main is three graph-convolution layers and a concatenation. Each layer gathers the rows of the current
  embedding at the (wrapped) column indices, weighs them by the edge values, accumulates them into the rows
  named by the edge sources, applies the two affine maps with their leaky rectifiers, adds them, and divides
  each row by the larger of its Euclidean norm and a small constant; the result is the input embedding and the
  three normalised layers side by side. The calls of the module's three local functions (the leaky rectifier,
  its select, and the row norm) are written out at their call sites over each call's own buffers, which is
  what a call means. The line is cut into four stretches — one per layer and the concatenation — so that what
  a buffer holds afterwards can be computed stretch by stretch.

  On every device, from any memory with zero counters, every weakly fair execution of @main terminates and
  leaves each buffer at the fold of the operations' results over the launch contents.
-/
import proofs.«416135_j28965259444540_1_alg».proof.ReferenceIdeal
import proofs.«416135_j28965259444540_1_alg».proof.Proof.Gen.ReferenceIdeal
import Idealize.ShloMosaic.Lib.StableHlo.Run
import Mathlib.Data.List.Basic

noncomputable section

namespace Cert.ReferenceIdeal.Hand

open Cert.ReferenceIdeal Cert.ReferenceIdeal.Facts₀
open Idealize.ShloMosaic Idealize.ShloMosaic.TcCoe Idealize.SL.Sem Idealize.ShloMosaic.StableHlo

variable {F : FTy → Type} [FloatOps F]

/-- An operation's one result is in the list of written references: the builder's "writes" is the singleton of
    its result, and the result is found in the literal list by computation. -/
local macro "writes_in" : tactic =>
  `(tactic| (simp only [nullary_writes, unary_writes, binary_writes, ternary_writes, reshape_writes, nary_writes,
      Finset.singleton_subset_iff, List.mem_toFinset]; exact List.mem_map_of_mem (by decide)))

/-- The first layer: its propagation, its dense step and the row-normalised copy (through %37). 60 operations. -/
abbrev opsA : List (HloOp τ sig (Elt F)) :=
  [ StableHlo.nullary main_c (constantI S_ 32 0#32),
    StableHlo.unary main_c main_v0 (broadcastInDim S2400000 ![] bcast_S_S2400000 : (⟨S_, .i32⟩ : BufTy).Contents (Elt F) → (⟨S2400000, .i32⟩ : BufTy).Contents (Elt F)),
    StableHlo.binary main_arg2 main_v0 main_v1 (cmpi .slt : (⟨S2400000, .i32⟩ : BufTy).Contents (Elt F) → (⟨S2400000, .i32⟩ : BufTy).Contents (Elt F) → (⟨S2400000, .i1⟩ : BufTy).Contents (Elt F)),
    StableHlo.nullary main_c_0 (constantI S_ 32 150000#32),
    StableHlo.unary main_c_0 main_v2 (broadcastInDim S2400000 ![] bcast_S_S2400000 : (⟨S_, .i32⟩ : BufTy).Contents (Elt F) → (⟨S2400000, .i32⟩ : BufTy).Contents (Elt F)),
    StableHlo.binary main_arg2 main_v2 main_v3 (addi : (⟨S2400000, .i32⟩ : BufTy).Contents (Elt F) → (⟨S2400000, .i32⟩ : BufTy).Contents (Elt F) → (⟨S2400000, .i32⟩ : BufTy).Contents (Elt F)),
    StableHlo.ternary main_v1 main_v3 main_arg2 main_v4 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v4 main_v5 (broadcastInDim S2400000x1 ![0] bcast_S2400000_S2400000x1_0 : (⟨S2400000, .i32⟩ : BufTy).Contents (Elt F) → (⟨S2400000x1, .i32⟩ : BufTy).Contents (Elt F)),
    StableHlo.binary main_arg0 main_v5 main_v6 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_arg3 main_v7 (broadcastInDim S2400000x1 ![0] bcast_S2400000_S2400000x1_0 : (⟨S2400000, .f32⟩ : BufTy).Contents (Elt F) → (⟨S2400000x1, .f32⟩ : BufTy).Contents (Elt F)),
    StableHlo.unary main_v7 main_v8 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v6 main_v8 main_v9 (mulf : (⟨S2400000x64, .f32⟩ : BufTy).Contents (Elt F) → (⟨S2400000x64, .f32⟩ : BufTy).Contents (Elt F) → (⟨S2400000x64, .f32⟩ : BufTy).Contents (Elt F)),
    StableHlo.nullary main_cst (constant S_ .f32 0x00000000#32),
    StableHlo.unary main_cst main_v10 (broadcastInDim S150000x64 ![] bcast_S_S150000x64 : (⟨S_, .f32⟩ : BufTy).Contents (Elt F) → (⟨S150000x64, .f32⟩ : BufTy).Contents (Elt F)),
    StableHlo.unary main_arg1 main_v11 (broadcastInDim S2400000x1 ![0] bcast_S2400000_S2400000x1_0 : (⟨S2400000, .i32⟩ : BufTy).Contents (Elt F) → (⟨S2400000x1, .i32⟩ : BufTy).Contents (Elt F)),
    StableHlo.ternary main_v10 main_v11 main_v9 main_v12 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    StableHlo.unary main_arg4 main_v13 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v13 main_v14 rfl shapeCasts_S1x64x64_S64x64,
    StableHlo.binary main_v12 main_v14 main_v15 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg5 main_v16 ((extractStridedSlice S1x64 ![0, 0] · slices_S3x64_S1x64_0_0) : (⟨S3x64, .f32⟩ : BufTy).Contents (Elt F) → (⟨S1x64, .f32⟩ : BufTy).Contents (Elt F)),
    StableHlo.reshape main_v16 main_v17 rfl shapeCasts_S1x64_S64,
    StableHlo.unary main_v17 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S150000x64 ![0, 1] bcast_S1x64_S150000x64_0_1 : (⟨S1x64, .f32⟩ : BufTy).Contents (Elt F) → (⟨S150000x64, .f32⟩ : BufTy).Contents (Elt F)),
    StableHlo.binary main_v15 main_v19 main_v20 (addf : (⟨S150000x64, .f32⟩ : BufTy).Contents (Elt F) → (⟨S150000x64, .f32⟩ : BufTy).Contents (Elt F) → (⟨S150000x64, .f32⟩ : BufTy).Contents (Elt F)),
    StableHlo.nullary main_cst_1 (constant S_ .f32 0x3C23D70A#32),
    StableHlo.TRef.nullary main_call0.cst (constant S_ .f32 0x00000000#32),
    StableHlo.TRef.unary main_call0.cst main_call0.v0 (broadcastInDim S150000x64 ![] bcast_S_S150000x64),
    StableHlo.TRef.binary (.of main_v20 : StableHlo.TRef sig ⟨S150000x64, .f32⟩) main_call0.v0 main_call0.v1 (cmpf .oge),
    StableHlo.TRef.unary (.of main_cst_1 : StableHlo.TRef sig ⟨S_, .f32⟩) main_call0.v2 id,
    StableHlo.TRef.unary main_call0.v2 main_call0.v3 (broadcastInDim S150000x64 ![] bcast_S_S150000x64),
    StableHlo.TRef.binary main_call0.v3 (.of main_v20 : StableHlo.TRef sig ⟨S150000x64, .f32⟩) main_call0.v4 mulf,
    StableHlo.TRef.ternary main_call0.v1 (.of main_v20 : StableHlo.TRef sig ⟨S150000x64, .f32⟩) main_call0.v4 main_call0.call0.v0 select,
    StableHlo.binary main_arg0 main_v12 main_v22 (mulf : (⟨S150000x64, .f32⟩ : BufTy).Contents (Elt F) → (⟨S150000x64, .f32⟩ : BufTy).Contents (Elt F) → (⟨S150000x64, .f32⟩ : BufTy).Contents (Elt F)),
    StableHlo.unary main_arg6 main_v23 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v23 main_v24 rfl shapeCasts_S1x64x64_S64x64,
    StableHlo.binary main_v22 main_v24 main_v25 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg7 main_v26 ((extractStridedSlice S1x64 ![0, 0] · slices_S3x64_S1x64_0_0) : (⟨S3x64, .f32⟩ : BufTy).Contents (Elt F) → (⟨S1x64, .f32⟩ : BufTy).Contents (Elt F)),
    StableHlo.reshape main_v26 main_v27 rfl shapeCasts_S1x64_S64,
    StableHlo.unary main_v27 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S150000x64 ![0, 1] bcast_S1x64_S150000x64_0_1 : (⟨S1x64, .f32⟩ : BufTy).Contents (Elt F) → (⟨S150000x64, .f32⟩ : BufTy).Contents (Elt F)),
    StableHlo.binary main_v25 main_v29 main_v30 (addf : (⟨S150000x64, .f32⟩ : BufTy).Contents (Elt F) → (⟨S150000x64, .f32⟩ : BufTy).Contents (Elt F) → (⟨S150000x64, .f32⟩ : BufTy).Contents (Elt F)),
    StableHlo.nullary main_cst_2 (constant S_ .f32 0x3C23D70A#32),
    StableHlo.TRef.nullary main_call1.cst (constant S_ .f32 0x00000000#32),
    StableHlo.TRef.unary main_call1.cst main_call1.v0 (broadcastInDim S150000x64 ![] bcast_S_S150000x64),
    StableHlo.TRef.binary (.of main_v30 : StableHlo.TRef sig ⟨S150000x64, .f32⟩) main_call1.v0 main_call1.v1 (cmpf .oge),
    StableHlo.TRef.unary (.of main_cst_2 : StableHlo.TRef sig ⟨S_, .f32⟩) main_call1.v2 id,
    StableHlo.TRef.unary main_call1.v2 main_call1.v3 (broadcastInDim S150000x64 ![] bcast_S_S150000x64),
    StableHlo.TRef.binary main_call1.v3 (.of main_v30 : StableHlo.TRef sig ⟨S150000x64, .f32⟩) main_call1.v4 mulf,
    StableHlo.TRef.ternary main_call1.v1 (.of main_v30 : StableHlo.TRef sig ⟨S150000x64, .f32⟩) main_call1.v4 main_call1.call0.v0 select,
    StableHlo.binary main_v21 main_v31 main_v32 (addf : (⟨S150000x64, .f32⟩ : BufTy).Contents (Elt F) → (⟨S150000x64, .f32⟩ : BufTy).Contents (Elt F) → (⟨S150000x64, .f32⟩ : BufTy).Contents (Elt F)),
    StableHlo.TRef.binary (.of main_v32 : StableHlo.TRef sig ⟨S150000x64, .f32⟩) (.of main_v32 : StableHlo.TRef sig ⟨S150000x64, .f32⟩) main_call2.v0 mulf,
    StableHlo.TRef.nullary main_call2.cst (constant S_ .f32 0x00000000#32),
    StableHlo.TRef.binary main_call2.v0 main_call2.cst main_call2.v1 (fun x v => Host.reduceAdd x v reducesTo_S150000x64_S150000_d1 h_S_),
    StableHlo.TRef.unary main_call2.v1 main_call2.v2 (broadcastInDim S150000x1 ![0] bcast_S150000_S150000x1_0),
    StableHlo.TRef.unary main_call2.v2 main_call2.v3 Host.sqrt,
    StableHlo.nullary main_cst_3 (constant S_ .f32 0x2B8CBCCC#32),
    StableHlo.unary main_cst_3 main_v34 (broadcastInDim S150000x1 ![] bcast_S_S150000x1 : (⟨S_, .f32⟩ : BufTy).Contents (Elt F) → (⟨S150000x1, .f32⟩ : BufTy).Contents (Elt F)),
    StableHlo.binary main_v33 main_v34 main_v35 (maximumf : (⟨S150000x1, .f32⟩ : BufTy).Contents (Elt F) → (⟨S150000x1, .f32⟩ : BufTy).Contents (Elt F) → (⟨S150000x1, .f32⟩ : BufTy).Contents (Elt F)),
    StableHlo.unary main_v35 main_v36 (broadcastInDim S150000x64 ![0, 1] bcast_S150000x1_S150000x64_0_1 : (⟨S150000x1, .f32⟩ : BufTy).Contents (Elt F) → (⟨S150000x64, .f32⟩ : BufTy).Contents (Elt F)),
    StableHlo.binary main_v32 main_v36 main_v37 (Host.divf : (⟨S150000x64, .f32⟩ : BufTy).Contents (Elt F) → (⟨S150000x64, .f32⟩ : BufTy).Contents (Elt F) → (⟨S150000x64, .f32⟩ : BufTy).Contents (Elt F)) ]

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., reshape_bufs_sub ..,
    binary_bufs_sub .., unary_bufs_sub .., reshape_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., binary_bufs_sub .., nullary_bufs_sub .., binary_bufs_sub .., unary_bufs_sub ..,
    unary_bufs_sub .., nullary_bufs_sub .., unary_bufs_sub .., binary_bufs_sub .., unary_bufs_sub .., binary_bufs_sub ..⟩

/-- The references the stretch writes: one per operation, its result. -/
abbrev opsA_W : List (Ref sig .tc) :=
  [main_c, main_v0, main_v1, main_c_0, main_v2, main_v3, main_v4, main_v5,
    main_v6, main_v7, main_v8, main_v9, main_cst, main_v10, main_v11, main_v12,
    main_v13, main_v14, main_v15, main_v16, main_v17, main_v18, main_v19, main_v20,
    main_cst_1, main_call0.cst.ref, main_call0.v0.ref, main_call0.v1.ref, main_call0.v2.ref, main_call0.v3.ref, main_call0.v4.ref, main_call0.call0.v0.ref,
    main_v22, main_v23, main_v24, main_v25, main_v26, main_v27, main_v28, main_v29,
    main_v30, main_cst_2, main_call1.cst.ref, main_call1.v0.ref, main_call1.v1.ref, main_call1.v2.ref, main_call1.v3.ref, main_call1.v4.ref,
    main_call1.call0.v0.ref, main_v32, main_call2.v0.ref, main_call2.cst.ref, main_call2.v1.ref, main_call2.v2.ref, main_call2.v3.ref, main_cst_3,
    main_v34, main_v35, main_v36, main_v37]

theorem opsA_writes : (opsA : List (HloOp τ sig (Elt F))).Forall fun op => op.writes ⊆ (opsA_W.map (Proc.devRef (τ := τ) .tc)).toFinset := by
  simp only [List.Forall]
  exact ⟨by writes_in, by writes_in, by writes_in, by writes_in, by writes_in, by writes_in, by writes_in, by writes_in,
    by writes_in, by writes_in, by writes_in, by writes_in, by writes_in, by writes_in, by writes_in, by writes_in,
    by writes_in, by writes_in, by writes_in, by writes_in, by writes_in, by writes_in, by writes_in, by writes_in,
    by writes_in, by writes_in, by writes_in, by writes_in, by writes_in, by writes_in, by writes_in, by writes_in,
    by writes_in, by writes_in, by writes_in, by writes_in, by writes_in, by writes_in, by writes_in, by writes_in,
    by writes_in, by writes_in, by writes_in, by writes_in, by writes_in, by writes_in, by writes_in, by writes_in,
    by writes_in, by writes_in, by writes_in, by writes_in, by writes_in, by writes_in, by writes_in, by writes_in,
    by writes_in, by writes_in, by writes_in, by writes_in⟩

theorem opsA_fresh : ∀ op ∈ (opsA : List (HloOp τ sig (Elt F))), op.fresh = ∅ := by
  intro _ h; (repeat (cases h with | head => rfl | tail _ h => ?_)); exact nomatch h

/-- The second layer, from the first layer's embedding %32 (through %75). 60 operations. -/
abbrev opsB : List (HloOp τ sig (Elt F)) :=
  [ StableHlo.nullary main_c_4 (constantI S_ 32 0#32),
    StableHlo.unary main_c_4 main_v38 (broadcastInDim S2400000 ![] bcast_S_S2400000 : (⟨S_, .i32⟩ : BufTy).Contents (Elt F) → (⟨S2400000, .i32⟩ : BufTy).Contents (Elt F)),
    StableHlo.binary main_arg2 main_v38 main_v39 (cmpi .slt : (⟨S2400000, .i32⟩ : BufTy).Contents (Elt F) → (⟨S2400000, .i32⟩ : BufTy).Contents (Elt F) → (⟨S2400000, .i1⟩ : BufTy).Contents (Elt F)),
    StableHlo.nullary main_c_5 (constantI S_ 32 150000#32),
    StableHlo.unary main_c_5 main_v40 (broadcastInDim S2400000 ![] bcast_S_S2400000 : (⟨S_, .i32⟩ : BufTy).Contents (Elt F) → (⟨S2400000, .i32⟩ : BufTy).Contents (Elt F)),
    StableHlo.binary main_arg2 main_v40 main_v41 (addi : (⟨S2400000, .i32⟩ : BufTy).Contents (Elt F) → (⟨S2400000, .i32⟩ : BufTy).Contents (Elt F) → (⟨S2400000, .i32⟩ : BufTy).Contents (Elt F)),
    StableHlo.ternary main_v39 main_v41 main_arg2 main_v42 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v42 main_v43 (broadcastInDim S2400000x1 ![0] bcast_S2400000_S2400000x1_0 : (⟨S2400000, .i32⟩ : BufTy).Contents (Elt F) → (⟨S2400000x1, .i32⟩ : BufTy).Contents (Elt F)),
    StableHlo.binary main_v32 main_v43 main_v44 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_arg3 main_v45 (broadcastInDim S2400000x1 ![0] bcast_S2400000_S2400000x1_0 : (⟨S2400000, .f32⟩ : BufTy).Contents (Elt F) → (⟨S2400000x1, .f32⟩ : BufTy).Contents (Elt F)),
    StableHlo.unary main_v45 main_v46 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v44 main_v46 main_v47 (mulf : (⟨S2400000x64, .f32⟩ : BufTy).Contents (Elt F) → (⟨S2400000x64, .f32⟩ : BufTy).Contents (Elt F) → (⟨S2400000x64, .f32⟩ : BufTy).Contents (Elt F)),
    StableHlo.nullary main_cst_6 (constant S_ .f32 0x00000000#32),
    StableHlo.unary main_cst_6 main_v48 (broadcastInDim S150000x64 ![] bcast_S_S150000x64 : (⟨S_, .f32⟩ : BufTy).Contents (Elt F) → (⟨S150000x64, .f32⟩ : BufTy).Contents (Elt F)),
    StableHlo.unary main_arg1 main_v49 (broadcastInDim S2400000x1 ![0] bcast_S2400000_S2400000x1_0 : (⟨S2400000, .i32⟩ : BufTy).Contents (Elt F) → (⟨S2400000x1, .i32⟩ : BufTy).Contents (Elt F)),
    StableHlo.ternary main_v48 main_v49 main_v47 main_v50 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    StableHlo.unary main_arg4 main_v51 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v51 main_v52 rfl shapeCasts_S1x64x64_S64x64,
    StableHlo.binary main_v50 main_v52 main_v53 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg5 main_v54 ((extractStridedSlice S1x64 ![1, 0] · slices_S3x64_S1x64_1_0) : (⟨S3x64, .f32⟩ : BufTy).Contents (Elt F) → (⟨S1x64, .f32⟩ : BufTy).Contents (Elt F)),
    StableHlo.reshape main_v54 main_v55 rfl shapeCasts_S1x64_S64,
    StableHlo.unary main_v55 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S150000x64 ![0, 1] bcast_S1x64_S150000x64_0_1 : (⟨S1x64, .f32⟩ : BufTy).Contents (Elt F) → (⟨S150000x64, .f32⟩ : BufTy).Contents (Elt F)),
    StableHlo.binary main_v53 main_v57 main_v58 (addf : (⟨S150000x64, .f32⟩ : BufTy).Contents (Elt F) → (⟨S150000x64, .f32⟩ : BufTy).Contents (Elt F) → (⟨S150000x64, .f32⟩ : BufTy).Contents (Elt F)),
    StableHlo.nullary main_cst_7 (constant S_ .f32 0x3C23D70A#32),
    StableHlo.TRef.nullary main_call3.cst (constant S_ .f32 0x00000000#32),
    StableHlo.TRef.unary main_call3.cst main_call3.v0 (broadcastInDim S150000x64 ![] bcast_S_S150000x64),
    StableHlo.TRef.binary (.of main_v58 : StableHlo.TRef sig ⟨S150000x64, .f32⟩) main_call3.v0 main_call3.v1 (cmpf .oge),
    StableHlo.TRef.unary (.of main_cst_7 : StableHlo.TRef sig ⟨S_, .f32⟩) main_call3.v2 id,
    StableHlo.TRef.unary main_call3.v2 main_call3.v3 (broadcastInDim S150000x64 ![] bcast_S_S150000x64),
    StableHlo.TRef.binary main_call3.v3 (.of main_v58 : StableHlo.TRef sig ⟨S150000x64, .f32⟩) main_call3.v4 mulf,
    StableHlo.TRef.ternary main_call3.v1 (.of main_v58 : StableHlo.TRef sig ⟨S150000x64, .f32⟩) main_call3.v4 main_call3.call0.v0 select,
    StableHlo.binary main_v32 main_v50 main_v60 (mulf : (⟨S150000x64, .f32⟩ : BufTy).Contents (Elt F) → (⟨S150000x64, .f32⟩ : BufTy).Contents (Elt F) → (⟨S150000x64, .f32⟩ : BufTy).Contents (Elt F)),
    StableHlo.unary main_arg6 main_v61 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v61 main_v62 rfl shapeCasts_S1x64x64_S64x64,
    StableHlo.binary main_v60 main_v62 main_v63 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg7 main_v64 ((extractStridedSlice S1x64 ![1, 0] · slices_S3x64_S1x64_1_0) : (⟨S3x64, .f32⟩ : BufTy).Contents (Elt F) → (⟨S1x64, .f32⟩ : BufTy).Contents (Elt F)),
    StableHlo.reshape main_v64 main_v65 rfl shapeCasts_S1x64_S64,
    StableHlo.unary main_v65 main_v66 (broadcastInDim S1x64 ![1] bcast_S64_S1x64_1 : (⟨S64, .f32⟩ : BufTy).Contents (Elt F) → (⟨S1x64, .f32⟩ : BufTy).Contents (Elt F)),
    StableHlo.unary main_v66 main_v67 (broadcastInDim S150000x64 ![0, 1] bcast_S1x64_S150000x64_0_1 : (⟨S1x64, .f32⟩ : BufTy).Contents (Elt F) → (⟨S150000x64, .f32⟩ : BufTy).Contents (Elt F)),
    StableHlo.binary main_v63 main_v67 main_v68 (addf : (⟨S150000x64, .f32⟩ : BufTy).Contents (Elt F) → (⟨S150000x64, .f32⟩ : BufTy).Contents (Elt F) → (⟨S150000x64, .f32⟩ : BufTy).Contents (Elt F)),
    StableHlo.nullary main_cst_8 (constant S_ .f32 0x3C23D70A#32),
    StableHlo.TRef.nullary main_call4.cst (constant S_ .f32 0x00000000#32),
    StableHlo.TRef.unary main_call4.cst main_call4.v0 (broadcastInDim S150000x64 ![] bcast_S_S150000x64),
    StableHlo.TRef.binary (.of main_v68 : StableHlo.TRef sig ⟨S150000x64, .f32⟩) main_call4.v0 main_call4.v1 (cmpf .oge),
    StableHlo.TRef.unary (.of main_cst_8 : StableHlo.TRef sig ⟨S_, .f32⟩) main_call4.v2 id,
    StableHlo.TRef.unary main_call4.v2 main_call4.v3 (broadcastInDim S150000x64 ![] bcast_S_S150000x64),
    StableHlo.TRef.binary main_call4.v3 (.of main_v68 : StableHlo.TRef sig ⟨S150000x64, .f32⟩) main_call4.v4 mulf,
    StableHlo.TRef.ternary main_call4.v1 (.of main_v68 : StableHlo.TRef sig ⟨S150000x64, .f32⟩) main_call4.v4 main_call4.call0.v0 select,
    StableHlo.binary main_v59 main_v69 main_v70 (addf : (⟨S150000x64, .f32⟩ : BufTy).Contents (Elt F) → (⟨S150000x64, .f32⟩ : BufTy).Contents (Elt F) → (⟨S150000x64, .f32⟩ : BufTy).Contents (Elt F)),
    StableHlo.TRef.binary (.of main_v70 : StableHlo.TRef sig ⟨S150000x64, .f32⟩) (.of main_v70 : StableHlo.TRef sig ⟨S150000x64, .f32⟩) main_call5.v0 mulf,
    StableHlo.TRef.nullary main_call5.cst (constant S_ .f32 0x00000000#32),
    StableHlo.TRef.binary main_call5.v0 main_call5.cst main_call5.v1 (fun x v => Host.reduceAdd x v reducesTo_S150000x64_S150000_d1 h_S_),
    StableHlo.TRef.unary main_call5.v1 main_call5.v2 (broadcastInDim S150000x1 ![0] bcast_S150000_S150000x1_0),
    StableHlo.TRef.unary main_call5.v2 main_call5.v3 Host.sqrt,
    StableHlo.nullary main_cst_9 (constant S_ .f32 0x2B8CBCCC#32),
    StableHlo.unary main_cst_9 main_v72 (broadcastInDim S150000x1 ![] bcast_S_S150000x1 : (⟨S_, .f32⟩ : BufTy).Contents (Elt F) → (⟨S150000x1, .f32⟩ : BufTy).Contents (Elt F)),
    StableHlo.binary main_v71 main_v72 main_v73 (maximumf : (⟨S150000x1, .f32⟩ : BufTy).Contents (Elt F) → (⟨S150000x1, .f32⟩ : BufTy).Contents (Elt F) → (⟨S150000x1, .f32⟩ : BufTy).Contents (Elt F)),
    StableHlo.unary main_v73 main_v74 (broadcastInDim S150000x64 ![0, 1] bcast_S150000x1_S150000x64_0_1 : (⟨S150000x1, .f32⟩ : BufTy).Contents (Elt F) → (⟨S150000x64, .f32⟩ : BufTy).Contents (Elt F)),
    StableHlo.binary main_v70 main_v74 main_v75 (Host.divf : (⟨S150000x64, .f32⟩ : BufTy).Contents (Elt F) → (⟨S150000x64, .f32⟩ : BufTy).Contents (Elt F) → (⟨S150000x64, .f32⟩ : BufTy).Contents (Elt F)) ]

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., reshape_bufs_sub ..,
    binary_bufs_sub .., unary_bufs_sub .., reshape_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., binary_bufs_sub .., nullary_bufs_sub .., binary_bufs_sub .., unary_bufs_sub ..,
    unary_bufs_sub .., nullary_bufs_sub .., unary_bufs_sub .., binary_bufs_sub .., unary_bufs_sub .., binary_bufs_sub ..⟩

/-- The references the stretch writes: one per operation, its result. -/
abbrev opsB_W : List (Ref sig .tc) :=
  [main_c_4, main_v38, main_v39, main_c_5, main_v40, main_v41, main_v42, main_v43,
    main_v44, main_v45, main_v46, main_v47, main_cst_6, main_v48, main_v49, main_v50,
    main_v51, main_v52, main_v53, main_v54, main_v55, main_v56, main_v57, main_v58,
    main_cst_7, main_call3.cst.ref, main_call3.v0.ref, main_call3.v1.ref, main_call3.v2.ref, main_call3.v3.ref, main_call3.v4.ref, main_call3.call0.v0.ref,
    main_v60, main_v61, main_v62, main_v63, main_v64, main_v65, main_v66, main_v67,
    main_v68, main_cst_8, main_call4.cst.ref, main_call4.v0.ref, main_call4.v1.ref, main_call4.v2.ref, main_call4.v3.ref, main_call4.v4.ref,
    main_call4.call0.v0.ref, main_v70, main_call5.v0.ref, main_call5.cst.ref, main_call5.v1.ref, main_call5.v2.ref, main_call5.v3.ref, main_cst_9,
    main_v72, main_v73, main_v74, main_v75]

theorem opsB_writes : (opsB : List (HloOp τ sig (Elt F))).Forall fun op => op.writes ⊆ (opsB_W.map (Proc.devRef (τ := τ) .tc)).toFinset := by
  simp only [List.Forall]
  exact ⟨by writes_in, by writes_in, by writes_in, by writes_in, by writes_in, by writes_in, by writes_in, by writes_in,
    by writes_in, by writes_in, by writes_in, by writes_in, by writes_in, by writes_in, by writes_in, by writes_in,
    by writes_in, by writes_in, by writes_in, by writes_in, by writes_in, by writes_in, by writes_in, by writes_in,
    by writes_in, by writes_in, by writes_in, by writes_in, by writes_in, by writes_in, by writes_in, by writes_in,
    by writes_in, by writes_in, by writes_in, by writes_in, by writes_in, by writes_in, by writes_in, by writes_in,
    by writes_in, by writes_in, by writes_in, by writes_in, by writes_in, by writes_in, by writes_in, by writes_in,
    by writes_in, by writes_in, by writes_in, by writes_in, by writes_in, by writes_in, by writes_in, by writes_in,
    by writes_in, by writes_in, by writes_in, by writes_in⟩

theorem opsB_fresh : ∀ op ∈ (opsB : List (HloOp τ sig (Elt F))), op.fresh = ∅ := by
  intro _ h; (repeat (cases h with | head => rfl | tail _ h => ?_)); exact nomatch h

/-- The third layer, from the second layer's embedding %70 (through %113). 60 operations. -/
abbrev opsC : List (HloOp τ sig (Elt F)) :=
  [ StableHlo.nullary main_c_10 (constantI S_ 32 0#32),
    StableHlo.unary main_c_10 main_v76 (broadcastInDim S2400000 ![] bcast_S_S2400000 : (⟨S_, .i32⟩ : BufTy).Contents (Elt F) → (⟨S2400000, .i32⟩ : BufTy).Contents (Elt F)),
    StableHlo.binary main_arg2 main_v76 main_v77 (cmpi .slt : (⟨S2400000, .i32⟩ : BufTy).Contents (Elt F) → (⟨S2400000, .i32⟩ : BufTy).Contents (Elt F) → (⟨S2400000, .i1⟩ : BufTy).Contents (Elt F)),
    StableHlo.nullary main_c_11 (constantI S_ 32 150000#32),
    StableHlo.unary main_c_11 main_v78 (broadcastInDim S2400000 ![] bcast_S_S2400000 : (⟨S_, .i32⟩ : BufTy).Contents (Elt F) → (⟨S2400000, .i32⟩ : BufTy).Contents (Elt F)),
    StableHlo.binary main_arg2 main_v78 main_v79 (addi : (⟨S2400000, .i32⟩ : BufTy).Contents (Elt F) → (⟨S2400000, .i32⟩ : BufTy).Contents (Elt F) → (⟨S2400000, .i32⟩ : BufTy).Contents (Elt F)),
    StableHlo.ternary main_v77 main_v79 main_arg2 main_v80 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v80 main_v81 (broadcastInDim S2400000x1 ![0] bcast_S2400000_S2400000x1_0 : (⟨S2400000, .i32⟩ : BufTy).Contents (Elt F) → (⟨S2400000x1, .i32⟩ : BufTy).Contents (Elt F)),
    StableHlo.binary main_v70 main_v81 main_v82 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_arg3 main_v83 (broadcastInDim S2400000x1 ![0] bcast_S2400000_S2400000x1_0 : (⟨S2400000, .f32⟩ : BufTy).Contents (Elt F) → (⟨S2400000x1, .f32⟩ : BufTy).Contents (Elt F)),
    StableHlo.unary main_v83 main_v84 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v82 main_v84 main_v85 (mulf : (⟨S2400000x64, .f32⟩ : BufTy).Contents (Elt F) → (⟨S2400000x64, .f32⟩ : BufTy).Contents (Elt F) → (⟨S2400000x64, .f32⟩ : BufTy).Contents (Elt F)),
    StableHlo.nullary main_cst_12 (constant S_ .f32 0x00000000#32),
    StableHlo.unary main_cst_12 main_v86 (broadcastInDim S150000x64 ![] bcast_S_S150000x64 : (⟨S_, .f32⟩ : BufTy).Contents (Elt F) → (⟨S150000x64, .f32⟩ : BufTy).Contents (Elt F)),
    StableHlo.unary main_arg1 main_v87 (broadcastInDim S2400000x1 ![0] bcast_S2400000_S2400000x1_0 : (⟨S2400000, .i32⟩ : BufTy).Contents (Elt F) → (⟨S2400000x1, .i32⟩ : BufTy).Contents (Elt F)),
    StableHlo.ternary main_v86 main_v87 main_v85 main_v88 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    StableHlo.unary main_arg4 main_v89 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v89 main_v90 rfl shapeCasts_S1x64x64_S64x64,
    StableHlo.binary main_v88 main_v90 main_v91 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg5 main_v92 ((extractStridedSlice S1x64 ![2, 0] · slices_S3x64_S1x64_2_0) : (⟨S3x64, .f32⟩ : BufTy).Contents (Elt F) → (⟨S1x64, .f32⟩ : BufTy).Contents (Elt F)),
    StableHlo.reshape main_v92 main_v93 rfl shapeCasts_S1x64_S64,
    StableHlo.unary main_v93 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S150000x64 ![0, 1] bcast_S1x64_S150000x64_0_1 : (⟨S1x64, .f32⟩ : BufTy).Contents (Elt F) → (⟨S150000x64, .f32⟩ : BufTy).Contents (Elt F)),
    StableHlo.binary main_v91 main_v95 main_v96 (addf : (⟨S150000x64, .f32⟩ : BufTy).Contents (Elt F) → (⟨S150000x64, .f32⟩ : BufTy).Contents (Elt F) → (⟨S150000x64, .f32⟩ : BufTy).Contents (Elt F)),
    StableHlo.nullary main_cst_13 (constant S_ .f32 0x3C23D70A#32),
    StableHlo.TRef.nullary main_call6.cst (constant S_ .f32 0x00000000#32),
    StableHlo.TRef.unary main_call6.cst main_call6.v0 (broadcastInDim S150000x64 ![] bcast_S_S150000x64),
    StableHlo.TRef.binary (.of main_v96 : StableHlo.TRef sig ⟨S150000x64, .f32⟩) main_call6.v0 main_call6.v1 (cmpf .oge),
    StableHlo.TRef.unary (.of main_cst_13 : StableHlo.TRef sig ⟨S_, .f32⟩) main_call6.v2 id,
    StableHlo.TRef.unary main_call6.v2 main_call6.v3 (broadcastInDim S150000x64 ![] bcast_S_S150000x64),
    StableHlo.TRef.binary main_call6.v3 (.of main_v96 : StableHlo.TRef sig ⟨S150000x64, .f32⟩) main_call6.v4 mulf,
    StableHlo.TRef.ternary main_call6.v1 (.of main_v96 : StableHlo.TRef sig ⟨S150000x64, .f32⟩) main_call6.v4 main_call6.call0.v0 select,
    StableHlo.binary main_v70 main_v88 main_v98 (mulf : (⟨S150000x64, .f32⟩ : BufTy).Contents (Elt F) → (⟨S150000x64, .f32⟩ : BufTy).Contents (Elt F) → (⟨S150000x64, .f32⟩ : BufTy).Contents (Elt F)),
    StableHlo.unary main_arg6 main_v99 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v99 main_v100 rfl shapeCasts_S1x64x64_S64x64,
    StableHlo.binary main_v98 main_v100 main_v101 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg7 main_v102 ((extractStridedSlice S1x64 ![2, 0] · slices_S3x64_S1x64_2_0) : (⟨S3x64, .f32⟩ : BufTy).Contents (Elt F) → (⟨S1x64, .f32⟩ : BufTy).Contents (Elt F)),
    StableHlo.reshape main_v102 main_v103 rfl shapeCasts_S1x64_S64,
    StableHlo.unary main_v103 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S150000x64 ![0, 1] bcast_S1x64_S150000x64_0_1 : (⟨S1x64, .f32⟩ : BufTy).Contents (Elt F) → (⟨S150000x64, .f32⟩ : BufTy).Contents (Elt F)),
    StableHlo.binary main_v101 main_v105 main_v106 (addf : (⟨S150000x64, .f32⟩ : BufTy).Contents (Elt F) → (⟨S150000x64, .f32⟩ : BufTy).Contents (Elt F) → (⟨S150000x64, .f32⟩ : BufTy).Contents (Elt F)),
    StableHlo.nullary main_cst_14 (constant S_ .f32 0x3C23D70A#32),
    StableHlo.TRef.nullary main_call7.cst (constant S_ .f32 0x00000000#32),
    StableHlo.TRef.unary main_call7.cst main_call7.v0 (broadcastInDim S150000x64 ![] bcast_S_S150000x64),
    StableHlo.TRef.binary (.of main_v106 : StableHlo.TRef sig ⟨S150000x64, .f32⟩) main_call7.v0 main_call7.v1 (cmpf .oge),
    StableHlo.TRef.unary (.of main_cst_14 : StableHlo.TRef sig ⟨S_, .f32⟩) main_call7.v2 id,
    StableHlo.TRef.unary main_call7.v2 main_call7.v3 (broadcastInDim S150000x64 ![] bcast_S_S150000x64),
    StableHlo.TRef.binary main_call7.v3 (.of main_v106 : StableHlo.TRef sig ⟨S150000x64, .f32⟩) main_call7.v4 mulf,
    StableHlo.TRef.ternary main_call7.v1 (.of main_v106 : StableHlo.TRef sig ⟨S150000x64, .f32⟩) main_call7.v4 main_call7.call0.v0 select,
    StableHlo.binary main_v97 main_v107 main_v108 (addf : (⟨S150000x64, .f32⟩ : BufTy).Contents (Elt F) → (⟨S150000x64, .f32⟩ : BufTy).Contents (Elt F) → (⟨S150000x64, .f32⟩ : BufTy).Contents (Elt F)),
    StableHlo.TRef.binary (.of main_v108 : StableHlo.TRef sig ⟨S150000x64, .f32⟩) (.of main_v108 : StableHlo.TRef sig ⟨S150000x64, .f32⟩) main_call8.v0 mulf,
    StableHlo.TRef.nullary main_call8.cst (constant S_ .f32 0x00000000#32),
    StableHlo.TRef.binary main_call8.v0 main_call8.cst main_call8.v1 (fun x v => Host.reduceAdd x v reducesTo_S150000x64_S150000_d1 h_S_),
    StableHlo.TRef.unary main_call8.v1 main_call8.v2 (broadcastInDim S150000x1 ![0] bcast_S150000_S150000x1_0),
    StableHlo.TRef.unary main_call8.v2 main_call8.v3 Host.sqrt,
    StableHlo.nullary main_cst_15 (constant S_ .f32 0x2B8CBCCC#32),
    StableHlo.unary main_cst_15 main_v110 (broadcastInDim S150000x1 ![] bcast_S_S150000x1 : (⟨S_, .f32⟩ : BufTy).Contents (Elt F) → (⟨S150000x1, .f32⟩ : BufTy).Contents (Elt F)),
    StableHlo.binary main_v109 main_v110 main_v111 (maximumf : (⟨S150000x1, .f32⟩ : BufTy).Contents (Elt F) → (⟨S150000x1, .f32⟩ : BufTy).Contents (Elt F) → (⟨S150000x1, .f32⟩ : BufTy).Contents (Elt F)),
    StableHlo.unary main_v111 main_v112 (broadcastInDim S150000x64 ![0, 1] bcast_S150000x1_S150000x64_0_1 : (⟨S150000x1, .f32⟩ : BufTy).Contents (Elt F) → (⟨S150000x64, .f32⟩ : BufTy).Contents (Elt F)),
    StableHlo.binary main_v108 main_v112 main_v113 (Host.divf : (⟨S150000x64, .f32⟩ : BufTy).Contents (Elt F) → (⟨S150000x64, .f32⟩ : BufTy).Contents (Elt F) → (⟨S150000x64, .f32⟩ : BufTy).Contents (Elt F)) ]

theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., reshape_bufs_sub ..,
    binary_bufs_sub .., unary_bufs_sub .., reshape_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., binary_bufs_sub .., nullary_bufs_sub .., binary_bufs_sub .., unary_bufs_sub ..,
    unary_bufs_sub .., nullary_bufs_sub .., unary_bufs_sub .., binary_bufs_sub .., unary_bufs_sub .., binary_bufs_sub ..⟩

/-- The references the stretch writes: one per operation, its result. -/
abbrev opsC_W : List (Ref sig .tc) :=
  [main_c_10, main_v76, main_v77, main_c_11, main_v78, main_v79, main_v80, main_v81,
    main_v82, main_v83, main_v84, main_v85, main_cst_12, main_v86, main_v87, main_v88,
    main_v89, main_v90, main_v91, main_v92, main_v93, main_v94, main_v95, main_v96,
    main_cst_13, main_call6.cst.ref, main_call6.v0.ref, main_call6.v1.ref, main_call6.v2.ref, main_call6.v3.ref, main_call6.v4.ref, main_call6.call0.v0.ref,
    main_v98, main_v99, main_v100, main_v101, main_v102, main_v103, main_v104, main_v105,
    main_v106, main_cst_14, main_call7.cst.ref, main_call7.v0.ref, main_call7.v1.ref, main_call7.v2.ref, main_call7.v3.ref, main_call7.v4.ref,
    main_call7.call0.v0.ref, main_v108, main_call8.v0.ref, main_call8.cst.ref, main_call8.v1.ref, main_call8.v2.ref, main_call8.v3.ref, main_cst_15,
    main_v110, main_v111, main_v112, main_v113]

theorem opsC_writes : (opsC : List (HloOp τ sig (Elt F))).Forall fun op => op.writes ⊆ (opsC_W.map (Proc.devRef (τ := τ) .tc)).toFinset := by
  simp only [List.Forall]
  exact ⟨by writes_in, by writes_in, by writes_in, by writes_in, by writes_in, by writes_in, by writes_in, by writes_in,
    by writes_in, by writes_in, by writes_in, by writes_in, by writes_in, by writes_in, by writes_in, by writes_in,
    by writes_in, by writes_in, by writes_in, by writes_in, by writes_in, by writes_in, by writes_in, by writes_in,
    by writes_in, by writes_in, by writes_in, by writes_in, by writes_in, by writes_in, by writes_in, by writes_in,
    by writes_in, by writes_in, by writes_in, by writes_in, by writes_in, by writes_in, by writes_in, by writes_in,
    by writes_in, by writes_in, by writes_in, by writes_in, by writes_in, by writes_in, by writes_in, by writes_in,
    by writes_in, by writes_in, by writes_in, by writes_in, by writes_in, by writes_in, by writes_in, by writes_in,
    by writes_in, by writes_in, by writes_in, by writes_in⟩

theorem opsC_fresh : ∀ op ∈ (opsC : List (HloOp τ sig (Elt F))), op.fresh = ∅ := by
  intro _ h; (repeat (cases h with | head => rfl | tail _ h => ?_)); exact nomatch h

/-- The four blocks side by side (%114). One operation. -/
abbrev opsD : List (HloOp τ sig (Elt F)) :=
  [ StableHlo.nary ![main_arg0, main_v37, main_v75, main_v113] main_v114 (fun u => concatenate S150000x256 1 [⟨S150000x64, u 0⟩, ⟨S150000x64, u 1⟩, ⟨S150000x64, u 2⟩, ⟨S150000x64, u 3⟩] concatenates_S150000x64_S150000x64_S150000x64_S150000x64_S150000x256_d1) ]

theorem opsD_sub : (opsD : List (HloOp τ sig (Elt F))).Forall fun op => op.bufs ⊆ tcRefs τ sig :=
  nary_bufs_sub ..

/-- The references the stretch writes: one per operation, its result. -/
abbrev opsD_W : List (Ref sig .tc) :=
  [main_v114]

theorem opsD_writes : (opsD : List (HloOp τ sig (Elt F))).Forall fun op => op.writes ⊆ (opsD_W.map (Proc.devRef (τ := τ) .tc)).toFinset := by
  simp only [List.Forall]
  writes_in

theorem opsD_fresh : ∀ op ∈ (opsD : List (HloOp τ sig (Elt F))), op.fresh = ∅ := by
  intro _ h; (repeat (cases h with | head => rfl | tail _ h => ?_)); exact nomatch h

/-- @main's operations, in order: the three layers, then the concatenation. -/
abbrev ops : List (HloOp τ sig (Elt F)) := opsA ++ opsB ++ opsC ++ opsD

-- one bind re-associated per statement: the rewriting under the chain recurses once per statement
set_option maxRecDepth 16384 in
set_option maxHeartbeats 4000000 in
/-- @main is that straight line: the three windows in order, the local functions' definitions unfolded at their
    calls and the calls' records at their fields; both sides are then one chain of steps once sequencing is
    reassociated. -/
theorem main_eq (c : Dev nD) : main (F := F) c = seq ops := by
  simp only [ops, opsA, opsB, opsC, opsD, seq_append, main, main_part0, main_part1, main_part2,
    fn_leaky_relu.body, fn_norm.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, List.forall_append]
  exact ⟨⟨⟨opsA_sub, opsB_sub⟩, opsC_sub⟩, opsD_sub⟩

/-- Every operation determines its results. -/
theorem ops_fresh : ∀ op ∈ (ops : List (HloOp τ sig (Elt F))), op.fresh = ∅ := by
  intro op h
  simp only [ops, List.mem_append] at h
  rcases h with ((h | h) | h) | h
  exacts [opsA_fresh op h, opsB_fresh op h, opsC_fresh op h, opsD_fresh op h]

/-- On every device, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.RefValue.lean ====
/-
  What the reference program's buffers hold after @main.

  @main's line of operations is four stretches in a row — one per graph-convolution layer and the final
  concatenation —, so the contents after the whole line are the contents after the last stretch, from those after
  the third, and so on back to the launch contents. Two kinds of fact per stretch suffice. A stretch changes only
  the buffers its own operations write (one each), so the eight arguments, and the earlier layers' normalised
  copies, come through the later stretches as they were. And a layer's stretch, read from ANY contents of the
  buffers it starts from, leaves its sum buffer at the dense step of the current embedding and its propagation
  ("layerNE" of the embedding and its "spmm"), and its last buffer at that sum row-normalised ("layerNM").
  Chained, the three sums are "ego1", "ego2", "ego3" of the arguments, and the result buffer holds the input
  embedding and the three normalised layers side by side: "outR". Each embedding is used several times by the
  next layer, so the fully written-out result would be exponentially large; the chain below never opens an
  embedding once it is named.
-/
import proofs.«416135_j28965259444540_1_alg».proof.Proof.RefRun
import proofs.«416135_j28965259444540_1_alg».proof.Proof.Spec
import Idealize.ShloMosaic.Lib.Pipeline.Frame

noncomputable section

namespace Cert.ReferenceIdeal.Hand

open Cert Cert.ReferenceIdeal Cert.ReferenceIdeal.Facts₀
open Idealize.ShloMosaic Idealize.ShloMosaic.TcCoe Idealize.SL.Sem Idealize.ShloMosaic.StableHlo

variable {F : FTy → Type} [FloatOps F]

/-! ## What a stretch leaves alone

A stretch changes only the buffers its operations write: one each, listed with the stretch. -/

theorem A_keeps (W : Valuation τ sig (Elt F)) {r : Ref sig .tc} (hr : r ∉ opsA_W) :
    after opsA W (r : DevRef τ sig) = W (r : DevRef τ sig) := after_of_writes_sub opsA W opsA_writes hr
theorem B_keeps (W : Valuation τ sig (Elt F)) {r : Ref sig .tc} (hr : r ∉ opsB_W) :
    after opsB W (r : DevRef τ sig) = W (r : DevRef τ sig) := after_of_writes_sub opsB W opsB_writes hr
theorem C_keeps (W : Valuation τ sig (Elt F)) {r : Ref sig .tc} (hr : r ∉ opsC_W) :
    after opsC W (r : DevRef τ sig) = W (r : DevRef τ sig) := after_of_writes_sub opsC W opsC_writes hr
theorem D_keeps (W : Valuation τ sig (Elt F)) {r : Ref sig .tc} (hr : r ∉ opsD_W) :
    after opsD W (r : DevRef τ sig) = W (r : DevRef τ sig) := after_of_writes_sub opsD W opsD_writes hr

/-- A buffer none of the four stretches writes is, after @main, as it was. -/
theorem ops_keeps (V : Valuation τ sig (Elt F)) {r : Ref sig .tc} (hA : r ∉ opsA_W) (hB : r ∉ opsB_W) (hC : r ∉ opsC_W)
    (hD : r ∉ opsD_W) : after ops V (r : DevRef τ sig) = V (r : DevRef τ sig) := by
  rw [ops, after_append, after_append, after_append, D_keeps _ hD, C_keeps _ hC, B_keeps _ hB, A_keeps _ hA]

/-! ## What a stretch computes

Each layer's stretch, from ANY contents "W" of the buffers it reads: the fold unrolled and each operation's result
read at its own buffer, the new embedding is the dense step of the current one and its propagation, and the
normalised copy is that embedding row-normalised. The current embedding is the first argument for the first
layer and the previous layer's sum (%32, %70) for the next two; the layer's weights are its slice of the stacked
parameters. -/

set_option maxRecDepth 8192 in
set_option maxHeartbeats 1000000 in
theorem A_v32 (W : Valuation τ sig (Elt F)) :
    after opsA W (main_v32 : DevRef τ sig)
      = Spec.ego1 (W (main_arg0 : DevRef τ sig)) (W main_arg1) (W main_arg2) (W main_arg3) (W main_arg4) (W main_arg5)
          (W main_arg6) (W main_arg7) := by
  after_results_simp
  rfl

set_option maxRecDepth 8192 in
set_option maxHeartbeats 1000000 in
theorem A_v37 (W : Valuation τ sig (Elt F)) :
    after opsA W (main_v37 : DevRef τ sig)
      = Spec.layerNM (Spec.ego1 (W (main_arg0 : DevRef τ sig)) (W main_arg1) (W main_arg2) (W main_arg3) (W main_arg4)
          (W main_arg5) (W main_arg6) (W main_arg7)) := by
  after_results_simp
  rfl

set_option maxRecDepth 8192 in
set_option maxHeartbeats 1000000 in
theorem B_v70 (W : Valuation τ sig (Elt F)) :
    after opsB W (main_v70 : DevRef τ sig)
      = Spec.layerNE (W (main_v32 : DevRef τ sig))
          (Spec.spmm (W (main_v32 : DevRef τ sig)) (W main_arg1) (W main_arg2) (W main_arg3))
          (Spec.w1 (W main_arg4)) (Spec.b1 (W main_arg5)) (Spec.w1 (W main_arg6)) (Spec.b1 (W main_arg7)) := by
  after_results_simp
  rfl

set_option maxRecDepth 8192 in
set_option maxHeartbeats 1000000 in
theorem B_v75 (W : Valuation τ sig (Elt F)) :
    after opsB W (main_v75 : DevRef τ sig)
      = Spec.layerNM (Spec.layerNE (W (main_v32 : DevRef τ sig))
          (Spec.spmm (W (main_v32 : DevRef τ sig)) (W main_arg1) (W main_arg2) (W main_arg3))
          (Spec.w1 (W main_arg4)) (Spec.b1 (W main_arg5)) (Spec.w1 (W main_arg6)) (Spec.b1 (W main_arg7))) := by
  after_results_simp
  rfl

set_option maxRecDepth 8192 in
set_option maxHeartbeats 1000000 in
theorem C_v113 (W : Valuation τ sig (Elt F)) :
    after opsC W (main_v113 : DevRef τ sig)
      = Spec.layerNM (Spec.layerNE (W (main_v70 : DevRef τ sig))
          (Spec.spmm (W (main_v70 : DevRef τ sig)) (W main_arg1) (W main_arg2) (W main_arg3))
          (Spec.w2 (W main_arg4)) (Spec.b2 (W main_arg5)) (Spec.w2 (W main_arg6)) (Spec.b2 (W main_arg7))) := by
  after_results_simp
  rfl

/-- The last operation lays its four operands side by side. -/
theorem D_v114 (W : Valuation τ sig (Elt F)) :
    after opsD W (main_v114 : DevRef τ sig)
      = Spec.cat4 (W (main_arg0 : DevRef τ sig)) (W main_v37) (W main_v75) (W main_v113) := by
  after_results_simp
  rfl

/-! ## The stretches in a row

From the launch contents "V": the three embeddings and their normalised copies are the named functions of the
eight arguments. Each step reads the previous stretch's facts and that no stretch writes an argument; the
embeddings are never opened. -/

section Row

variable (V : Valuation τ sig (Elt F))

/-- The second layer's embedding. -/
theorem row_v70 :
    after opsB (after opsA V) (main_v70 : DevRef τ sig)
      = Spec.ego2 (V (main_arg0 : DevRef τ sig)) (V main_arg1) (V main_arg2) (V main_arg3) (V main_arg4) (V main_arg5)
          (V main_arg6) (V main_arg7) := by
  rw [Spec.ego2, B_v70, A_v32, A_keeps V (r := main_arg1) (by decide), A_keeps V (r := main_arg2) (by decide),
    A_keeps V (r := main_arg3) (by decide), A_keeps V (r := main_arg4) (by decide), A_keeps V (r := main_arg5) (by decide),
    A_keeps V (r := main_arg6) (by decide), A_keeps V (r := main_arg7) (by decide)]

/-- Its normalised copy. -/
theorem row_v75 :
    after opsB (after opsA V) (main_v75 : DevRef τ sig)
      = Spec.layerNM (Spec.ego2 (V (main_arg0 : DevRef τ sig)) (V main_arg1) (V main_arg2) (V main_arg3) (V main_arg4)
          (V main_arg5) (V main_arg6) (V main_arg7)) := by
  rw [Spec.ego2, B_v75, A_v32, A_keeps V (r := main_arg1) (by decide), A_keeps V (r := main_arg2) (by decide),
    A_keeps V (r := main_arg3) (by decide), A_keeps V (r := main_arg4) (by decide), A_keeps V (r := main_arg5) (by decide),
    A_keeps V (r := main_arg6) (by decide), A_keeps V (r := main_arg7) (by decide)]

/-- The third layer's normalised copy. -/
theorem row_v113 :
    after opsC (after opsB (after opsA V)) (main_v113 : DevRef τ sig)
      = Spec.layerNM (Spec.ego3 (V (main_arg0 : DevRef τ sig)) (V main_arg1) (V main_arg2) (V main_arg3) (V main_arg4)
          (V main_arg5) (V main_arg6) (V main_arg7)) := by
  rw [Spec.ego3, C_v113, row_v70,
    B_keeps _ (r := main_arg1) (by decide), B_keeps _ (r := main_arg2) (by decide), B_keeps _ (r := main_arg3) (by decide),
    B_keeps _ (r := main_arg4) (by decide), B_keeps _ (r := main_arg5) (by decide), B_keeps _ (r := main_arg6) (by decide),
    B_keeps _ (r := main_arg7) (by decide),
    A_keeps V (r := main_arg1) (by decide), A_keeps V (r := main_arg2) (by decide), A_keeps V (r := main_arg3) (by decide),
    A_keeps V (r := main_arg4) (by decide), A_keeps V (r := main_arg5) (by decide), A_keeps V (r := main_arg6) (by decide),
    A_keeps V (r := main_arg7) (by decide)]

end Row

/-! ## The result and the arguments -/

/-- After @main the result buffer holds the input embedding and the three normalised layers side by side. -/
theorem out_eq (V : Valuation τ sig (Elt F)) :
    after ops V (main_v114 : DevRef τ sig)
      = Spec.outR (V (main_arg0 : DevRef τ sig)) (V main_arg1) (V main_arg2) (V main_arg3) (V main_arg4) (V main_arg5)
          (V main_arg6) (V main_arg7) := by
  rw [Spec.outR, ops, after_append, after_append, after_append, D_v114, row_v113,
    C_keeps _ (r := main_v75) (by decide), row_v75,
    C_keeps _ (r := main_v37) (by decide), B_keeps _ (r := main_v37) (by decide), A_v37,
    C_keeps _ (r := main_arg0) (by decide), B_keeps _ (r := main_arg0) (by decide), A_keeps _ (r := main_arg0) (by decide)]

/-- No operation writes an argument. -/
theorem arg0_eq (V : Valuation τ sig (Elt F)) : after ops V (main_arg0 : DevRef τ sig) = V (main_arg0 : DevRef τ sig) :=
  ops_keeps V (by decide) (by decide) (by decide) (by decide)
theorem arg1_eq (V : Valuation τ sig (Elt F)) : after ops V (main_arg1 : DevRef τ sig) = V (main_arg1 : DevRef τ sig) :=
  ops_keeps V (by decide) (by decide) (by decide) (by decide)
theorem arg2_eq (V : Valuation τ sig (Elt F)) : after ops V (main_arg2 : DevRef τ sig) = V (main_arg2 : DevRef τ sig) :=
  ops_keeps V (by decide) (by decide) (by decide) (by decide)
theorem arg3_eq (V : Valuation τ sig (Elt F)) : after ops V (main_arg3 : DevRef τ sig) = V (main_arg3 : DevRef τ sig) :=
  ops_keeps V (by decide) (by decide) (by decide) (by decide)
theorem arg4_eq (V : Valuation τ sig (Elt F)) : after ops V (main_arg4 : DevRef τ sig) = V (main_arg4 : DevRef τ sig) :=
  ops_keeps V (by decide) (by decide) (by decide) (by decide)
theorem arg5_eq (V : Valuation τ sig (Elt F)) : after ops V (main_arg5 : DevRef τ sig) = V (main_arg5 : DevRef τ sig) :=
  ops_keeps V (by decide) (by decide) (by decide) (by decide)
theorem arg6_eq (V : Valuation τ sig (Elt F)) : after ops V (main_arg6 : DevRef τ sig) = V (main_arg6 : DevRef τ sig) :=
  ops_keeps V (by decide) (by decide) (by decide) (by decide)
theorem arg7_eq (V : Valuation τ sig (Elt F)) : after ops V (main_arg7 : DevRef τ sig) = V (main_arg7 : DevRef τ sig) :=
  ops_keeps V (by decide) (by decide) (by decide) (by decide)

end Cert.ReferenceIdeal.Hand

end
-- ==== Proof.lean ====
/-
  A three-layer graph-convolution forward pass: per layer a sparse propagation
  `side = Σ_{edges e with rows e = r} vals e · ego (cols e)` on the host, then on the TensorCore, block by
  block of 3000 rows, `ego' = leaky (side · W₁ + b₁) + leaky ((ego ⊙ side) · W₂ + b₂)` and its row-normalised
  copy `ego' / max (‖ego'‖₂, ε)`; the result is the input embedding and the three normalised layers side by side.

  The kernel program gathers rows with a fill value outside `[0, 150000)` (after counting negative indices from
  the end) where the reference clamps; under the stated domain `-150000 ≤ cols < 150000` the fill mask is all ones
  and the two gathers agree. Over the extended reals every other step is the same operation on both sides: the
  matrix unit's product into a zero accumulator and the host's contraction are the same sum over the 64 columns,
  the lane sum and the host's reduction are the same sum, a change of float format is the identity, and a block
  of the kernel's output is the restriction of the whole-array function to its rows. So both programs end at
  `Cert.Spec.outR` of the arguments. The three frames: the two kernel programs run as ten segments (host
  stretches and Pallas calls) from the launch memory, no segment writing an argument; the reference is a straight
  line of host operations.
-/
import proofs.«416135_j28965259444540_1_alg».proof.Defs
import proofs.«416135_j28965259444540_1_alg».proof.Proof.Gen.Kernel
import proofs.«416135_j28965259444540_1_alg».proof.Proof.Gen.KernelIdeal
import proofs.«416135_j28965259444540_1_alg».proof.Proof.Gen.ReferenceIdeal
import proofs.«416135_j28965259444540_1_alg».proof.Proof.Gen.Pre_finite_inputs
import proofs.«416135_j28965259444540_1_alg».proof.Proof.K.Run
import proofs.«416135_j28965259444540_1_alg».proof.Proof.KI.Value
import proofs.«416135_j28965259444540_1_alg».proof.Proof.RefValue
import proofs.«416135_j28965259444540_1_alg».proof.Proof.TakeFill
import Idealize.ShloMosaic.Adequacy
import Idealize.ShloMosaic.Init

noncomputable section

namespace Cert.Proof

open Idealize.ShloMosaic Idealize.ShloMosaic.TcCoe Idealize.SL.Sem

/-- The word-level kernel program runs to its end and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is a straight line of host operations, none of which writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Hand.arg0_eq _),
     (h c Cert.ReferenceIdeal.main_arg1).trans (Cert.ReferenceIdeal.Hand.arg1_eq _),
     (h c Cert.ReferenceIdeal.main_arg2).trans (Cert.ReferenceIdeal.Hand.arg2_eq _),
     (h c Cert.ReferenceIdeal.main_arg3).trans (Cert.ReferenceIdeal.Hand.arg3_eq _),
     (h c Cert.ReferenceIdeal.main_arg4).trans (Cert.ReferenceIdeal.Hand.arg4_eq _),
     (h c Cert.ReferenceIdeal.main_arg5).trans (Cert.ReferenceIdeal.Hand.arg5_eq _),
     (h c Cert.ReferenceIdeal.main_arg6).trans (Cert.ReferenceIdeal.Hand.arg6_eq _),
     (h c Cert.ReferenceIdeal.main_arg7).trans (Cert.ReferenceIdeal.Hand.arg7_eq _)⟩)
    (Cert.ReferenceIdeal.Hand.run_main (F := Ideal) m ρ)

/-- Both idealized programs end with the result buffer at `Cert.Spec.outR` of the arguments. -/
theorem algebraic : Cert.algebraic_KernelIdeal_ReferenceIdeal := by
  intro m ρ m' ρ' hpre hagree
  have hR := fun c => Cert.TakeFill.inRange_of_pre m hpre c
  refine ⟨fun c => Cert.Spec.outR (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v54 (by decide))).trans (Cert.KernelIdeal.HandVal.out_eq m hR c),
      (h c _ (Cert.KernelIdeal.Hand.mem_uc Cert.KernelIdeal.main_arg0 (by decide))).trans (Cert.KernelIdeal.Hand.W10_main_arg0 m c),
      (h c _ (Cert.KernelIdeal.Hand.mem_uc Cert.KernelIdeal.main_arg1 (by decide))).trans (Cert.KernelIdeal.Hand.W10_main_arg1 m c),
      (h c _ (Cert.KernelIdeal.Hand.mem_uc Cert.KernelIdeal.main_arg2 (by decide))).trans (Cert.KernelIdeal.Hand.W10_main_arg2 m c),
      (h c _ (Cert.KernelIdeal.Hand.mem_uc Cert.KernelIdeal.main_arg3 (by decide))).trans (Cert.KernelIdeal.Hand.W10_main_arg3 m c),
      (h c _ (Cert.KernelIdeal.Hand.mem_uc Cert.KernelIdeal.main_arg4 (by decide))).trans (Cert.KernelIdeal.Hand.W10_main_arg4 m c),
      (h c _ (Cert.KernelIdeal.Hand.mem_uc Cert.KernelIdeal.main_arg5 (by decide))).trans (Cert.KernelIdeal.Hand.W10_main_arg5 m c),
      (h c _ (Cert.KernelIdeal.Hand.mem_uc Cert.KernelIdeal.main_arg6 (by decide))).trans (Cert.KernelIdeal.Hand.W10_main_arg6 m c),
      (h c _ (Cert.KernelIdeal.Hand.mem_uc Cert.KernelIdeal.main_arg7 (by decide))).trans (Cert.KernelIdeal.Hand.W10_main_arg7 m c)⟩
  · refine (θ_run Cert.ReferenceIdeal.defs _ _).mono (fun r h c => ?_) (Cert.ReferenceIdeal.Hand.run_main (F := Ideal) m' ρ')
    obtain ⟨e0, e1, e2, e3, e4, e5, e6, e7⟩ := hagree c
    refine ⟨?_,
      (h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _),
      (h c Cert.ReferenceIdeal.main_arg7).trans (Cert.ReferenceIdeal.Hand.arg7_eq _)⟩
    refine (h c Cert.ReferenceIdeal.main_v114).trans ((Cert.ReferenceIdeal.Hand.out_eq _).trans ?_)
    show Cert.Spec.outR (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
